-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S4096x128 : Shape := ⟨2, ![4096, 128]⟩
abbrev S262144 : Shape := ⟨1, ![262144]⟩
abbrev S4096x56 : Shape := ⟨2, ![4096, 56]⟩
abbrev S256x128 : Shape := ⟨2, ![256, 128]⟩
abbrev S128 : Shape := ⟨1, ![128]⟩
abbrev S128x7 : Shape := ⟨2, ![128, 7]⟩
abbrev S7 : Shape := ⟨1, ![7]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x7 : S_.BroadcastsInDim S128x7 (![] : Fin 0 → Fin S128x7.rank)
  reducesTo_S128x7_S_d0_1 : S128x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg7 : FVec F S128x7 .f32) (main_arg8 : FVec F S7 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x7 .f32 := Host.absf main_arg7
  let main_cst_6 : FVec F S_ .f32 := constant S_ .f32 0x7F800000#32
  let main_v20 : FVec F S128x7 .f32 := broadcastInDim S128x7 ![] bcast_S_S128x7 main_cst_6
  let main_v21 : IVec S128x7 1 := cmpf .olt main_v19 main_v20
  let main_c_7 : IVec S_ 1 := constantI S_ 1 1#1
  let main_v22 : IVec S_ 1 := (fun x v => Host.reduce IntOp.andi x v reducesTo_S128x7_S_d0_1 h_S_) main_v21 main_c_7
  let main_v23 : IVec S_ 1 := andi main_v18 main_v22
  let main_v24 : FVec F S7 .f32 := Host.absf main_arg8
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S262144x128 .f32) (main_arg1 : FVec F S4096x128 .f32) (main_arg2 : IVec S262144 1) (main_arg3 : IVec S4096x56 1) (main_arg4 : IVec S262144 32) (main_arg5 : FVec F S256x128 .f32) (main_arg6 : FVec F S128 .f32) (main_arg7 : FVec F S128x7 .f32) (main_arg8 : FVec F S7 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S256x128 .f32 := Host.absf main_arg5
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_v13 main_v16
-- ==== Kernel.lean ====
abbrev S262144x128 : Shape := ⟨2, ![262144, 128]⟩
abbrev S4096x128 : Shape := ⟨2, ![4096, 128]⟩
abbrev S262144 : Shape := ⟨1, ![262144]⟩
abbrev S4096x56 : Shape := ⟨2, ![4096, 56]⟩
abbrev S256x128 : Shape := ⟨2, ![256, 128]⟩
abbrev S128 : Shape := ⟨1, ![128]⟩
abbrev S128x7 : Shape := ⟨2, ![128, 7]⟩
abbrev S7 : Shape := ⟨1, ![7]⟩
abbrev S_ : Shape := ⟨0, ![]⟩
abbrev S4096 : Shape := ⟨1, ![4096]⟩
abbrev S262144x1 : Shape := ⟨2, ![262144, 1]⟩
abbrev S1 : Shape := ⟨1, ![1]⟩
abbrev S4097 : Shape := ⟨1, ![4097]⟩
abbrev S32769 : Shape := ⟨1, ![32769]⟩
abbrev S32768 : Shape := ⟨1, ![32768]⟩
abbrev S32768x1 : Shape := ⟨2, ![32768, 1]⟩
abbrev S1x1 : Shape := ⟨2, ![1, 1]⟩
abbrev S32768x128 : Shape := ⟨2, ![32768, 128]⟩
abbrev S4096x8 : Shape := ⟨2, ![4096, 8]⟩
abbrev S4096x8x7 : Shape := ⟨3, ![4096, 8, 7]⟩
abbrev S4096x8x1 : Shape := ⟨3, ![4096, 8, 1]⟩
abbrev S128x128 : Shape := ⟨2, ![128, 128]⟩
abbrev S512x128 : Shape := ⟨2, ![512, 128]⟩
abbrev S512x56 : Shape := ⟨2, ![512, 56]⟩
abbrev S512x8x128 : Shape := ⟨3, ![512, 8, 128]⟩
abbrev S512x1x128 : Shape := ⟨3, ![512, 1, 128]⟩
abbrev S1x1x128 : Shape := ⟨3, ![1, 1, 128]⟩
abbrev S4096x7 : Shape := ⟨2, ![4096, 7]⟩
abbrev S1x7 : Shape := ⟨2, ![1, 7]⟩

abbrev nBuf : Space → Nat
  | .hbm => 108
  | .vmem => 13
  | .smem => 0
  | _ => 0

abbrev bufTy : (tb : Table) → Fin (tcTables nBuf tb) → BufTy
  | .hbm, ⟨0, _⟩ => ⟨S262144x128, .f32⟩
  | .hbm, ⟨1, _⟩ => ⟨S4096x128, .f32⟩
  | .hbm, ⟨2, _⟩ => ⟨S262144, .i1⟩
  | .hbm, ⟨3, _⟩ => ⟨S4096x56, .i1⟩
  | .hbm, ⟨4, _⟩ => ⟨S262144, .i32⟩
  | .hbm, ⟨5, _⟩ => ⟨S256x128, .f32⟩
  | .hbm, ⟨6, _⟩ => ⟨S128, .f32⟩
  | .hbm, ⟨7, _⟩ => ⟨S128x7, .f32⟩
  | .hbm, ⟨8, _⟩ => ⟨S7, .f32⟩
  | .hbm, ⟨9, _⟩ => ⟨S262144, .i32⟩
  | .hbm, ⟨10, _⟩ => ⟨S_, .i32⟩
  | .hbm, ⟨11, _⟩ => ⟨S4096, .i32⟩
  | .hbm, ⟨12, _⟩ => ⟨S262144x1, .i32⟩
  | .hbm, ⟨13, _⟩ => ⟨S4096, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S_, .i32⟩
  | .hbm, ⟨18, _⟩ => ⟨S4096, .i32⟩
  | .hbm, ⟨19, _⟩ => ⟨S4097, .i32⟩
  | .hbm, ⟨20, _⟩ => ⟨S4096, .i32⟩
  | .hbm, ⟨21, _⟩ => ⟨S_, .i32⟩
  | .hbm, ⟨22, _⟩ => ⟨S_, .i32⟩
  | .hbm, ⟨23, _⟩ => ⟨S262144, .i32⟩
  | .hbm, ⟨24, _⟩ => ⟨S_, .i32⟩
  | .hbm, ⟨25, _⟩ => ⟨S262144, .i32⟩
  | .hbm, ⟨26, _⟩ => ⟨S262144, .i32⟩
  | .hbm, ⟨27, _⟩ => ⟨S_, .i32⟩
  | .hbm, ⟨28, _⟩ => ⟨S262144, .i32⟩
  | .hbm, ⟨29, _⟩ => ⟨S262144, .i1⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S262144, .i32⟩
  | .hbm, ⟨34, _⟩ => ⟨S262144x1, .i32⟩
  | .hbm, ⟨35, _⟩ => ⟨S262144, .i32⟩
  | .hbm, ⟨36, _⟩ => ⟨S262144, .i32⟩
  | .hbm, ⟨37, _⟩ => ⟨S_, .i32⟩
  | .hbm, ⟨38, _⟩ => ⟨S262144, .i32⟩
  | .hbm, ⟨39, _⟩ => ⟨S262144, .i1⟩
  | .hbm, ⟨40, _⟩ => ⟨S262144, .i1⟩
  | .hbm, ⟨41, _⟩ => ⟨S_, .i32⟩
  | .hbm, ⟨42, _⟩ => ⟨S262144, .i32⟩
  | .hbm, ⟨43, _⟩ => ⟨S262144, .i32⟩
  | .hbm, ⟨44, _⟩ => ⟨S262144, .i32⟩
  | .hbm, ⟨45, _⟩ => ⟨S_, .i32⟩
  | .hbm, ⟨46, _⟩ => ⟨S_, .i32⟩
  | .hbm, ⟨47, _⟩ => ⟨S262144, .i32⟩
  | .hbm, ⟨48, _⟩ => ⟨S262144, .i32⟩
  | .hbm, ⟨49, _⟩ => ⟨S262144, .i32⟩
  | .hbm, ⟨50, _⟩ => ⟨S_, .i32⟩
  | .hbm, ⟨51, _⟩ => ⟨S32769, .i32⟩
  | .hbm, ⟨52, _⟩ => ⟨S_, .i32⟩
  | .hbm, ⟨53, _⟩ => ⟨S262144, .i32⟩
  | .hbm, ⟨54, _⟩ => ⟨S262144, .i1⟩
  | .hbm, ⟨55, _⟩ => ⟨S_, .i32⟩
  | .hbm, ⟨56, _⟩ => ⟨S262144, .i32⟩
  | .hbm, ⟨57, _⟩ => ⟨S262144, .i32⟩
  | .hbm, ⟨58, _⟩ => ⟨S262144, .i32⟩
  | .hbm, ⟨59, _⟩ => ⟨S262144x1, .i32⟩
  | .hbm, ⟨60, _⟩ => ⟨S32769, .i32⟩
  | .hbm, ⟨61, _⟩ => ⟨S_, .i1⟩
  | .hbm, ⟨62, _⟩ => ⟨S32769, .i1⟩
  | .hbm, ⟨63, _⟩ => ⟨S_, .i32⟩
  | .hbm, ⟨64, _⟩ => ⟨S262144, .i32⟩
  | .hbm, ⟨65, _⟩ => ⟨S262144, .i1⟩
  | .hbm, ⟨66, _⟩ => ⟨S_, .i32⟩
  | .hbm, ⟨67, _⟩ => ⟨S262144, .i32⟩
  | .hbm, ⟨68, _⟩ => ⟨S262144, .i32⟩
  | .hbm, ⟨69, _⟩ => ⟨S262144, .i32⟩
  | .hbm, ⟨70, _⟩ => ⟨S262144x1, .i32⟩
  | .hbm, ⟨71, _⟩ => ⟨S32769, .i1⟩
  | .hbm, ⟨72, _⟩ => ⟨S32768, .i32⟩
  | .hbm, ⟨73, _⟩ => ⟨S32768, .i1⟩
  | .hbm, ⟨74, _⟩ => ⟨S_, .i32⟩
  | .hbm, ⟨75, _⟩ => ⟨S32768, .i32⟩
  | .hbm, ⟨76, _⟩ => ⟨S32768, .i1⟩
  | .hbm, ⟨77, _⟩ => ⟨S_, .i32⟩
  | .hbm, ⟨78, _⟩ => ⟨S32768, .i32⟩
  | .hbm, ⟨79, _⟩ => ⟨S32768, .i32⟩
  | .hbm, ⟨80, _⟩ => ⟨S32768, .i32⟩
  | .hbm, ⟨81, _⟩ => ⟨S32768x1, .i32⟩
  | .hbm, ⟨82, _⟩ => ⟨S1, .i32⟩
  | .hbm, ⟨83, _⟩ => ⟨S_, .i32⟩
  | .hbm, ⟨84, _⟩ => ⟨S32768x1, .i32⟩
  | .hbm, ⟨85, _⟩ => ⟨S32768x1, .i1⟩
  | .hbm, ⟨86, _⟩ => ⟨S1x1, .i32⟩
  | .hbm, ⟨87, _⟩ => ⟨S32768x1, .i32⟩
  | .hbm, ⟨88, _⟩ => ⟨S32768x1, .i1⟩
  | .hbm, ⟨89, _⟩ => ⟨S32768x1, .i1⟩
  | .hbm, ⟨90, _⟩ => ⟨S_, .i1⟩
  | .hbm, ⟨91, _⟩ => ⟨S32768, .i1⟩
  | .hbm, ⟨92, _⟩ => ⟨S32768x128, .f32⟩
  | .hbm, ⟨93, _⟩ => ⟨S32768x128, .i1⟩
  | .hbm, ⟨94, _⟩ => ⟨S_, .f32⟩
  | .hbm, ⟨95, _⟩ => ⟨S32768x128, .f32⟩
  | .hbm, ⟨96, _⟩ => ⟨S32768x128, .f32⟩
  | .hbm, ⟨97, _⟩ => ⟨S32768x128, .bf16⟩
  | .hbm, ⟨98, _⟩ => ⟨S4096x8, .i1⟩
  | .hbm, ⟨99, _⟩ => ⟨S4096x8x7, .i1⟩
  | .hbm, ⟨100, _⟩ => ⟨S4096x8x1, .i1⟩
  | .hbm, ⟨101, _⟩ => ⟨S4096x8x7, .i1⟩
  | .hbm, ⟨102, _⟩ => ⟨S4096x8x7, .i1⟩
  | .hbm, ⟨103, _⟩ => ⟨S4096x56, .i1⟩
  | .hbm, ⟨104, _⟩ => ⟨S4096x56, .i32⟩
  | .hbm, ⟨105, _⟩ => ⟨S128x128, .f32⟩
  | .hbm, ⟨106, _⟩ => ⟨S128x128, .f32⟩
  | .hbm, ⟨107, _⟩ => ⟨S4096x56, .f32⟩
  | .local _ .vmem, ⟨0, _⟩ => ⟨S4096x128, .bf16⟩
  | .local _ .vmem, ⟨1, _⟩ => ⟨S4096x128, .bf16⟩
  | .local _ .vmem, ⟨2, _⟩ => ⟨S512x128, .f32⟩
  | .local _ .vmem, ⟨3, _⟩ => ⟨S512x128, .f32⟩
  | .local _ .vmem, ⟨4, _⟩ => ⟨S512x56, .i32⟩
  | .local _ .vmem, ⟨5, _⟩ => ⟨S512x56, .i32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S128x7, .f32⟩
  | .local _ .vmem, ⟨10, _⟩ => ⟨S7, .f32⟩
  | .local _ .vmem, ⟨11, _⟩ => ⟨S512x56, .f32⟩
  | .local _ .vmem, ⟨12, _⟩ => ⟨S512x56, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_call0_call0_c : Ref sig .tc := ⟨.hbm, 16, rfl⟩
abbrev main_call0_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call1_call0_c : Ref sig .tc := ⟨.hbm, 21, rfl⟩
abbrev main_call1_call0_v0 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_call2_v0 : Ref sig .tc := ⟨.hbm, 46, rfl⟩
abbrev main_call2_v1 : Ref sig .tc := ⟨.hbm, 47, rfl⟩
abbrev main_v25 : Ref sig .tc := ⟨.hbm, 48, rfl⟩
abbrev main_v26 : Ref sig .tc := ⟨.hbm, 49, rfl⟩
abbrev main_c_7 : Ref sig .tc := ⟨.hbm, 50, rfl⟩
abbrev main_v27 : Ref sig .tc := ⟨.hbm, 51, rfl⟩
abbrev main_c_8 : Ref sig .tc := ⟨.hbm, 52, rfl⟩
abbrev main_v28 : Ref sig .tc := ⟨.hbm, 53, rfl⟩
abbrev main_v29 : Ref sig .tc := ⟨.hbm, 54, rfl⟩
abbrev main_c_9 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_10 : Ref sig .tc := ⟨.hbm, 61, rfl⟩
abbrev main_v35 : Ref sig .tc := ⟨.hbm, 62, rfl⟩
abbrev main_c_11 : Ref sig .tc := ⟨.hbm, 63, rfl⟩
abbrev main_v36 : Ref sig .tc := ⟨.hbm, 64, rfl⟩
abbrev main_v37 : Ref sig .tc := ⟨.hbm, 65, rfl⟩
abbrev main_c_12 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_call3_c : Ref sig .tc := ⟨.hbm, 74, rfl⟩
abbrev main_call3_v0 : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_c_1 : Ref sig .tc := ⟨.hbm, 82, rfl⟩
abbrev main_call3_c_2 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_3 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_call3_cst : Ref sig .tc := ⟨.hbm, 94, rfl⟩
abbrev main_call3_v15 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x56 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x7 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S7 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x56 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  natLt_1_32 : 1 < 32
  bcast_S_S4096 : S_.BroadcastsInDim S4096 (![] : Fin 0 → Fin S4096.rank)
  bcast_S262144_S262144x1_0 : S262144.BroadcastsInDim S262144x1 (![0] : Fin 1 → Fin S262144x1.rank)
  bcast_S_S1 : S_.BroadcastsInDim S1 (![] : Fin 0 → Fin S1.rank)
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  concatenates_S1_S4096_S4097_d0 : Shape.Concatenates [S1, S4096] S4097 0
  slices_S4097_S4096_0 : S4097.Slices ![0] S4096
  reduceWindows_S262144_S262144_w262144s1p262143_0 : S262144.ReduceWindows (![262144] : Fin 1 → Nat) ![1] ![262143] ![0] S262144
  bcast_S_S262144 : S_.BroadcastsInDim S262144 (![] : Fin 0 → Fin S262144.rank)
  bcast_S_S32769 : S_.BroadcastsInDim S32769 (![] : Fin 0 → Fin S32769.rank)
  slices_S32769_S32768_0 : S32769.Slices ![0] S32768
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S32768_d1 : S32768x1.ReducesTo [1] S32768
  bcast_S32768_S32768x128_0 : S32768.BroadcastsInDim S32768x128 (![0] : Fin 1 → Fin S32768x128.rank)
  bcast_S_S32768x128 : S_.BroadcastsInDim S32768x128 (![] : Fin 0 → Fin S32768x128.rank)
  bitsLt_bf16_f32 : FTy.bits .bf16 < FTy.bits .f32
  shapeCasts_S32768_S4096x8 : S32768.ShapeCasts S4096x8
  shapeCasts_S4096x56_S4096x8x7 : S4096x56.ShapeCasts S4096x8x7
  bcast_S4096x8_S4096x8x1_0_1 : S4096x8.BroadcastsInDim S4096x8x1 (![0, 1] : Fin 2 → Fin S4096x8x1.rank)
  bcast_S4096x8x1_S4096x8x7_0_1_2 : S4096x8x1.BroadcastsInDim S4096x8x7 (![0, 1, 2] : Fin 3 → Fin S4096x8x7.rank)
  shapeCasts_S4096x8x7_S4096x56 : S4096x8x7.ShapeCasts S4096x56
  slices_S256x128_S128x128_0_0 : S256x128.Slices ![0, 0] S128x128
  slices_S256x128_S128x128_128_0 : S256x128.Slices ![128, 0] S128x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S4096x128_S512x8x128 : S4096x128.ShapeCasts S512x8x128
  inb_S512x128_S512x128_0_0 : ∀ a, (![0, 0] : Fin 2 → Nat) a + S512x128.size a ≤ S512x128.size a
  h_S512x128 : 0 < S512x128.numel
  shapeCasts_S512x128_S512x1x128 : S512x128.ShapeCasts S512x1x128
  broadcasts_S512x1x128_S512x8x128 : S512x1x128.Broadcasts S512x8x128
  inb_S128_S128_0 : ∀ a, (![0] : Fin 1 → Nat) a + S128.size a ≤ S128.size a
  h_S128 : 0 < S128.numel
  shapeCasts_S128_S1x1x128 : S128.ShapeCasts S1x1x128
  broadcasts_S1x1x128_S512x8x128 : S1x1x128.Broadcasts S512x8x128
  shapeCasts_S512x8x128_S4096x128 : S512x8x128.ShapeCasts S4096x128
  inb_S128x7_S128x7_0_0 : ∀ a, (![0, 0] : Fin 2 → Nat) a + S128x7.size a ≤ S128x7.size a
  h_S128x7 : 0 < S128x7.numel
  inb_S7_S7_0 : ∀ a, (![0] : Fin 1 → Nat) a + S7.size a ≤ S7.size a
  h_S7 : 0 < S7.numel
  shapeCasts_S7_S1x7 : S7.ShapeCasts S1x7
  broadcasts_S1x7_S4096x7 : S1x7.Broadcasts S4096x7
  shapeCasts_S4096x7_S512x56 : S4096x7.ShapeCasts S512x56
  inb_S512x56_S512x56_0_0 : ∀ a, (![0, 0] : Fin 2 → Nat) a + S512x56.size a ≤ S512x56.size a
  h_S512x56 : 0 < S512x56.numel
  shapeCasts_S512x56_S512x56 : S512x56.ShapeCasts S512x56
  scatter_S4096_S262144x1_S262144_n_0_0_1_wf : ScatterDims.WF S4096 S262144x1 S262144 [] [0] [0] 1
  gather_S4096_S262144x1_S262144_n_0_n_n_0_1_1_wf : GatherDims.WF S4096 S262144x1 S262144 [] [0] [] [0] [] 1 ![1]
  scatter_S32769_S262144x1_S262144_n_0_0_1_wf : ScatterDims.WF S32769 S262144x1 S262144 [] [0] [0] 1
  gather_S262144x128_S32768x1_S32768x128_1_0_n_n_0_1_1128_wf : GatherDims.WF S262144x128 S32768x1 S32768x128 [1] [0] [] [0] [] 1 ![1, 128]
  dot_S4096x128_S128x128_S4096x128_1_0_0_1_n_n_wf : DotDims.WF S4096x128 S128x128 S4096x128 [1] [0] [0] [1] [] []
  dot_S512x128_S128x128_S512x128_1_0_0_1_n_n_wf : DotDims.WF S512x128 S128x128 S512x128 [1] [0] [0] [1] [] []
  dot_S4096x128_S128x7_S4096x7_1_0_0_1_n_n_wf : DotDims.WF S4096x128 S128x7 S4096x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S32768x128.size a
  hwx0_0 : ∀ i : grid0.Coords, EltTy.bits .bf16 = 32 ∨ (Rect.block (s := S32768x128) S4096x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S4096x128.size a
  hwx0_1 : ∀ i : grid0.Coords, EltTy.bits .f32 = 32 ∨ (Rect.block (s := S4096x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x56.size a ≤ S4096x56.size a
  hwx0_2 : ∀ i : grid0.Coords, EltTy.bits .i32 = 32 ∨ (Rect.block (s := S4096x56) S512x56.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x7.size a ≤ S128x7.size a
  hwx0_6 : ∀ i : grid0.Coords, EltTy.bits .f32 = 32 ∨ (Rect.block (s := S128x7) S128x7.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S7.size a ≤ S7.size a
  hwx0_7 : ∀ i : grid0.Coords, EltTy.bits .f32 = 32 ∨ (Rect.block (s := S7) S7.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x56.size a ≤ S4096x56.size a
  hwx0_8 : ∀ i : grid0.Coords, EltTy.bits .f32 = 32 ∨ (Rect.block (s := S4096x56) S512x56.size (cc0_transform_8 i) (hinb0_8 i)).WholeWords (EltTy.packing .f32)

variable [Facts₀]

def scatter_S4096_S262144x1_S262144_n_0_0_1 : ScatterDims S4096 S262144x1 S262144 where
  updateWindowDims := []
  insertedWindowDims := [0]
  scatterDimsToOperandDims := [0]
  indexVectorDim := 1
  wf := scatter_S4096_S262144x1_S262144_n_0_0_1_wf
def gather_S4096_S262144x1_S262144_n_0_n_n_0_1_1 : GatherDims S4096 S262144x1 S262144 where
  offsetDims := []
  collapsedSliceDims := [0]
  operandBatchingDims := []
  startIndicesBatchingDims := []
  startIndexMap := [0]
  indexVectorDim := 1
  sliceSizes := ![1]
  wf := gather_S4096_S262144x1_S262144_n_0_n_n_0_1_1_wf
def scatter_S32769_S262144x1_S262144_n_0_0_1 : ScatterDims S32769 S262144x1 S262144 where
  updateWindowDims := []
  insertedWindowDims := [0]
  scatterDimsToOperandDims := [0]
  indexVectorDim := 1
  wf := scatter_S32769_S262144x1_S262144_n_0_0_1_wf
def gather_S262144x128_S32768x1_S32768x128_1_0_n_n_0_1_1128 : GatherDims S262144x128 S32768x1 S32768x128 where
  offsetDims := [1]
  collapsedSliceDims := [0]
  operandBatchingDims := []
  startIndicesBatchingDims := []
  startIndexMap := [0]
  indexVectorDim := 1
  sliceSizes := ![1, 128]
  wf := gather_S262144x128_S32768x1_S32768x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S4096x128_S128x7_S4096x7_1_0_0_1_n_n : DotDims S4096x128 S128x7 S4096x7 where
  lhsContracting := [1]
  rhsContracting := [0]
  lhsNonContracting := [0]
  rhsNonContracting := [1]
  lhsBatch := []
  rhsBatch := []
  wf := dot_S4096x128_S128x7_S4096x7_1_0_0_1_n_n_wf

abbrev win0_0 : Pipeline.Window sig grid0 :=
  Pipeline.Window.ofSpec (Memref.whole main_v46) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S512x56.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v54) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v55) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x7.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S7.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v56) S512x56.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x128 : Shape := ⟨2, ![262144, 128]⟩
abbrev S4096x128 : Shape := ⟨2, ![4096, 128]⟩
abbrev S262144 : Shape := ⟨1, ![262144]⟩
abbrev S4096x56 : Shape := ⟨2, ![4096, 56]⟩
abbrev S256x128 : Shape := ⟨2, ![256, 128]⟩
abbrev S128 : Shape := ⟨1, ![128]⟩
abbrev S128x7 : Shape := ⟨2, ![128, 7]⟩
abbrev S7 : Shape := ⟨1, ![7]⟩
abbrev S_ : Shape := ⟨0, ![]⟩
abbrev S4096 : Shape := ⟨1, ![4096]⟩
abbrev S262144x1 : Shape := ⟨2, ![262144, 1]⟩
abbrev S1 : Shape := ⟨1, ![1]⟩
abbrev S4097 : Shape := ⟨1, ![4097]⟩
abbrev S32769x128 : Shape := ⟨2, ![32769, 128]⟩
abbrev S32769 : Shape := ⟨1, ![32769]⟩
abbrev S32768x128 : Shape := ⟨2, ![32768, 128]⟩
abbrev S4096x8x128 : Shape := ⟨3, ![4096, 8, 128]⟩
abbrev S32768 : Shape := ⟨1, ![32768]⟩
abbrev S4096x8 : Shape := ⟨2, ![4096, 8]⟩
abbrev S4096x1x128 : Shape := ⟨3, ![4096, 1, 128]⟩
abbrev S4096x8x256 : Shape := ⟨3, ![4096, 8, 256]⟩
abbrev S1x1x128 : Shape := ⟨3, ![1, 1, 128]⟩
abbrev S4096x8x7 : Shape := ⟨3, ![4096, 8, 7]⟩
abbrev S1x1x7 : Shape := ⟨3, ![1, 1, 7]⟩
abbrev S4096x8x1 : Shape := ⟨3, ![4096, 8, 1]⟩

abbrev nBuf : Space → Nat
  | .hbm => 100
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S4096x128, .f32⟩
  | .hbm, ⟨2, _⟩ => ⟨S262144, .i1⟩
  | .hbm, ⟨3, _⟩ => ⟨S4096x56, .i1⟩
  | .hbm, ⟨4, _⟩ => ⟨S262144, .i32⟩
  | .hbm, ⟨5, _⟩ => ⟨S256x128, .f32⟩
  | .hbm, ⟨6, _⟩ => ⟨S128, .f32⟩
  | .hbm, ⟨7, _⟩ => ⟨S128x7, .f32⟩
  | .hbm, ⟨8, _⟩ => ⟨S7, .f32⟩
  | .hbm, ⟨9, _⟩ => ⟨S262144, .i32⟩
  | .hbm, ⟨10, _⟩ => ⟨S_, .i32⟩
  | .hbm, ⟨11, _⟩ => ⟨S4096, .i32⟩
  | .hbm, ⟨12, _⟩ => ⟨S262144x1, .i32⟩
  | .hbm, ⟨13, _⟩ => ⟨S4096, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S_, .i32⟩
  | .hbm, ⟨18, _⟩ => ⟨S4096, .i32⟩
  | .hbm, ⟨19, _⟩ => ⟨S4097, .i32⟩
  | .hbm, ⟨20, _⟩ => ⟨S4096, .i32⟩
  | .hbm, ⟨21, _⟩ => ⟨S_, .i32⟩
  | .hbm, ⟨22, _⟩ => ⟨S_, .i32⟩
  | .hbm, ⟨23, _⟩ => ⟨S262144, .i32⟩
  | .hbm, ⟨24, _⟩ => ⟨S_, .i32⟩
  | .hbm, ⟨25, _⟩ => ⟨S262144, .i32⟩
  | .hbm, ⟨26, _⟩ => ⟨S262144, .i32⟩
  | .hbm, ⟨27, _⟩ => ⟨S_, .i32⟩
  | .hbm, ⟨28, _⟩ => ⟨S262144, .i32⟩
  | .hbm, ⟨29, _⟩ => ⟨S262144, .i1⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S262144, .i32⟩
  | .hbm, ⟨34, _⟩ => ⟨S262144x1, .i32⟩
  | .hbm, ⟨35, _⟩ => ⟨S262144, .i32⟩
  | .hbm, ⟨36, _⟩ => ⟨S262144, .i32⟩
  | .hbm, ⟨37, _⟩ => ⟨S_, .i32⟩
  | .hbm, ⟨38, _⟩ => ⟨S262144, .i32⟩
  | .hbm, ⟨39, _⟩ => ⟨S262144, .i1⟩
  | .hbm, ⟨40, _⟩ => ⟨S262144, .i1⟩
  | .hbm, ⟨41, _⟩ => ⟨S_, .i32⟩
  | .hbm, ⟨42, _⟩ => ⟨S262144, .i32⟩
  | .hbm, ⟨43, _⟩ => ⟨S262144, .i32⟩
  | .hbm, ⟨44, _⟩ => ⟨S262144, .i32⟩
  | .hbm, ⟨45, _⟩ => ⟨S_, .i32⟩
  | .hbm, ⟨46, _⟩ => ⟨S_, .i32⟩
  | .hbm, ⟨47, _⟩ => ⟨S262144, .i32⟩
  | .hbm, ⟨48, _⟩ => ⟨S262144, .i32⟩
  | .hbm, ⟨49, _⟩ => ⟨S_, .f32⟩
  | .hbm, ⟨50, _⟩ => ⟨S32769x128, .f32⟩
  | .hbm, ⟨51, _⟩ => ⟨S_, .i32⟩
  | .hbm, ⟨52, _⟩ => ⟨S262144, .i32⟩
  | .hbm, ⟨53, _⟩ => ⟨S262144, .i1⟩
  | .hbm, ⟨54, _⟩ => ⟨S_, .i32⟩
  | .hbm, ⟨55, _⟩ => ⟨S262144, .i32⟩
  | .hbm, ⟨56, _⟩ => ⟨S262144, .i32⟩
  | .hbm, ⟨57, _⟩ => ⟨S262144, .i32⟩
  | .hbm, ⟨58, _⟩ => ⟨S262144x1, .i32⟩
  | .hbm, ⟨59, _⟩ => ⟨S32769x128, .f32⟩
  | .hbm, ⟨60, _⟩ => ⟨S_, .i1⟩
  | .hbm, ⟨61, _⟩ => ⟨S32769, .i1⟩
  | .hbm, ⟨62, _⟩ => ⟨S_, .i32⟩
  | .hbm, ⟨63, _⟩ => ⟨S262144, .i32⟩
  | .hbm, ⟨64, _⟩ => ⟨S262144, .i1⟩
  | .hbm, ⟨65, _⟩ => ⟨S_, .i32⟩
  | .hbm, ⟨66, _⟩ => ⟨S262144, .i32⟩
  | .hbm, ⟨67, _⟩ => ⟨S262144, .i32⟩
  | .hbm, ⟨68, _⟩ => ⟨S262144, .i32⟩
  | .hbm, ⟨69, _⟩ => ⟨S262144x1, .i32⟩
  | .hbm, ⟨70, _⟩ => ⟨S32769, .i1⟩
  | .hbm, ⟨71, _⟩ => ⟨S32768x128, .f32⟩
  | .hbm, ⟨72, _⟩ => ⟨S4096x8x128, .f32⟩
  | .hbm, ⟨73, _⟩ => ⟨S32768, .i1⟩
  | .hbm, ⟨74, _⟩ => ⟨S4096x8, .i1⟩
  | .hbm, ⟨75, _⟩ => ⟨S4096x1x128, .f32⟩
  | .hbm, ⟨76, _⟩ => ⟨S4096x8x128, .f32⟩
  | .hbm, ⟨77, _⟩ => ⟨S4096x8x256, .f32⟩
  | .hbm, ⟨78, _⟩ => ⟨S4096x8x128, .f32⟩
  | .hbm, ⟨79, _⟩ => ⟨S1x1x128, .f32⟩
  | .hbm, ⟨80, _⟩ => ⟨S4096x8x128, .f32⟩
  | .hbm, ⟨81, _⟩ => ⟨S4096x8x128, .f32⟩
  | .hbm, ⟨82, _⟩ => ⟨S_, .f32⟩
  | .hbm, ⟨83, _⟩ => ⟨S4096x8x128, .f32⟩
  | .hbm, ⟨84, _⟩ => ⟨S4096x8x128, .f32⟩
  | .hbm, ⟨85, _⟩ => ⟨S4096x8x7, .f32⟩
  | .hbm, ⟨86, _⟩ => ⟨S1x1x7, .f32⟩
  | .hbm, ⟨87, _⟩ => ⟨S4096x8x7, .f32⟩
  | .hbm, ⟨88, _⟩ => ⟨S4096x8x7, .f32⟩
  | .hbm, ⟨89, _⟩ => ⟨S4096x8x1, .i1⟩
  | .hbm, ⟨90, _⟩ => ⟨S_, .f32⟩
  | .hbm, ⟨91, _⟩ => ⟨S_, .f32⟩
  | .hbm, ⟨92, _⟩ => ⟨S4096x8x7, .i1⟩
  | .hbm, ⟨93, _⟩ => ⟨S4096x8x7, .f32⟩
  | .hbm, ⟨94, _⟩ => ⟨S4096x8x7, .f32⟩
  | .hbm, ⟨95, _⟩ => ⟨S4096x56, .f32⟩
  | .hbm, ⟨96, _⟩ => ⟨S_, .f32⟩
  | .hbm, ⟨97, _⟩ => ⟨S_, .f32⟩
  | .hbm, ⟨98, _⟩ => ⟨S4096x56, .f32⟩
  | .hbm, ⟨99, _⟩ => ⟨S4096x56, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_call0_call0_c : Ref sig .tc := ⟨.hbm, 16, rfl⟩
abbrev main_call0_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call1_call0_c : Ref sig .tc := ⟨.hbm, 21, rfl⟩
abbrev main_call1_call0_v0 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_call2_v0 : Ref sig .tc := ⟨.hbm, 46, rfl⟩
abbrev main_call2_v1 : Ref sig .tc := ⟨.hbm, 47, rfl⟩
abbrev main_v25 : Ref sig .tc := ⟨.hbm, 48, rfl⟩
abbrev main_cst : Ref sig .tc := ⟨.hbm, 49, rfl⟩
abbrev main_v26 : Ref sig .tc := ⟨.hbm, 50, rfl⟩
abbrev main_c_7 : Ref sig .tc := ⟨.hbm, 51, rfl⟩
abbrev main_v27 : Ref sig .tc := ⟨.hbm, 52, rfl⟩
abbrev main_v28 : Ref sig .tc := ⟨.hbm, 53, rfl⟩
abbrev main_c_8 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_9 : Ref sig .tc := ⟨.hbm, 60, rfl⟩
abbrev main_v34 : Ref sig .tc := ⟨.hbm, 61, rfl⟩
abbrev main_c_10 : Ref sig .tc := ⟨.hbm, 62, rfl⟩
abbrev main_v35 : Ref sig .tc := ⟨.hbm, 63, rfl⟩
abbrev main_v36 : Ref sig .tc := ⟨.hbm, 64, rfl⟩
abbrev main_c_11 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call3_cst : Ref sig .tc := ⟨.hbm, 82, rfl⟩
abbrev main_call3_v0 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_v59 : Ref sig .tc := ⟨.hbm, 94, rfl⟩
abbrev main_v60 : Ref sig .tc := ⟨.hbm, 95, rfl⟩
abbrev main_cst_13 : Ref sig .tc := ⟨.hbm, 96, rfl⟩
abbrev main_call5_v0 : Ref sig .tc := ⟨.hbm, 97, rfl⟩
abbrev main_call5_v1 : Ref sig .tc := ⟨.hbm, 98, rfl⟩
abbrev main_v61 : Ref sig .tc := ⟨.hbm, 99, rfl⟩

abbrev nD : Nat := 1
abbrev τ : Topo := Topo.v7x

variable {F : FTy → Type} [FloatOps F]

class Facts₀ : Prop where
  natLt_1_32 : 1 < 32
  bcast_S_S4096 : S_.BroadcastsInDim S4096 (![] : Fin 0 → Fin S4096.rank)
  bcast_S262144_S262144x1_0 : S262144.BroadcastsInDim S262144x1 (![0] : Fin 1 → Fin S262144x1.rank)
  bcast_S_S1 : S_.BroadcastsInDim S1 (![] : Fin 0 → Fin S1.rank)
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  concatenates_S1_S4096_S4097_d0 : Shape.Concatenates [S1, S4096] S4097 0
  slices_S4097_S4096_0 : S4097.Slices ![0] S4096
  reduceWindows_S262144_S262144_w262144s1p262143_0 : S262144.ReduceWindows (![262144] : Fin 1 → Nat) ![1] ![262143] ![0] S262144
  bcast_S_S262144 : S_.BroadcastsInDim S262144 (![] : Fin 0 → Fin S262144.rank)
  bcast_S_S32769x128 : S_.BroadcastsInDim S32769x128 (![] : Fin 0 → Fin S32769x128.rank)
  bcast_S_S32769 : S_.BroadcastsInDim S32769 (![] : Fin 0 → Fin S32769.rank)
  slices_S32769x128_S32768x128_0_0 : S32769x128.Slices ![0, 0] S32768x128
  shapeCasts_S32768x128_S4096x8x128 : S32768x128.ShapeCasts S4096x8x128
  slices_S32769_S32768_0 : S32769.Slices ![0] S32768
  shapeCasts_S32768_S4096x8 : S32768.ShapeCasts S4096x8
  bcast_S4096x128_S4096x1x128_0_2 : S4096x128.BroadcastsInDim S4096x1x128 (![0, 2] : Fin 2 → Fin S4096x1x128.rank)
  bcast_S4096x1x128_S4096x8x128_0_1_2 : S4096x1x128.BroadcastsInDim S4096x8x128 (![0, 1, 2] : Fin 3 → Fin S4096x8x128.rank)
  concatenates_S4096x8x128_S4096x8x128_S4096x8x256_d2 : Shape.Concatenates [S4096x8x128, S4096x8x128] S4096x8x256 2
  bcast_S128_S1x1x128_2 : S128.BroadcastsInDim S1x1x128 (![2] : Fin 1 → Fin S1x1x128.rank)
  bcast_S1x1x128_S4096x8x128_0_1_2 : S1x1x128.BroadcastsInDim S4096x8x128 (![0, 1, 2] : Fin 3 → Fin S4096x8x128.rank)
  bcast_S_S4096x8x128 : S_.BroadcastsInDim S4096x8x128 (![] : Fin 0 → Fin S4096x8x128.rank)
  bcast_S7_S1x1x7_2 : S7.BroadcastsInDim S1x1x7 (![2] : Fin 1 → Fin S1x1x7.rank)
  bcast_S1x1x7_S4096x8x7_0_1_2 : S1x1x7.BroadcastsInDim S4096x8x7 (![0, 1, 2] : Fin 3 → Fin S4096x8x7.rank)
  bcast_S4096x8_S4096x8x1_0_1 : S4096x8.BroadcastsInDim S4096x8x1 (![0, 1] : Fin 2 → Fin S4096x8x1.rank)
  bcast_S4096x8x1_S4096x8x7_0_1_2 : S4096x8x1.BroadcastsInDim S4096x8x7 (![0, 1, 2] : Fin 3 → Fin S4096x8x7.rank)
  bcast_S_S4096x8x7 : S_.BroadcastsInDim S4096x8x7 (![] : Fin 0 → Fin S4096x8x7.rank)
  shapeCasts_S4096x8x7_S4096x56 : S4096x8x7.ShapeCasts S4096x56
  bcast_S_S4096x56 : S_.BroadcastsInDim S4096x56 (![] : Fin 0 → Fin S4096x56.rank)
  scatter_S4096_S262144x1_S262144_n_0_0_1_wf : ScatterDims.WF S4096 S262144x1 S262144 [] [0] [0] 1
  gather_S4096_S262144x1_S262144_n_0_n_n_0_1_1_wf : GatherDims.WF S4096 S262144x1 S262144 [] [0] [] [0] [] 1 ![1]
  scatter_S32769x128_S262144x1_S262144x128_1_0_0_1_wf : ScatterDims.WF S32769x128 S262144x1 S262144x128 [1] [0] [0] 1
  scatter_S32769_S262144x1_S262144_n_0_0_1_wf : ScatterDims.WF S32769 S262144x1 S262144 [] [0] [0] 1
  dot_S4096x8x256_S256x128_S4096x8x128_2_0_01_1_n_n_wf : DotDims.WF S4096x8x256 S256x128 S4096x8x128 [2] [0] [0, 1] [1] [] []
  dot_S4096x8x128_S128x7_S4096x8x7_2_0_01_1_n_n_wf : DotDims.WF S4096x8x128 S128x7 S4096x8x7 [2] [0] [0, 1] [1] [] []

variable [Facts₀]

def scatter_S4096_S262144x1_S262144_n_0_0_1 : ScatterDims S4096 S262144x1 S262144 where
  updateWindowDims := []
  insertedWindowDims := [0]
  scatterDimsToOperandDims := [0]
  indexVectorDim := 1
  wf := scatter_S4096_S262144x1_S262144_n_0_0_1_wf
def gather_S4096_S262144x1_S262144_n_0_n_n_0_1_1 : GatherDims S4096 S262144x1 S262144 where
  offsetDims := []
  collapsedSliceDims := [0]
  operandBatchingDims := []
  startIndicesBatchingDims := []
  startIndexMap := [0]
  indexVectorDim := 1
  sliceSizes := ![1]
  wf := gather_S4096_S262144x1_S262144_n_0_n_n_0_1_1_wf
def scatter_S32769x128_S262144x1_S262144x128_1_0_0_1 : ScatterDims S32769x128 S262144x1 S262144x128 where
  updateWindowDims := [1]
  insertedWindowDims := [0]
  scatterDimsToOperandDims := [0]
  indexVectorDim := 1
  wf := scatter_S32769x128_S262144x1_S262144x128_1_0_0_1_wf
def scatter_S32769_S262144x1_S262144_n_0_0_1 : ScatterDims S32769 S262144x1 S262144 where
  updateWindowDims := []
  insertedWindowDims := [0]
  scatterDimsToOperandDims := [0]
  indexVectorDim := 1
  wf := scatter_S32769_S262144x1_S262144_n_0_0_1_wf
def dot_S4096x8x256_S256x128_S4096x8x128_2_0_01_1_n_n : DotDims S4096x8x256 S256x128 S4096x8x128 where
  lhsContracting := [2]
  rhsContracting := [0]
  lhsNonContracting := [0, 1]
  rhsNonContracting := [1]
  lhsBatch := []
  rhsBatch := []
  wf := dot_S4096x8x256_S256x128_S4096x8x128_2_0_01_1_n_n_wf
def dot_S4096x8x128_S128x7_S4096x8x7_2_0_01_1_n_n : DotDims S4096x8x128 S128x7 S4096x8x7 where
  lhsContracting := [2]
  rhsContracting := [0]
  lhsNonContracting := [0, 1]
  rhsNonContracting := [1]
  lhsBatch := []
  rhsBatch := []
  wf := dot_S4096x8x128_S128x7_S4096x8x7_2_0_01_1_n_n_wf

class Facts : Prop extends Facts₀ where

variable [Facts]
-- ==== Proof.Spec.lean ====
/-
  THE SHARED ARITHMETIC of the two programs, stated once, free of shapes.

  Every output entry belongs to one slot: graph `b` (of 4096) and group `g` (of 8) — slot `8·b + g` of the packed
  table of 32768 feature rows — and one direction `r` (of 7); it sits in column `7·g + r` of row `b` of the
  [4096, 56] result. Its score is a two-layer perceptron of the slot's feature row (128 numbers) and the graph's
  global row (128 numbers): the hidden layer is `relu (feature · W₁ᵃ + global · W₁ᵇ + b₁)` (128 numbers), the score
  is `hidden · W₂ + b₂` at `r`. `mlp` is that score as a function of the two rows and the weights, all given as
  plain functions of their coordinates, so that a block of the kernel and the whole array of the reference
  instantiate the same term.
-/
import Idealize.ShloMosaic.PureOps.Ideal
import Idealize.ShloMosaic.Lib.ValueIdx
noncomputable section
namespace Cert.Spec
open Idealize.ShloMosaic Idealize.ShloMosaic.ValueIdx

/-- The fill value of a masked entry: the float `-1e9`, kept as its word. -/
abbrev NEG : EReal := Ideal.ofBits .f32 0xCE6E6B28#32

/-- The float zero the relu compares with, kept as its word. -/
abbrev Z : EReal := Ideal.ofBits .f32 0x00000000#32

/-- Row `8·p + g` of a table of `8·n` rows: group `g` of item `p`. -/
def row8 {n : Nat} (m : Nat) (hm : 8 * n = m) (p : Fin n) (g : Fin 8) : Fin m :=
  ⟨8 * p.val + g.val, by have := p.isLt; have := g.isLt; omega⟩

/-- Column `7·g + r` of the 56 columns: direction `r` of group `g`. -/
def col (g : Fin 8) (r : Fin 7) : Fin 56 := ⟨7 * g.val + r.val, by have := g.isLt; have := r.isLt; omega⟩

/-- Every column is `col g r` for its quotient and remainder by 7. -/
theorem exists_col (j : Fin 56) : ∃ (g : Fin 8) (r : Fin 7), j = col g r :=
  ⟨⟨j.val / 7, by have := j.isLt; omega⟩, ⟨j.val % 7, Nat.mod_lt _ (by decide)⟩, Fin.ext (by show j.val = 7 * (j.val / 7) + j.val % 7; omega)⟩

/-- Slot `8·b + g` among the 32768 slots. -/
def slot (b : Fin 4096) (g : Fin 8) : Fin 32768 := row8 32768 rfl b g

/-- The same slot as a row of the table that carries one more, dummy, row. -/
def slotW (b : Fin 4096) (g : Fin 8) : Fin 32769 := ⟨8 * b.val + g.val, by have := b.isLt; have := g.isLt; omega⟩

/-- Row `d` of the upper half of the [256, 128] first-layer weights. -/
def lo (d : Fin 128) : Fin 256 := ⟨d.val, by have := d.isLt; omega⟩

/-- Row `128 + d`: row `d` of the lower half. -/
def hi (d : Fin 128) : Fin 256 := ⟨128 + d.val, by have := d.isLt; omega⟩

/-- One unit of the hidden layer: `max (feature · W₁ᵃ[:, k] + global · W₁ᵇ[:, k] + b₁[k]) 0`. -/
def hidden (frow grow : Fin 128 → EReal) (w1a w1b : Fin 128 → Fin 128 → EReal) (b1 : Fin 128 → EReal) (k : Fin 128) : EReal :=
  max (((∑ d : Fin 128, frow d * w1a d k) + (∑ d : Fin 128, grow d * w1b d k)) + b1 k) Z

/-- The score of direction `r`: `hidden · W₂[:, r] + b₂[r]`. -/
def mlp (frow grow : Fin 128 → EReal) (w1a w1b : Fin 128 → Fin 128 → EReal) (b1 : Fin 128 → EReal)
    (w2 : Fin 128 → Fin 7 → EReal) (b2 : Fin 7 → EReal) (r : Fin 7) : EReal :=
  (∑ k : Fin 128, hidden frow grow w1a w1b b1 k * w2 k r) + b2 r

end Cert.Spec
end
-- ==== Proof.KerPayload.lean ====
/-
  THE KERNEL BODY'S PAYLOAD AT AN INDEX. One grid step holds 512 graphs: their 4096 packed feature rows (row
  `8·p + g` is group `g` of graph `p`), their 512 global rows, the folded mask, and the weights. The stored value at
  `(p, 7·g + r)` is the perceptron score of feature row `8·p + g` and global row `p` at direction `r` where the mask
  there is positive, and the fill value elsewhere.
-/
import proofs.«400074_j43971875176951_3_alg».proof.Proof.Gen.KernelIdeal.Skeleton
import proofs.«400074_j43971875176951_3_alg».proof.Proof.Spec
import Idealize.ShloMosaic.Lib.ValueIdx
import Idealize.ShloMosaic.Lib.Pipeline.Value
import Idealize.ShloMosaic.PureOps.Ideal.Laws
noncomputable section
namespace Cert.KernelIdeal.Payload
open Cert.KernelIdeal Cert.KernelIdeal.Gen Idealize.ShloMosaic Idealize.ShloMosaic.ValueIdx Cert.Spec

variable [Cert.KernelIdeal.Facts]

/-! ## The three products at an index -/

/-! The operand indices of the product `feat`: rows by the result's row, columns by the result's column, the shared axis by the contraction position. -/
theorem lhs_feat_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_feat_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_feat_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_feat_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The product of the packed feature rows with the first layer's feature weights, at row `a` and unit `c`: the sum over the 128 features. -/
theorem mm_feat_apply {φ₁ φ₂ : FTy} (A : FVec Ideal S4096x128 φ₁) (B : FVec Ideal S128x128 φ₂) (a : Fin 4096) (c : Fin 128) :
    matmul dot_S4096x128_S128x128_S4096x128_1_0_0_1_n_n none A B (constant (F := Ideal) S4096x128 .f32 0x00000000#32) (ix2 a c)
      = ∑ d : Fin 128, A (ix2 a d) * B (ix2 d c) := by
  show FloatOps.matmul dot_S4096x128_S128x128_S4096x128_1_0_0_1_n_n none A B (constant (F := Ideal) S4096x128 .f32 0x00000000#32) (ix2 a c) = _
  rw [Ideal.matmul_constant_zero_apply, ← Equiv.sum_comp (contrEquiv1 dot_S4096x128_S128x128_S4096x128_1_0_0_1_n_n 128 rfl rfl).symm]
  refine Finset.sum_congr rfl fun d _ => ?_
  have hk := contrEquiv1_symm_val dot_S4096x128_S128x128_S4096x128_1_0_0_1_n_n 128 rfl rfl d
  have el : dot_S4096x128_S128x128_S4096x128_1_0_0_1_n_n.lhsIdx (ix2 a c) ((contrEquiv1 dot_S4096x128_S128x128_S4096x128_1_0_0_1_n_n 128 rfl rfl).symm d) = ix2 a d := funext fun x => Fin.ext (by
    match x with
    | ⟨0, _⟩ => exact lhs_feat_0 _ _
    | ⟨1, _⟩ => exact (lhs_feat_1 _ _).trans hk)
  have er : dot_S4096x128_S128x128_S4096x128_1_0_0_1_n_n.rhsIdx (ix2 a c) ((contrEquiv1 dot_S4096x128_S128x128_S4096x128_1_0_0_1_n_n 128 rfl rfl).symm d) = ix2 d c := funext fun x => Fin.ext (by
    match x with
    | ⟨0, _⟩ => exact (rhs_feat_0 _ _).trans hk
    | ⟨1, _⟩ => exact rhs_feat_1 _ _)
  rw [el, er]

/-! The operand indices of the product `glob`: rows by the result's row, columns by the result's column, the shared axis by the contraction position. -/
theorem lhs_glob_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhs_glob_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhs_glob_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhs_glob_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The product of the global rows with the first layer's global weights, at graph `a` and unit `c`: the sum over the 128 globals. -/
theorem mm_glob_apply {φ₁ φ₂ : FTy} (A : FVec Ideal S512x128 φ₁) (B : FVec Ideal S128x128 φ₂) (a : Fin 512) (c : Fin 128) :
    matmul dot_S512x128_S128x128_S512x128_1_0_0_1_n_n none A B (constant (F := Ideal) S512x128 .f32 0x00000000#32) (ix2 a c)
      = ∑ d : Fin 128, A (ix2 a d) * B (ix2 d c) := by
  show FloatOps.matmul dot_S512x128_S128x128_S512x128_1_0_0_1_n_n none A B (constant (F := Ideal) S512x128 .f32 0x00000000#32) (ix2 a c) = _
  rw [Ideal.matmul_constant_zero_apply, ← Equiv.sum_comp (contrEquiv1 dot_S512x128_S128x128_S512x128_1_0_0_1_n_n 128 rfl rfl).symm]
  refine Finset.sum_congr rfl fun d _ => ?_
  have hk := contrEquiv1_symm_val dot_S512x128_S128x128_S512x128_1_0_0_1_n_n 128 rfl rfl d
  have el : dot_S512x128_S128x128_S512x128_1_0_0_1_n_n.lhsIdx (ix2 a c) ((contrEquiv1 dot_S512x128_S128x128_S512x128_1_0_0_1_n_n 128 rfl rfl).symm d) = ix2 a d := funext fun x => Fin.ext (by
    match x with
    | ⟨0, _⟩ => exact lhs_glob_0 _ _
    | ⟨1, _⟩ => exact (lhs_glob_1 _ _).trans hk)
  have er : dot_S512x128_S128x128_S512x128_1_0_0_1_n_n.rhsIdx (ix2 a c) ((contrEquiv1 dot_S512x128_S128x128_S512x128_1_0_0_1_n_n 128 rfl rfl).symm d) = ix2 d c := funext fun x => Fin.ext (by
    match x with
    | ⟨0, _⟩ => exact (rhs_glob_0 _ _).trans hk
    | ⟨1, _⟩ => exact rhs_glob_1 _ _)
  rw [el, er]

/-! The operand indices of the product `out`: rows by the result's row, columns by the result's column, the shared axis by the contraction position. -/
theorem lhs_out_0 (i : S4096x7.Idx) (q : dot_S4096x128_S128x7_S4096x7_1_0_0_1_n_n.contr.Idx) :
    (dot_S4096x128_S128x7_S4096x7_1_0_0_1_n_n.lhsIdx i q 0).val = (i 0).val := by
  unfold DotDims.lhsIdx
  rw [dif_neg (show ¬(0 : Fin S4096x128.rank) ∈ dot_S4096x128_S128x7_S4096x7_1_0_0_1_n_n.lhsBatch by decide), dif_pos (show (0 : Fin S4096x128.rank) ∈ dot_S4096x128_S128x7_S4096x7_1_0_0_1_n_n.lhsNonContracting by decide)]
  rfl
theorem lhs_out_1 (i : S4096x7.Idx) (q : dot_S4096x128_S128x7_S4096x7_1_0_0_1_n_n.contr.Idx) :
    (dot_S4096x128_S128x7_S4096x7_1_0_0_1_n_n.lhsIdx i q 1).val = (q ⟨0, by decide⟩).val :=
  dot_S4096x128_S128x7_S4096x7_1_0_0_1_n_n.lhsIdx_val_of_single rfl i q
theorem rhs_out_0 (i : S4096x7.Idx) (q : dot_S4096x128_S128x7_S4096x7_1_0_0_1_n_n.contr.Idx) :
    (dot_S4096x128_S128x7_S4096x7_1_0_0_1_n_n.rhsIdx i q 0).val = (q ⟨0, by decide⟩).val :=
  dot_S4096x128_S128x7_S4096x7_1_0_0_1_n_n.rhsIdx_val_of_single rfl i q
theorem rhs_out_1 (i : S4096x7.Idx) (q : dot_S4096x128_S128x7_S4096x7_1_0_0_1_n_n.contr.Idx) :
    (dot_S4096x128_S128x7_S4096x7_1_0_0_1_n_n.rhsIdx i q 1).val = (i 1).val := by
  unfold DotDims.rhsIdx
  rw [dif_neg (show ¬(1 : Fin S128x7.rank) ∈ dot_S4096x128_S128x7_S4096x7_1_0_0_1_n_n.rhsBatch by decide), dif_pos (show (1 : Fin S128x7.rank) ∈ dot_S4096x128_S128x7_S4096x7_1_0_0_1_n_n.rhsNonContracting by decide)]
  rfl

/-- The product of the hidden rows with the second layer's weights, at row `a` and direction `c`: the sum over the 128 hidden units. -/
theorem mm_out_apply {φ₁ φ₂ : FTy} (A : FVec Ideal S4096x128 φ₁) (B : FVec Ideal S128x7 φ₂) (a : Fin 4096) (c : Fin 7) :
    matmul dot_S4096x128_S128x7_S4096x7_1_0_0_1_n_n none A B (constant (F := Ideal) S4096x7 .f32 0x00000000#32) (ix2 a c)
      = ∑ d : Fin 128, A (ix2 a d) * B (ix2 d c) := by
  show FloatOps.matmul dot_S4096x128_S128x7_S4096x7_1_0_0_1_n_n none A B (constant (F := Ideal) S4096x7 .f32 0x00000000#32) (ix2 a c) = _
  rw [Ideal.matmul_constant_zero_apply, ← Equiv.sum_comp (contrEquiv1 dot_S4096x128_S128x7_S4096x7_1_0_0_1_n_n 128 rfl rfl).symm]
  refine Finset.sum_congr rfl fun d _ => ?_
  have hk := contrEquiv1_symm_val dot_S4096x128_S128x7_S4096x7_1_0_0_1_n_n 128 rfl rfl d
  have el : dot_S4096x128_S128x7_S4096x7_1_0_0_1_n_n.lhsIdx (ix2 a c) ((contrEquiv1 dot_S4096x128_S128x7_S4096x7_1_0_0_1_n_n 128 rfl rfl).symm d) = ix2 a d := funext fun x => Fin.ext (by
    match x with
    | ⟨0, _⟩ => exact lhs_out_0 _ _
    | ⟨1, _⟩ => exact (lhs_out_1 _ _).trans hk)
  have er : dot_S4096x128_S128x7_S4096x7_1_0_0_1_n_n.rhsIdx (ix2 a c) ((contrEquiv1 dot_S4096x128_S128x7_S4096x7_1_0_0_1_n_n 128 rfl rfl).symm d) = ix2 d c := funext fun x => Fin.ext (by
    match x with
    | ⟨0, _⟩ => exact (rhs_out_0 _ _).trans hk
    | ⟨1, _⟩ => exact rhs_out_1 _ _)
  rw [el, er]

/-! ## The layout operations at an index -/

section Layout
variable {α : Type}

/-- The packed rows regrouped by graph: entry `(p, g, k)` of the [512, 8, 128] view is entry `(8·p + g, k)` of the
    [4096, 128] table. -/
theorem group_apply (v : S4096x128.Idx → α) (h : S4096x128.ShapeCasts S512x8x128) (p : Fin 512) (g : Fin 8) (k : Fin 128) :
    shapeCast S512x8x128 v h (ix3 p g k) = v (ix2 (row8 4096 rfl p g) k) :=
  shapeCast_apply v h (ix3 p g k) (ix2 (row8 4096 rfl p g) k) (by
    rw [Shape.rowMajor_val_two, Shape.rowMajor_val_three]
    show (8 * p.val + g.val) * 128 + k.val = (p.val * 8 + g.val) * 128 + k.val
    omega)

/-- The grouped rows flattened again: entry `(8·p + g, k)` of the [4096, 128] table is entry `(p, g, k)` of the
    [512, 8, 128] view. -/
theorem ungroup_apply (v : S512x8x128.Idx → α) (h : S512x8x128.ShapeCasts S4096x128) (p : Fin 512) (g : Fin 8) (k : Fin 128) :
    shapeCast S4096x128 v h (ix2 (row8 4096 rfl p g) k) = v (ix3 p g k) :=
  shapeCast_apply v h (ix2 (row8 4096 rfl p g) k) (ix3 p g k) (by
    rw [Shape.rowMajor_val_two, Shape.rowMajor_val_three]
    show (p.val * 8 + g.val) * 128 + k.val = (8 * p.val + g.val) * 128 + k.val
    omega)

/-- A unit middle axis added to a [512, 128] table. -/
theorem addMiddle_apply (v : S512x128.Idx → α) (h : S512x128.ShapeCasts S512x1x128) (p : Fin 512) (z : Fin 1) (k : Fin 128) :
    shapeCast S512x1x128 v h (ix3 p z k) = v (ix2 p k) :=
  shapeCast_apply v h (ix3 p z k) (ix2 p k) (by
    rw [Shape.rowMajor_val_two, Shape.rowMajor_val_three]
    show p.val * 128 + k.val = (p.val * 1 + z.val) * 128 + k.val
    have := z.isLt
    omega)

/-- Two unit leading axes added to a vector of 128 entries. -/
theorem addTwo_apply (v : S128.Idx → α) (h : S128.ShapeCasts S1x1x128) (y z : Fin 1) (k : Fin 128) :
    shapeCast S1x1x128 v h (ix3 y z k) = v (ix1 k) :=
  shapeCast_apply v h (ix3 y z k) (ix1 k) (by
    rw [Shape.rowMajor_val_one, Shape.rowMajor_val_three]
    show k.val = (y.val * 1 + z.val) * 128 + k.val
    have := y.isLt; have := z.isLt
    omega)

/-- A unit leading axis added to a vector of 7 entries. -/
theorem addLead_apply (v : S7.Idx → α) (h : S7.ShapeCasts S1x7) (z : Fin 1) (r : Fin 7) :
    shapeCast S1x7 v h (ix2 z r) = v (ix1 r) :=
  shapeCast_apply v h (ix2 z r) (ix1 r) (by
    rw [Shape.rowMajor_val_one, Shape.rowMajor_val_two]
    show r.val = z.val * 7 + r.val
    have := z.isLt
    omega)

/-- The [4096, 7] scores folded to [512, 56]: entry `(p, 7·g + r)` is entry `(8·p + g, r)`, both at row-major
    position `56·p + 7·g + r`. -/
theorem fold_apply (v : S4096x7.Idx → α) (h : S4096x7.ShapeCasts S512x56) (p : Fin 512) (g : Fin 8) (r : Fin 7) :
    shapeCast S512x56 v h (ix2 p (col g r)) = v (ix2 (row8 4096 rfl p g) r) :=
  shapeCast_apply v h (ix2 p (col g r)) (ix2 (row8 4096 rfl p g) r) (by
    rw [Shape.rowMajor_val_two, Shape.rowMajor_val_two]
    show (8 * p.val + g.val) * 7 + r.val = p.val * 56 + (7 * g.val + r.val)
    omega)

/-- A [512, 1, 128] table repeated along its unit axis. -/
theorem repeatMiddle_apply (v : S512x1x128.Idx → α) (h : S512x1x128.Broadcasts S512x8x128) (p : Fin 512) (g : Fin 8) (k : Fin 128) :
    broadcastTo S512x8x128 v h (ix3 p g k) = v (ix3 p (0 : Fin 1) k) :=
  broadcastTo_apply v h (ix3 p g k) (ix3 p (0 : Fin 1) k) (by
    intro a
    match a with
    | ⟨0, _⟩ => rfl
    | ⟨1, _⟩ => rfl
    | ⟨2, _⟩ => rfl)

/-- A [1, 1, 128] row repeated over all graphs and groups. -/
theorem repeatAll_apply (v : S1x1x128.Idx → α) (h : S1x1x128.Broadcasts S512x8x128) (p : Fin 512) (g : Fin 8) (k : Fin 128) :
    broadcastTo S512x8x128 v h (ix3 p g k) = v (ix3 (0 : Fin 1) (0 : Fin 1) k) :=
  broadcastTo_apply v h (ix3 p g k) (ix3 (0 : Fin 1) (0 : Fin 1) k) (by
    intro a
    match a with
    | ⟨0, _⟩ => rfl
    | ⟨1, _⟩ => rfl
    | ⟨2, _⟩ => rfl)

/-- A [1, 7] row repeated over all 4096 rows. -/
theorem repeatRows_apply (v : S1x7.Idx → α) (h : S1x7.Broadcasts S4096x7) (a : Fin 4096) (r : Fin 7) :
    broadcastTo S4096x7 v h (ix2 a r) = v (ix2 (0 : Fin 1) r) :=
  broadcastTo_apply v h (ix2 a r) (ix2 (0 : Fin 1) r) (by
    intro x
    match x with
    | ⟨0, _⟩ => rfl
    | ⟨1, _⟩ => rfl)

end Layout

/-! ## The pointwise steps and the assembly -/

/-- An integer comparison of two vectors at an index compares the elements. -/
theorem cmpi_apply {s : Shape} {w : Nat} (pr : CmpIPredicate) (a b : IVec s w) (i : s.Idx) :
    cmpi pr a b i = IntOp.cmpi pr (a i) (b i) := rfl

/-- THE PAYLOAD AT `(p, 7·g + r)`: the select reads the mask there; the folded score there is the score of row
    `8·p + g` at direction `r`, the hidden row's product with the second layer's weights plus its bias; the hidden
    row is the maximum with zero of the feature product at row `8·p + g`, the global product at graph `p` and the
    first layer's bias. -/
theorem pay_apply (x0 : Vec Ideal S4096x128 .bf16) (w1a : Vec Ideal S128x128 .f32) (x1 : Vec Ideal S512x128 .f32)
    (w1b : Vec Ideal S128x128 .f32) (b1 : Vec Ideal S128 .f32) (w2 : Vec Ideal S128x7 .f32) (b2 : Vec Ideal S7 .f32)
    (msk : Vec Ideal S512x56 .i32) (p : Fin 512) (g : Fin 8) (r : Fin 7) :
    k0_pay1 (F := Ideal) x0 w1a x1 w1b b1 w2 b2 msk (ix2 p (col g r))
      = Scalar.select (IntOp.cmpi .sgt (msk (ix2 p (col g r))) 0#32)
          (mlp (fun d => x0 (ix2 (row8 4096 rfl p g) d)) (fun d => x1 (ix2 p d)) (fun d k => w1a (ix2 d k)) (fun d k => w1b (ix2 d k))
            (fun k => b1 (ix1 k)) (fun k r => w2 (ix2 k r)) (fun r => b2 (ix1 r)) r)
          NEG := by
  unfold k0_pay1
  simp only [select_apply, cmpi_apply, broadcast_apply, shapeCast_self]
  rw [fold_apply, addf_apply, mm_out_apply, repeatRows_apply, addLead_apply]
  simp only [truncf_apply, ungroup_apply, maximumf_apply, addf_apply, group_apply, mm_feat_apply, repeatMiddle_apply,
    addMiddle_apply, mm_glob_apply, repeatAll_apply, addTwo_apply, broadcast_apply]
  rfl

end Cert.KernelIdeal.Payload
end
-- ==== Proof.KerValue.lean ====
/-
  THE KERNEL'S RESULT ARRAY, ENTRY BY ENTRY. The grid has 8 points; point `t` holds graphs `512·t … 512·t + 511`:
  its blocks are rows `4096·t …` of the packed features, rows `512·t …` of the global features, of the folded
  mask and of the result, and the whole of each weight array. The result's rows `512·t …` are written by point
  `t` only, so entry `(512·t + p, q)` of the final array is what the body stored at `(p, q)` from those blocks; read
  through the blocks, the stored value is the perceptron score of slot `(512·t + p, g)` at direction `r` where the
  folded mask at `(512·t + p, 7·g + r)` is positive, and the fill value elsewhere.
-/
import proofs.«400074_j43971875176951_3_alg».proof.Proof.Gen.KernelIdeal.Value
import proofs.«400074_j43971875176951_3_alg».proof.Proof.KerPayload
import proofs.«400074_j43971875176951_3_alg».proof.Proof.Spec
set_option maxRecDepth 16384
noncomputable section
namespace Cert.KernelIdeal.KerValue
open Cert.KernelIdeal Cert.KernelIdeal.Gen Cert.KernelIdeal.Value Cert.KernelIdeal.Payload Idealize.ShloMosaic Idealize.ShloMosaic.TcCoe
open Idealize.ShloMosaic.ValueIdx Idealize.SL.Sem Cert.Spec
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- Entry `y` of point `t`'s block of the final array is what the body stored at `y` from the input blocks at `t`. -/
theorem arr_block (c : Dev nD) (t : Fin cfg0.N) (y : S512x56.Idx) :
    (dats m 0 c).arrAt 8 cfg0.N (((cfg0.win 8).blk t).view.emb y)
      = k0_pay1 (F := Ideal) (iblk m c 0 t) (iblk m c 3 t) (iblk m c 1 t) (iblk m c 4 t) (iblk m c 5 t) (iblk m c 6 t) (iblk m c 7 t) (iblk m c 2 t) y := by
  have h := congrFun (blocks8 m c t (flush0_8 t)) y
  rw [flushed8] at h
  unfold out0_8 at h
  rw [View.canon_unit_zero hz2] at h
  simp only [View.ld_unit_zero (S := S4096x128) hz2, View.ld_unit_zero (S := S128x128) hz2, View.ld_unit_zero (S := S512x128) hz2,
    View.ld_unit_zero (S := S128) hz1, View.ld_unit_zero (S := S128x7) hz2, View.ld_unit_zero (S := S7) hz1, View.ld_unit_zero (S := S512x56) hz2] at h
  exact h

/-- The index maps, decided over the 8 points: the four row-blocked windows move with the point, the weights stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-- The point that holds graph `b`. -/
def tOf (b : Fin 4096) : Fin cfg0.N := ⟨b.val / 512, by have h8 : cfg0.N = 8 := N_0; have := b.isLt; omega⟩
/-- Graph `b`'s row within its point's blocks. -/
def pOf (b : Fin 4096) : Fin 512 := ⟨b.val % 512, Nat.mod_lt _ (by decide)⟩

theorem tOf_val (b : Fin 4096) : (tOf b).val = b.val / 512 := rfl
theorem pOf_val (b : Fin 4096) : (pOf b).val = b.val % 512 := rfl

/-- The packed-feature block at graph `b`'s point, at row `8·p + g`, is row `8·b + g` of the packed table. -/
theorem blk0 (c : Dev nD) (b : Fin 4096) (g : Fin 8) (d : Fin 128) :
    (iblk m c 0 (tOf b) : Vec Ideal S4096x128 .bf16) (ix2 (row8 4096 rfl (pOf b) g) d) = V m c main_v46 (ix2 (slot b g) d) := by
  show V m c main_v46 (((cfg0.win 0).blk (tOf b)).view.emb (ix2 (row8 4096 rfl (pOf b) g) d)) = V m c main_v46 (ix2 (slot b g) d)
  refine congrArg _ (funext fun a => Fin.ext ?_)
  obtain ⟨e0, e1, -⟩ := idx_facts (tOf b)
  have hb := b.isLt
  match a with
  | ⟨0, _⟩ =>
    show win0_0.index (tOf b) (0 : Fin 2) * 4096 + 1 * (8 * (b.val % 512) + g.val) = 8 * b.val + g.val
    rw [e0, tOf_val]; omega
  | ⟨1, _⟩ =>
    show win0_0.index (tOf b) (1 : Fin 2) * 128 + 1 * d.val = d.val
    rw [e1]; omega

/-- The global-feature block at graph `b`'s point, at row `p`, is row `b`. -/
theorem blk1 (c : Dev nD) (b : Fin 4096) (d : Fin 128) :
    (iblk m c 1 (tOf b) : Vec Ideal S512x128 .f32) (ix2 (pOf b) d) = V m c main_arg1 (ix2 b d) := by
  show V m c main_arg1 (((cfg0.win 1).blk (tOf b)).view.emb (ix2 (pOf b) d)) = V m c main_arg1 (ix2 b d)
  refine congrArg _ (funext fun a => Fin.ext ?_)
  obtain ⟨-, -, e0, e1, -⟩ := idx_facts (tOf b)
  match a with
  | ⟨0, _⟩ =>
    show win0_1.index (tOf b) (0 : Fin 2) * 512 + 1 * (b.val % 512) = b.val
    rw [e0, tOf_val]; omega
  | ⟨1, _⟩ =>
    show win0_1.index (tOf b) (1 : Fin 2) * 128 + 1 * d.val = d.val
    rw [e1]; omega

/-- The mask block at graph `b`'s point, at row `p`, is row `b`. -/
theorem blk2 (c : Dev nD) (b : Fin 4096) (q : Fin 56) :
    (iblk m c 2 (tOf b) : Vec Ideal S512x56 .i32) (ix2 (pOf b) q) = V m c main_v53 (ix2 b q) := by
  show V m c main_v53 (((cfg0.win 2).blk (tOf b)).view.emb (ix2 (pOf b) q)) = V m c main_v53 (ix2 b q)
  refine congrArg _ (funext fun a => Fin.ext ?_)
  obtain ⟨-, -, -, -, e0, e1, -⟩ := idx_facts (tOf b)
  match a with
  | ⟨0, _⟩ =>
    show win0_2.index (tOf b) (0 : Fin 2) * 512 + 1 * (b.val % 512) = b.val
    rw [e0, tOf_val]; omega
  | ⟨1, _⟩ =>
    show win0_2.index (tOf b) (1 : Fin 2) * 56 + 1 * q.val = q.val
    rw [e1]; omega

/-- The weight blocks are the whole weight arrays at every point. -/
theorem blk3 (c : Dev nD) (t : Fin cfg0.N) (d k : Fin 128) :
    (iblk m c 3 t : Vec Ideal S128x128 .f32) (ix2 d k) = V m c main_v54 (ix2 d k) := by
  show V m c main_v54 (((cfg0.win 3).blk t).view.emb (ix2 d k)) = V m c main_v54 (ix2 d k)
  refine congrArg _ (funext fun a => Fin.ext ?_)
  obtain ⟨-, -, -, -, -, -, e0, e1, -⟩ := idx_facts t
  match a with
  | ⟨0, _⟩ => show win0_3.index t (0 : Fin 2) * 128 + 1 * d.val = d.val; rw [e0]; omega
  | ⟨1, _⟩ => show win0_3.index t (1 : Fin 2) * 128 + 1 * k.val = k.val; rw [e1]; omega

theorem blk4 (c : Dev nD) (t : Fin cfg0.N) (d k : Fin 128) :
    (iblk m c 4 t : Vec Ideal S128x128 .f32) (ix2 d k) = V m c main_v55 (ix2 d k) := by
  show V m c main_v55 (((cfg0.win 4).blk t).view.emb (ix2 d k)) = V m c main_v55 (ix2 d k)
  refine congrArg _ (funext fun a => Fin.ext ?_)
  obtain ⟨-, -, -, -, -, -, -, -, e0, e1, -⟩ := idx_facts t
  match a with
  | ⟨0, _⟩ => show win0_4.index t (0 : Fin 2) * 128 + 1 * d.val = d.val; rw [e0]; omega
  | ⟨1, _⟩ => show win0_4.index t (1 : Fin 2) * 128 + 1 * k.val = k.val; rw [e1]; omega

theorem blk5 (c : Dev nD) (t : Fin cfg0.N) (k : Fin 128) :
    (iblk m c 5 t : Vec Ideal S128 .f32) (ix1 k) = V m c main_arg6 (ix1 k) := by
  show V m c main_arg6 (((cfg0.win 5).blk t).view.emb (ix1 k)) = V m c main_arg6 (ix1 k)
  refine congrArg _ (funext fun a => Fin.ext ?_)
  obtain ⟨-, -, -, -, -, -, -, -, -, -, e0, -⟩ := idx_facts t
  match a with
  | ⟨0, _⟩ => show win0_5.index t (0 : Fin 1) * 128 + 1 * k.val = k.val; rw [e0]; omega

theorem blk6 (c : Dev nD) (t : Fin cfg0.N) (k : Fin 128) (r : Fin 7) :
    (iblk m c 6 t : Vec Ideal S128x7 .f32) (ix2 k r) = V m c main_arg7 (ix2 k r) := by
  show V m c main_arg7 (((cfg0.win 6).blk t).view.emb (ix2 k r)) = V m c main_arg7 (ix2 k r)
  refine congrArg _ (funext fun a => Fin.ext ?_)
  obtain ⟨-, -, -, -, -, -, -, -, -, -, -, e0, e1, -⟩ := idx_facts t
  match a with
  | ⟨0, _⟩ => show win0_6.index t (0 : Fin 2) * 128 + 1 * k.val = k.val; rw [e0]; omega
  | ⟨1, _⟩ => show win0_6.index t (1 : Fin 2) * 7 + 1 * r.val = r.val; rw [e1]; omega

theorem blk7 (c : Dev nD) (t : Fin cfg0.N) (r : Fin 7) :
    (iblk m c 7 t : Vec Ideal S7 .f32) (ix1 r) = V m c main_arg8 (ix1 r) := by
  show V m c main_arg8 (((cfg0.win 7).blk t).view.emb (ix1 r)) = V m c main_arg8 (ix1 r)
  refine congrArg _ (funext fun a => Fin.ext ?_)
  obtain ⟨-, -, -, -, -, -, -, -, -, -, -, -, -, e0, -⟩ := idx_facts t
  match a with
  | ⟨0, _⟩ => show win0_7.index t (0 : Fin 1) * 7 + 1 * r.val = r.val; rw [e0]; omega

/-- Entry `(p, q)` of graph `b`'s point's result block is entry `(b, q)` of the result array. -/
theorem emb8 (b : Fin 4096) (q : Fin 56) : ((cfg0.win 8).blk (tOf b)).view.emb (ix2 (pOf b) q) = ix2 b q := by
  funext a; apply Fin.ext
  obtain ⟨-, -, -, -, -, -, -, -, -, -, -, -, -, -, e0, e1⟩ := idx_facts (tOf b)
  match a with
  | ⟨0, _⟩ =>
    show win0_8.index (tOf b) (0 : Fin 2) * 512 + 1 * (b.val % 512) = b.val
    rw [e0, tOf_val]; omega
  | ⟨1, _⟩ =>
    show win0_8.index (tOf b) (1 : Fin 2) * 56 + 1 * q.val = q.val
    rw [e1]; omega

/-- THE RESULT ARRAY AT AN ENTRY: the perceptron score of the slot where the folded mask is positive, else the
    fill value — over the arrays as the region finds them. -/
theorem arr_apply (c : Dev nD) (b : Fin 4096) (g : Fin 8) (r : Fin 7) :
    (dats m 0 c).arrAt 8 cfg0.N (ix2 b (col g r))
      = Scalar.select (IntOp.cmpi .sgt (V m c main_v53 (ix2 b (col g r))) 0#32)
          (mlp (fun d => V m c main_v46 (ix2 (slot b g) d)) (fun d => V m c main_arg1 (ix2 b d)) (fun d k => V m c main_v54 (ix2 d k))
            (fun d k => V m c main_v55 (ix2 d k)) (fun k => V m c main_arg6 (ix1 k)) (fun k r => V m c main_arg7 (ix2 k r))
            (fun r => V m c main_arg8 (ix1 r)) r)
          NEG := by
  have h := arr_block m c (tOf b) (ix2 (pOf b) (col g r))
  rw [emb8 b (col g r), pay_apply] at h
  rw [h]
  have e0 : (fun d => (iblk m c 0 (tOf b) : Vec Ideal S4096x128 .bf16) (ix2 (row8 4096 rfl (pOf b) g) d)) = fun d => V m c main_v46 (ix2 (slot b g) d) :=
    funext fun d => blk0 m c b g d
  have e1 : (fun d => (iblk m c 1 (tOf b) : Vec Ideal S512x128 .f32) (ix2 (pOf b) d)) = fun d => V m c main_arg1 (ix2 b d) := funext fun d => blk1 m c b d
  have e3 : (fun d k => (iblk m c 3 (tOf b) : Vec Ideal S128x128 .f32) (ix2 d k)) = fun d k => V m c main_v54 (ix2 d k) := funext fun d => funext fun k => blk3 m c _ d k
  have e4 : (fun d k => (iblk m c 4 (tOf b) : Vec Ideal S128x128 .f32) (ix2 d k)) = fun d k => V m c main_v55 (ix2 d k) := funext fun d => funext fun k => blk4 m c _ d k
  have e5 : (fun k => (iblk m c 5 (tOf b) : Vec Ideal S128 .f32) (ix1 k)) = fun k => V m c main_arg6 (ix1 k) := funext fun k => blk5 m c _ k
  have e6 : (fun k r => (iblk m c 6 (tOf b) : Vec Ideal S128x7 .f32) (ix2 k r)) = fun k r => V m c main_arg7 (ix2 k r) := funext fun k => funext fun r => blk6 m c _ k r
  have e7 : (fun r => (iblk m c 7 (tOf b) : Vec Ideal S7 .f32) (ix1 r)) = fun r => V m c main_arg8 (ix1 r) := funext fun r => blk7 m c _ r
  rw [blk2 m c b (col g r), e0, e1, e3, e4, e5, e6, e7]

end Cert.KernelIdeal.KerValue
end
-- ==== Proof.KerOps.lean ====
import proofs.«400074_j43971875176951_3_alg».proof.Proof.Gen.KernelIdeal
import Idealize.ShloMosaic.Lib.StableHlo.Run
noncomputable section
namespace Cert.KernelIdeal.KerOps
open Cert.KernelIdeal Cert.KernelIdeal.Gen Idealize.ShloMosaic Idealize.ShloMosaic.TcCoe Idealize.SL.Sem
variable {F : FTy → Type} [FloatOps F]

/-- The group flags as 32-bit words. -/
def k_v0 (a2 : (⟨S262144, .i1⟩ : BufTy).Contents (Elt F)) : (⟨S262144, .i32⟩ : BufTy).Contents (Elt F) :=
  have x_v0 : (⟨S262144, .i32⟩ : BufTy).Contents (Elt F) := ((extui 32 · natLt_1_32) : (⟨S262144, .i1⟩ : BufTy).Contents (Elt F) → (⟨S262144, .i32⟩ : BufTy).Contents (Elt F)) a2
  x_v0

/-- The one-entry zero vector that heads the exclusive running sum. -/
def k_v4  : (⟨S1, .i32⟩ : BufTy).Contents (Elt F) :=
  have x_c_0 : (⟨S_, .i32⟩ : BufTy).Contents (Elt F) := (constantI S_ 32 0#32)
  have x_v4 : (⟨S1, .i32⟩ : BufTy).Contents (Elt F) := (broadcastInDim S1 ![] bcast_S_S1 : (⟨S_, .i32⟩ : BufTy).Contents (Elt F) → (⟨S1, .i32⟩ : BufTy).Contents (Elt F)) x_c_0
  x_v4

/-- The running sum of the per-graph group counts. -/
def k_v5 (a2 : (⟨S262144, .i1⟩ : BufTy).Contents (Elt F)) (a4 : (⟨S262144, .i32⟩ : BufTy).Contents (Elt F)) : (⟨S4096, .i32⟩ : BufTy).Contents (Elt F) :=
  have x_v0 : (⟨S262144, .i32⟩ : BufTy).Contents (Elt F) := ((extui 32 · natLt_1_32) : (⟨S262144, .i1⟩ : BufTy).Contents (Elt F) → (⟨S262144, .i32⟩ : BufTy).Contents (Elt F)) a2
  have x_c : (⟨S_, .i32⟩ : BufTy).Contents (Elt F) := (constantI S_ 32 0#32)
  have x_v1 : (⟨S4096, .i32⟩ : BufTy).Contents (Elt F) := (broadcastInDim S4096 ![] bcast_S_S4096 : (⟨S_, .i32⟩ : BufTy).Contents (Elt F) → (⟨S4096, .i32⟩ : BufTy).Contents (Elt F)) x_c
  have x_v2 : (⟨S262144x1, .i32⟩ : BufTy).Contents (Elt F) := (broadcastInDim S262144x1 ![0] bcast_S262144_S262144x1_0 : (⟨S262144, .i32⟩ : BufTy).Contents (Elt F) → (⟨S262144x1, .i32⟩ : BufTy).Contents (Elt F)) a4
  have x_v3 : (⟨S4096, .i32⟩ : BufTy).Contents (Elt F) := ((fun x i u => Host.scatter scatter_S4096_S262144x1_S262144_n_0_0_1 IntOp.addi x i u) : (⟨S4096, .i32⟩ : BufTy).Contents (Elt F) → (⟨S262144x1, .i32⟩ : BufTy).Contents (Elt F) → (⟨S262144, .i32⟩ : BufTy).Contents (Elt F) → (⟨S4096, .i32⟩ : BufTy).Contents (Elt F)) x_v1 x_v2 x_v0
  have x_call0_call0_c : (⟨S_, .i32⟩ : BufTy).Contents (Elt F) := (constantI S_ 32 0#32)
  have x_call0_call0_v0 : (⟨S_, .i32⟩ : BufTy).Contents (Elt F) := (broadcastInDim S_ ![] bcast_S_S_) x_call0_call0_c
  have x_v5 : (⟨S4096, .i32⟩ : BufTy).Contents (Elt F) := (fun x v => Host.reduceWindow IntOp.addi ![4096] ![1] ![4095] ![0] x v reduceWindows_S4096_S4096_w4096s1p4095_0 h_S_) x_v3 x_call0_call0_v0
  x_v5

/-- Which nodes are kept: a group whose rank within its graph is below 8. -/
def k_valid (v0 : (⟨S262144, .i32⟩ : BufTy).Contents (Elt F)) (v4 : (⟨S1, .i32⟩ : BufTy).Contents (Elt F)) (v5 : (⟨S4096, .i32⟩ : BufTy).Contents (Elt F)) (a2 : (⟨S262144, .i1⟩ : BufTy).Contents (Elt F)) (a4 : (⟨S262144, .i32⟩ : BufTy).Contents (Elt F)) : (⟨S262144, .i1⟩ : BufTy).Contents (Elt F) :=
  have x_v6 : (⟨S4097, .i32⟩ : BufTy).Contents (Elt F) := ((fun a b => concatenate S4097 0 [⟨S1, a⟩, ⟨S4096, b⟩] concatenates_S1_S4096_S4097_d0) : (⟨S1, .i32⟩ : BufTy).Contents (Elt F) → (⟨S4096, .i32⟩ : BufTy).Contents (Elt F) → (⟨S4097, .i32⟩ : BufTy).Contents (Elt F)) v4 v5
  have x_v7 : (⟨S4096, .i32⟩ : BufTy).Contents (Elt F) := ((extractStridedSlice S4096 ![0] · slices_S4097_S4096_0) : (⟨S4097, .i32⟩ : BufTy).Contents (Elt F) → (⟨S4096, .i32⟩ : BufTy).Contents (Elt F)) x_v6
  have x_call1_call0_c : (⟨S_, .i32⟩ : BufTy).Contents (Elt F) := (constantI S_ 32 0#32)
  have x_call1_call0_v0 : (⟨S_, .i32⟩ : BufTy).Contents (Elt F) := (broadcastInDim S_ ![] bcast_S_S_) x_call1_call0_c
  have x_v8 : (⟨S262144, .i32⟩ : BufTy).Contents (Elt F) := (fun x v => Host.reduceWindow IntOp.addi ![262144] ![1] ![262143] ![0] x v reduceWindows_S262144_S262144_w262144s1p262143_0 h_S_) v0 x_call1_call0_v0
  have x_c_1 : (⟨S_, .i32⟩ : BufTy).Contents (Elt F) := (constantI S_ 32 1#32)
  have x_v9 : (⟨S262144, .i32⟩ : BufTy).Contents (Elt F) := (broadcastInDim S262144 ![] bcast_S_S262144 : (⟨S_, .i32⟩ : BufTy).Contents (Elt F) → (⟨S262144, .i32⟩ : BufTy).Contents (Elt F)) x_c_1
  have x_v10 : (⟨S262144, .i32⟩ : BufTy).Contents (Elt F) := (subi : (⟨S262144, .i32⟩ : BufTy).Contents (Elt F) → (⟨S262144, .i32⟩ : BufTy).Contents (Elt F) → (⟨S262144, .i32⟩ : BufTy).Contents (Elt F)) x_v8 x_v9
  have x_c_2 : (⟨S_, .i32⟩ : BufTy).Contents (Elt F) := (constantI S_ 32 0#32)
  have x_v11 : (⟨S262144, .i32⟩ : BufTy).Contents (Elt F) := (broadcastInDim S262144 ![] bcast_S_S262144 : (⟨S_, .i32⟩ : BufTy).Contents (Elt F) → (⟨S262144, .i32⟩ : BufTy).Contents (Elt F)) x_c_2
  have x_v12 : (⟨S262144, .i1⟩ : BufTy).Contents (Elt F) := (cmpi .slt : (⟨S262144, .i32⟩ : BufTy).Contents (Elt F) → (⟨S262144, .i32⟩ : BufTy).Contents (Elt F) → (⟨S262144, .i1⟩ : BufTy).Contents (Elt F)) a4 x_v11
  have x_c_3 : (⟨S_, .i32⟩ : BufTy).Contents (Elt F) := (constantI S_ 32 4096#32)
  have x_v13 : (⟨S262144, .i32⟩ : BufTy).Contents (Elt F) := (broadcastInDim S262144 ![] bcast_S_S262144 : (⟨S_, .i32⟩ : BufTy).Contents (Elt F) → (⟨S262144, .i32⟩ : BufTy).Contents (Elt F)) x_c_3
  have x_v14 : (⟨S262144, .i32⟩ : BufTy).Contents (Elt F) := (addi : (⟨S262144, .i32⟩ : BufTy).Contents (Elt F) → (⟨S262144, .i32⟩ : BufTy).Contents (Elt F) → (⟨S262144, .i32⟩ : BufTy).Contents (Elt F)) a4 x_v13
  have x_v15 : (⟨S262144, .i32⟩ : BufTy).Contents (Elt F) := (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) x_v12 x_v14 a4
  have x_v16 : (⟨S262144x1, .i32⟩ : BufTy).Contents (Elt F) := (broadcastInDim S262144x1 ![0] bcast_S262144_S262144x1_0 : (⟨S262144, .i32⟩ : BufTy).Contents (Elt F) → (⟨S262144x1, .i32⟩ : BufTy).Contents (Elt F)) x_v15
  have x_v17 : (⟨S262144, .i32⟩ : BufTy).Contents (Elt F) := ((fun x i => Host.gather gather_S4096_S262144x1_S262144_n_0_n_n_0_1_1 x i) : (⟨S4096, .i32⟩ : BufTy).Contents (Elt F) → (⟨S262144x1, .i32⟩ : BufTy).Contents (Elt F) → (⟨S262144, .i32⟩ : BufTy).Contents (Elt F)) x_v7 x_v16
  have x_v18 : (⟨S262144, .i32⟩ : BufTy).Contents (Elt F) := (subi : (⟨S262144, .i32⟩ : BufTy).Contents (Elt F) → (⟨S262144, .i32⟩ : BufTy).Contents (Elt F) → (⟨S262144, .i32⟩ : BufTy).Contents (Elt F)) x_v10 x_v17
  have x_c_4 : (⟨S_, .i32⟩ : BufTy).Contents (Elt F) := (constantI S_ 32 8#32)
  have x_v19 : (⟨S262144, .i32⟩ : BufTy).Contents (Elt F) := (broadcastInDim S262144 ![] bcast_S_S262144 : (⟨S_, .i32⟩ : BufTy).Contents (Elt F) → (⟨S262144, .i32⟩ : BufTy).Contents (Elt F)) x_c_4
  have x_v20 : (⟨S262144, .i1⟩ : BufTy).Contents (Elt F) := (cmpi .slt : (⟨S262144, .i32⟩ : BufTy).Contents (Elt F) → (⟨S262144, .i32⟩ : BufTy).Contents (Elt F) → (⟨S262144, .i1⟩ : BufTy).Contents (Elt F)) x_v18 x_v19
  have x_v21 : (⟨S262144, .i1⟩ : BufTy).Contents (Elt F) := (andi : (⟨S262144, .i1⟩ : BufTy).Contents (Elt F) → (⟨S262144, .i1⟩ : BufTy).Contents (Elt F) → (⟨S262144, .i1⟩ : BufTy).Contents (Elt F)) a2 x_v20
  x_v21

/-- Each node's slot: 8·graph + rank when kept, the dummy row 32768 otherwise. -/
def k_slot (v0 : (⟨S262144, .i32⟩ : BufTy).Contents (Elt F)) (v4 : (⟨S1, .i32⟩ : BufTy).Contents (Elt F)) (v5 : (⟨S4096, .i32⟩ : BufTy).Contents (Elt F)) (a2 : (⟨S262144, .i1⟩ : BufTy).Contents (Elt F)) (a4 : (⟨S262144, .i32⟩ : BufTy).Contents (Elt F)) : (⟨S262144, .i32⟩ : BufTy).Contents (Elt F) :=
  have x_v6 : (⟨S4097, .i32⟩ : BufTy).Contents (Elt F) := ((fun a b => concatenate S4097 0 [⟨S1, a⟩, ⟨S4096, b⟩] concatenates_S1_S4096_S4097_d0) : (⟨S1, .i32⟩ : BufTy).Contents (Elt F) → (⟨S4096, .i32⟩ : BufTy).Contents (Elt F) → (⟨S4097, .i32⟩ : BufTy).Contents (Elt F)) v4 v5
  have x_v7 : (⟨S4096, .i32⟩ : BufTy).Contents (Elt F) := ((extractStridedSlice S4096 ![0] · slices_S4097_S4096_0) : (⟨S4097, .i32⟩ : BufTy).Contents (Elt F) → (⟨S4096, .i32⟩ : BufTy).Contents (Elt F)) x_v6
  have x_call1_call0_c : (⟨S_, .i32⟩ : BufTy).Contents (Elt F) := (constantI S_ 32 0#32)
  have x_call1_call0_v0 : (⟨S_, .i32⟩ : BufTy).Contents (Elt F) := (broadcastInDim S_ ![] bcast_S_S_) x_call1_call0_c
  have x_v8 : (⟨S262144, .i32⟩ : BufTy).Contents (Elt F) := (fun x v => Host.reduceWindow IntOp.addi ![262144] ![1] ![262143] ![0] x v reduceWindows_S262144_S262144_w262144s1p262143_0 h_S_) v0 x_call1_call0_v0
  have x_c_1 : (⟨S_, .i32⟩ : BufTy).Contents (Elt F) := (constantI S_ 32 1#32)
  have x_v9 : (⟨S262144, .i32⟩ : BufTy).Contents (Elt F) := (broadcastInDim S262144 ![] bcast_S_S262144 : (⟨S_, .i32⟩ : BufTy).Contents (Elt F) → (⟨S262144, .i32⟩ : BufTy).Contents (Elt F)) x_c_1
  have x_v10 : (⟨S262144, .i32⟩ : BufTy).Contents (Elt F) := (subi : (⟨S262144, .i32⟩ : BufTy).Contents (Elt F) → (⟨S262144, .i32⟩ : BufTy).Contents (Elt F) → (⟨S262144, .i32⟩ : BufTy).Contents (Elt F)) x_v8 x_v9
  have x_c_2 : (⟨S_, .i32⟩ : BufTy).Contents (Elt F) := (constantI S_ 32 0#32)
  have x_v11 : (⟨S262144, .i32⟩ : BufTy).Contents (Elt F) := (broadcastInDim S262144 ![] bcast_S_S262144 : (⟨S_, .i32⟩ : BufTy).Contents (Elt F) → (⟨S262144, .i32⟩ : BufTy).Contents (Elt F)) x_c_2
  have x_v12 : (⟨S262144, .i1⟩ : BufTy).Contents (Elt F) := (cmpi .slt : (⟨S262144, .i32⟩ : BufTy).Contents (Elt F) → (⟨S262144, .i32⟩ : BufTy).Contents (Elt F) → (⟨S262144, .i1⟩ : BufTy).Contents (Elt F)) a4 x_v11
  have x_c_3 : (⟨S_, .i32⟩ : BufTy).Contents (Elt F) := (constantI S_ 32 4096#32)
  have x_v13 : (⟨S262144, .i32⟩ : BufTy).Contents (Elt F) := (broadcastInDim S262144 ![] bcast_S_S262144 : (⟨S_, .i32⟩ : BufTy).Contents (Elt F) → (⟨S262144, .i32⟩ : BufTy).Contents (Elt F)) x_c_3
  have x_v14 : (⟨S262144, .i32⟩ : BufTy).Contents (Elt F) := (addi : (⟨S262144, .i32⟩ : BufTy).Contents (Elt F) → (⟨S262144, .i32⟩ : BufTy).Contents (Elt F) → (⟨S262144, .i32⟩ : BufTy).Contents (Elt F)) a4 x_v13
  have x_v15 : (⟨S262144, .i32⟩ : BufTy).Contents (Elt F) := (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) x_v12 x_v14 a4
  have x_v16 : (⟨S262144x1, .i32⟩ : BufTy).Contents (Elt F) := (broadcastInDim S262144x1 ![0] bcast_S262144_S262144x1_0 : (⟨S262144, .i32⟩ : BufTy).Contents (Elt F) → (⟨S262144x1, .i32⟩ : BufTy).Contents (Elt F)) x_v15
  have x_v17 : (⟨S262144, .i32⟩ : BufTy).Contents (Elt F) := ((fun x i => Host.gather gather_S4096_S262144x1_S262144_n_0_n_n_0_1_1 x i) : (⟨S4096, .i32⟩ : BufTy).Contents (Elt F) → (⟨S262144x1, .i32⟩ : BufTy).Contents (Elt F) → (⟨S262144, .i32⟩ : BufTy).Contents (Elt F)) x_v7 x_v16
  have x_v18 : (⟨S262144, .i32⟩ : BufTy).Contents (Elt F) := (subi : (⟨S262144, .i32⟩ : BufTy).Contents (Elt F) → (⟨S262144, .i32⟩ : BufTy).Contents (Elt F) → (⟨S262144, .i32⟩ : BufTy).Contents (Elt F)) x_v10 x_v17
  have x_c_4 : (⟨S_, .i32⟩ : BufTy).Contents (Elt F) := (constantI S_ 32 8#32)
  have x_v19 : (⟨S262144, .i32⟩ : BufTy).Contents (Elt F) := (broadcastInDim S262144 ![] bcast_S_S262144 : (⟨S_, .i32⟩ : BufTy).Contents (Elt F) → (⟨S262144, .i32⟩ : BufTy).Contents (Elt F)) x_c_4
  have x_v20 : (⟨S262144, .i1⟩ : BufTy).Contents (Elt F) := (cmpi .slt : (⟨S262144, .i32⟩ : BufTy).Contents (Elt F) → (⟨S262144, .i32⟩ : BufTy).Contents (Elt F) → (⟨S262144, .i1⟩ : BufTy).Contents (Elt F)) x_v18 x_v19
  have x_v21 : (⟨S262144, .i1⟩ : BufTy).Contents (Elt F) := (andi : (⟨S262144, .i1⟩ : BufTy).Contents (Elt F) → (⟨S262144, .i1⟩ : BufTy).Contents (Elt F) → (⟨S262144, .i1⟩ : BufTy).Contents (Elt F)) a2 x_v20
  have x_c_5 : (⟨S_, .i32⟩ : BufTy).Contents (Elt F) := (constantI S_ 32 8#32)
  have x_v22 : (⟨S262144, .i32⟩ : BufTy).Contents (Elt F) := (broadcastInDim S262144 ![] bcast_S_S262144 : (⟨S_, .i32⟩ : BufTy).Contents (Elt F) → (⟨S262144, .i32⟩ : BufTy).Contents (Elt F)) x_c_5
  have x_v23 : (⟨S262144, .i32⟩ : BufTy).Contents (Elt F) := (muli : (⟨S262144, .i32⟩ : BufTy).Contents (Elt F) → (⟨S262144, .i32⟩ : BufTy).Contents (Elt F) → (⟨S262144, .i32⟩ : BufTy).Contents (Elt F)) a4 x_v22
  have x_v24 : (⟨S262144, .i32⟩ : BufTy).Contents (Elt F) := (addi : (⟨S262144, .i32⟩ : BufTy).Contents (Elt F) → (⟨S262144, .i32⟩ : BufTy).Contents (Elt F) → (⟨S262144, .i32⟩ : BufTy).Contents (Elt F)) x_v23 x_v18
  have x_c_6 : (⟨S_, .i32⟩ : BufTy).Contents (Elt F) := (constantI S_ 32 32768#32)
  have x_call2_v0 : (⟨S_, .i32⟩ : BufTy).Contents (Elt F) := id x_c_6
  have x_call2_v1 : (⟨S262144, .i32⟩ : BufTy).Contents (Elt F) := (broadcastInDim S262144 ![] bcast_S_S262144) x_call2_v0
  have x_v25 : (⟨S262144, .i32⟩ : BufTy).Contents (Elt F) := select x_v21 x_v24 x_call2_v1
  x_v25

/-- The slots as a column of scatter indices, a negative one moved up by the table's length. -/
def k_idx (s : (⟨S262144, .i32⟩ : BufTy).Contents (Elt F)) : (⟨S262144x1, .i32⟩ : BufTy).Contents (Elt F) :=
  have x_c_8 : (⟨S_, .i32⟩ : BufTy).Contents (Elt F) := (constantI S_ 32 0#32)
  have x_v28 : (⟨S262144, .i32⟩ : BufTy).Contents (Elt F) := (broadcastInDim S262144 ![] bcast_S_S262144 : (⟨S_, .i32⟩ : BufTy).Contents (Elt F) → (⟨S262144, .i32⟩ : BufTy).Contents (Elt F)) x_c_8
  have x_v29 : (⟨S262144, .i1⟩ : BufTy).Contents (Elt F) := (cmpi .slt : (⟨S262144, .i32⟩ : BufTy).Contents (Elt F) → (⟨S262144, .i32⟩ : BufTy).Contents (Elt F) → (⟨S262144, .i1⟩ : BufTy).Contents (Elt F)) s x_v28
  have x_c_9 : (⟨S_, .i32⟩ : BufTy).Contents (Elt F) := (constantI S_ 32 32769#32)
  have x_v30 : (⟨S262144, .i32⟩ : BufTy).Contents (Elt F) := (broadcastInDim S262144 ![] bcast_S_S262144 : (⟨S_, .i32⟩ : BufTy).Contents (Elt F) → (⟨S262144, .i32⟩ : BufTy).Contents (Elt F)) x_c_9
  have x_v31 : (⟨S262144, .i32⟩ : BufTy).Contents (Elt F) := (addi : (⟨S262144, .i32⟩ : BufTy).Contents (Elt F) → (⟨S262144, .i32⟩ : BufTy).Contents (Elt F) → (⟨S262144, .i32⟩ : BufTy).Contents (Elt F)) s x_v30
  have x_v32 : (⟨S262144, .i32⟩ : BufTy).Contents (Elt F) := (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) x_v29 x_v31 s
  have x_v33 : (⟨S262144x1, .i32⟩ : BufTy).Contents (Elt F) := (broadcastInDim S262144x1 ![0] bcast_S262144_S262144x1_0 : (⟨S262144, .i32⟩ : BufTy).Contents (Elt F) → (⟨S262144x1, .i32⟩ : BufTy).Contents (Elt F)) x_v32
  x_v33

/-- The same column, as the program computes it a second time. -/
def k_idx' (s : (⟨S262144, .i32⟩ : BufTy).Contents (Elt F)) : (⟨S262144x1, .i32⟩ : BufTy).Contents (Elt F) :=
  have x_c_11 : (⟨S_, .i32⟩ : BufTy).Contents (Elt F) := (constantI S_ 32 0#32)
  have x_v36 : (⟨S262144, .i32⟩ : BufTy).Contents (Elt F) := (broadcastInDim S262144 ![] bcast_S_S262144 : (⟨S_, .i32⟩ : BufTy).Contents (Elt F) → (⟨S262144, .i32⟩ : BufTy).Contents (Elt F)) x_c_11
  have x_v37 : (⟨S262144, .i1⟩ : BufTy).Contents (Elt F) := (cmpi .slt : (⟨S262144, .i32⟩ : BufTy).Contents (Elt F) → (⟨S262144, .i32⟩ : BufTy).Contents (Elt F) → (⟨S262144, .i1⟩ : BufTy).Contents (Elt F)) s x_v36
  have x_c_12 : (⟨S_, .i32⟩ : BufTy).Contents (Elt F) := (constantI S_ 32 32769#32)
  have x_v38 : (⟨S262144, .i32⟩ : BufTy).Contents (Elt F) := (broadcastInDim S262144 ![] bcast_S_S262144 : (⟨S_, .i32⟩ : BufTy).Contents (Elt F) → (⟨S262144, .i32⟩ : BufTy).Contents (Elt F)) x_c_12
  have x_v39 : (⟨S262144, .i32⟩ : BufTy).Contents (Elt F) := (addi : (⟨S262144, .i32⟩ : BufTy).Contents (Elt F) → (⟨S262144, .i32⟩ : BufTy).Contents (Elt F) → (⟨S262144, .i32⟩ : BufTy).Contents (Elt F)) s x_v38
  have x_v40 : (⟨S262144, .i32⟩ : BufTy).Contents (Elt F) := (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) x_v37 x_v39 s
  have x_v41 : (⟨S262144x1, .i32⟩ : BufTy).Contents (Elt F) := (broadcastInDim S262144x1 ![0] bcast_S262144_S262144x1_0 : (⟨S262144, .i32⟩ : BufTy).Contents (Elt F) → (⟨S262144x1, .i32⟩ : BufTy).Contents (Elt F)) x_v40
  x_v41

/-- For each slot the node that fills it: the node numbers scattered to their slots over zeros, the dummy entry dropped. -/
def k_dest (I : (⟨S262144x1, .i32⟩ : BufTy).Contents (Elt F)) : (⟨S32768, .i32⟩ : BufTy).Contents (Elt F) :=
  have x_v26 : (⟨S262144, .i32⟩ : BufTy).Contents (Elt F) := (iotaInDim S262144 32 0)
  have x_c_7 : (⟨S_, .i32⟩ : BufTy).Contents (Elt F) := (constantI S_ 32 0#32)
  have x_v27 : (⟨S32769, .i32⟩ : BufTy).Contents (Elt F) := (broadcastInDim S32769 ![] bcast_S_S32769 : (⟨S_, .i32⟩ : BufTy).Contents (Elt F) → (⟨S32769, .i32⟩ : BufTy).Contents (Elt F)) x_c_7
  have x_v34 : (⟨S32769, .i32⟩ : BufTy).Contents (Elt F) := ((fun x i u => Host.scatter scatter_S32769_S262144x1_S262144_n_0_0_1 (fun _ b => b) x i u) : (⟨S32769, .i32⟩ : BufTy).Contents (Elt F) → (⟨S262144x1, .i32⟩ : BufTy).Contents (Elt F) → (⟨S262144, .i32⟩ : BufTy).Contents (Elt F) → (⟨S32769, .i32⟩ : BufTy).Contents (Elt F)) x_v27 I x_v26
  have x_v43 : (⟨S32768, .i32⟩ : BufTy).Contents (Elt F) := ((extractStridedSlice S32768 ![0] · slices_S32769_S32768_0) : (⟨S32769, .i32⟩ : BufTy).Contents (Elt F) → (⟨S32768, .i32⟩ : BufTy).Contents (Elt F)) x_v34
  x_v43

/-- The occupancy table: the kept flags scattered to their slots over false, the dummy entry dropped, seen as [4096, 8]. -/
def k_occ (I : (⟨S262144x1, .i32⟩ : BufTy).Contents (Elt F)) (valid : (⟨S262144, .i1⟩ : BufTy).Contents (Elt F)) : (⟨S4096x8, .i1⟩ : BufTy).Contents (Elt F) :=
  have x_c_10 : (⟨S_, .i1⟩ : BufTy).Contents (Elt F) := (constantI S_ 1 0#1)
  have x_v35 : (⟨S32769, .i1⟩ : BufTy).Contents (Elt F) := (broadcastInDim S32769 ![] bcast_S_S32769 : (⟨S_, .i1⟩ : BufTy).Contents (Elt F) → (⟨S32769, .i1⟩ : BufTy).Contents (Elt F)) x_c_10
  have x_v42 : (⟨S32769, .i1⟩ : BufTy).Contents (Elt F) := ((fun x i u => Host.scatter scatter_S32769_S262144x1_S262144_n_0_0_1 (fun _ b => b) x i u) : (⟨S32769, .i1⟩ : BufTy).Contents (Elt F) → (⟨S262144x1, .i32⟩ : BufTy).Contents (Elt F) → (⟨S262144, .i1⟩ : BufTy).Contents (Elt F) → (⟨S32769, .i1⟩ : BufTy).Contents (Elt F)) x_v35 I valid
  have x_v44 : (⟨S32768, .i1⟩ : BufTy).Contents (Elt F) := ((extractStridedSlice S32768 ![0] · slices_S32769_S32768_0) : (⟨S32769, .i1⟩ : BufTy).Contents (Elt F) → (⟨S32768, .i1⟩ : BufTy).Contents (Elt F)) x_v42
  have x_v47 : (⟨S4096x8, .i1⟩ : BufTy).Contents (Elt F) := shapeCast S4096x8 x_v44 shapeCasts_S32768_S4096x8
  x_v47

/-- The packed feature table: for each slot the feature row of the node `dest` names (an index outside the table would read the fill value instead), narrowed to bf16. -/
def k_take (a0 : (⟨S262144x128, .f32⟩ : BufTy).Contents (Elt F)) (dest : (⟨S32768, .i32⟩ : BufTy).Contents (Elt F)) : (⟨S32768x128, .bf16⟩ : BufTy).Contents (Elt F) :=
  have x_call3_c : (⟨S_, .i32⟩ : BufTy).Contents (Elt F) := (constantI S_ 32 0#32)
  have x_call3_v0 : (⟨S32768, .i32⟩ : BufTy).Contents (Elt F) := (broadcastInDim S32768 ![] bcast_S_S32768) x_call3_c
  have x_call3_v1 : (⟨S32768, .i1⟩ : BufTy).Contents (Elt F) := (cmpi .slt) dest x_call3_v0
  have x_call3_c_0 : (⟨S_, .i32⟩ : BufTy).Contents (Elt F) := (constantI S_ 32 262144#32)
  have x_call3_v2 : (⟨S32768, .i32⟩ : BufTy).Contents (Elt F) := (broadcastInDim S32768 ![] bcast_S_S32768) x_call3_c_0
  have x_call3_v3 : (⟨S32768, .i32⟩ : BufTy).Contents (Elt F) := addi dest x_call3_v2
  have x_call3_v4 : (⟨S32768, .i32⟩ : BufTy).Contents (Elt F) := select x_call3_v1 x_call3_v3 dest
  have x_call3_v5 : (⟨S32768x1, .i32⟩ : BufTy).Contents (Elt F) := (broadcastInDim S32768x1 ![0] bcast_S32768_S32768x1_0) x_call3_v4
  have x_call3_c_1 : (⟨S1, .i32⟩ : BufTy).Contents (Elt F) := (constantI S1 32 262143#32)
  have x_call3_c_2 : (⟨S_, .i32⟩ : BufTy).Contents (Elt F) := (constantI S_ 32 0#32)
  have x_call3_v6 : (⟨S32768x1, .i32⟩ : BufTy).Contents (Elt F) := (broadcastInDim S32768x1 ![] bcast_S_S32768x1) x_call3_c_2
  have x_call3_v7 : (⟨S32768x1, .i1⟩ : BufTy).Contents (Elt F) := (cmpi .sge) x_call3_v5 x_call3_v6
  have x_call3_v8 : (⟨S1x1, .i32⟩ : BufTy).Contents (Elt F) := (broadcastInDim S1x1 ![1] bcast_S1_S1x1_1) x_call3_c_1
  have x_call3_v9 : (⟨S32768x1, .i32⟩ : BufTy).Contents (Elt F) := (broadcastInDim S32768x1 ![0, 1] bcast_S1x1_S32768x1_0_1) x_call3_v8
  have x_call3_v10 : (⟨S32768x1, .i1⟩ : BufTy).Contents (Elt F) := (cmpi .sle) x_call3_v5 x_call3_v9
  have x_call3_v11 : (⟨S32768x1, .i1⟩ : BufTy).Contents (Elt F) := andi x_call3_v7 x_call3_v10
  have x_call3_c_3 : (⟨S_, .i1⟩ : BufTy).Contents (Elt F) := (constantI S_ 1 1#1)
  have x_call3_v12 : (⟨S32768, .i1⟩ : BufTy).Contents (Elt F) := (fun x v => Host.reduce IntOp.andi x v reducesTo_S32768x1_S32768_d1 h_S_) x_call3_v11 x_call3_c_3
  have x_call3_v13 : (⟨S32768x128, .f32⟩ : BufTy).Contents (Elt F) := (fun x i => Host.gather gather_S262144x128_S32768x1_S32768x128_1_0_n_n_0_1_1128 x i) a0 x_call3_v5
  have x_call3_v14 : (⟨S32768x128, .i1⟩ : BufTy).Contents (Elt F) := (broadcastInDim S32768x128 ![0] bcast_S32768_S32768x128_0) x_call3_v12
  have x_call3_cst : (⟨S_, .f32⟩ : BufTy).Contents (Elt F) := (constant S_ .f32 0x7FC00000#32)
  have x_call3_v15 : (⟨S32768x128, .f32⟩ : BufTy).Contents (Elt F) := (broadcastInDim S32768x128 ![] bcast_S_S32768x128) x_call3_cst
  have x_v45 : (⟨S32768x128, .f32⟩ : BufTy).Contents (Elt F) := select x_call3_v14 x_call3_v13 x_call3_v15
  have x_v46 : (⟨S32768x128, .bf16⟩ : BufTy).Contents (Elt F) := ((truncf .bf16 · bitsLt_bf16_f32) : (⟨S32768x128, .f32⟩ : BufTy).Contents (Elt F) → (⟨S32768x128, .bf16⟩ : BufTy).Contents (Elt F)) x_v45
  x_v46

/-- The folded mask: occupancy of the slot and the direction mask, as 32-bit words in the [4096, 56] layout. -/
def k_mask (O47 : (⟨S4096x8, .i1⟩ : BufTy).Contents (Elt F)) (a3 : (⟨S4096x56, .i1⟩ : BufTy).Contents (Elt F)) : (⟨S4096x56, .i32⟩ : BufTy).Contents (Elt F) :=
  have x_v48 : (⟨S4096x8x7, .i1⟩ : BufTy).Contents (Elt F) := shapeCast S4096x8x7 a3 shapeCasts_S4096x56_S4096x8x7
  have x_v49 : (⟨S4096x8x1, .i1⟩ : BufTy).Contents (Elt F) := (broadcastInDim S4096x8x1 ![0, 1] bcast_S4096x8_S4096x8x1_0_1 : (⟨S4096x8, .i1⟩ : BufTy).Contents (Elt F) → (⟨S4096x8x1, .i1⟩ : BufTy).Contents (Elt F)) O47
  have x_v50 : (⟨S4096x8x7, .i1⟩ : BufTy).Contents (Elt F) := (broadcastInDim S4096x8x7 ![0, 1, 2] bcast_S4096x8x1_S4096x8x7_0_1_2 : (⟨S4096x8x1, .i1⟩ : BufTy).Contents (Elt F) → (⟨S4096x8x7, .i1⟩ : BufTy).Contents (Elt F)) x_v49
  have x_v51 : (⟨S4096x8x7, .i1⟩ : BufTy).Contents (Elt F) := (andi : (⟨S4096x8x7, .i1⟩ : BufTy).Contents (Elt F) → (⟨S4096x8x7, .i1⟩ : BufTy).Contents (Elt F) → (⟨S4096x8x7, .i1⟩ : BufTy).Contents (Elt F)) x_v50 x_v48
  have x_v52 : (⟨S4096x56, .i1⟩ : BufTy).Contents (Elt F) := shapeCast S4096x56 x_v51 shapeCasts_S4096x8x7_S4096x56
  have x_v53 : (⟨S4096x56, .i32⟩ : BufTy).Contents (Elt F) := ((extui 32 · natLt_1_32) : (⟨S4096x56, .i1⟩ : BufTy).Contents (Elt F) → (⟨S4096x56, .i32⟩ : BufTy).Contents (Elt F)) x_v52
  x_v53

/-- The first 128 rows of the first layer's weights. -/
def k_w1a (a5 : (⟨S256x128, .f32⟩ : BufTy).Contents (Elt F)) : (⟨S128x128, .f32⟩ : BufTy).Contents (Elt F) :=
  have x_v54 : (⟨S128x128, .f32⟩ : BufTy).Contents (Elt F) := ((extractStridedSlice S128x128 ![0, 0] · slices_S256x128_S128x128_0_0) : (⟨S256x128, .f32⟩ : BufTy).Contents (Elt F) → (⟨S128x128, .f32⟩ : BufTy).Contents (Elt F)) a5
  x_v54

/-- The last 128 rows of the first layer's weights. -/
def k_w1b (a5 : (⟨S256x128, .f32⟩ : BufTy).Contents (Elt F)) : (⟨S128x128, .f32⟩ : BufTy).Contents (Elt F) :=
  have x_v55 : (⟨S128x128, .f32⟩ : BufTy).Contents (Elt F) := ((extractStridedSlice S128x128 ![128, 0] · slices_S256x128_S128x128_128_0) : (⟨S256x128, .f32⟩ : BufTy).Contents (Elt F) → (⟨S128x128, .f32⟩ : BufTy).Contents (Elt F)) a5
  x_v55

end Cert.KernelIdeal.KerOps
end
-- ==== Proof.KerRes.lean ====
/-
  WHAT THE REGION FINDS. The host operations before the kernel's launch, read as the reference's are: a first
  stretch up to the running sum of the counts, a second up to the slots, then the rest; the arrays the kernel's
  windows stage are the packed feature table, the folded mask and the two halves of the first layer's weights, each
  the stretch's operations applied in order to what the stretch before left.
-/
import proofs.«400074_j43971875176951_3_alg».proof.Proof.Gen.KernelIdeal.Frame
import proofs.«400074_j43971875176951_3_alg».proof.Proof.KerOps
import Idealize.ShloMosaic.Lib.Pipeline.Frame
noncomputable section
namespace Cert.KernelIdeal.KerRes
open Cert.KernelIdeal Cert.KernelIdeal.Gen Cert.KernelIdeal.KerOps Idealize.ShloMosaic Idealize.ShloMosaic.TcCoe Idealize.SL.Sem
open Idealize.ShloMosaic.StableHlo

variable {F : FTy → Type} [FloatOps F]

attribute [local irreducible] Host.scatter Host.gather Host.reduceWindow Host.reduce concatenate

/-- The first stretch: up to the running sum of the per-graph counts. -/
abbrev opsA : List (HloOp τ sig (Elt F)) := hostOps0 ++ hostOps0_1
/-- The second stretch: the exclusive running sum, the ranks, the kept flags and the slots. -/
abbrev opsB : List (HloOp τ sig (Elt F)) := hostOps0_2 ++ (hostOps0_3 ++ (hostOps0_4 ++ hostOps0_5))
/-- The third stretch: the scatters, the gather of the packed rows, the folded mask and the weight halves. -/
abbrev opsC : List (HloOp τ sig (Elt F)) := hostOps0_6 ++ (hostOps0_7 ++ hostOps0_8)

theorem V_eq (m : (ℓ : Loc nD τ sig) → Buf (Elt F) ℓ) (c : Dev nD) (b : Ref sig .tc) :
    V m c b = after opsC (after opsB (after opsA (fun b => m (c, b)))) b := by
  dsimp only [V]
  simp only [List.flatten_cons, List.flatten_nil, List.append_nil]
  rw [← StableHlo.after_append, ← StableHlo.after_append]
  simp only [opsA, opsB, opsC, List.append_assoc]

/-! ## The first stretch -/

theorem a_v0 (W : Valuation τ sig (Elt F)) : after opsA W (main_v0 : DevRef τ sig) = k_v0 (W (main_arg2 : DevRef τ sig)) := by
  simp only [opsA, hostOps0, hostOps0_1, List.cons_append, List.nil_append]
  after_results_simp <;> (try simp only [TRef.ofBuf, TRef.toBuf, cast_eq]) <;> rfl
theorem a_v4 (W : Valuation τ sig (Elt F)) : after opsA W (main_v4 : DevRef τ sig) = k_v4 := by
  simp only [opsA, hostOps0, hostOps0_1, List.cons_append, List.nil_append]
  after_results_simp <;> (try simp only [TRef.ofBuf, TRef.toBuf, cast_eq]) <;> rfl
theorem a_v5 (W : Valuation τ sig (Elt F)) :
    after opsA W (main_v5 : DevRef τ sig) = k_v5 (W (main_arg2 : DevRef τ sig)) (W (main_arg4 : DevRef τ sig)) := by
  simp only [opsA, hostOps0, hostOps0_1, List.cons_append, List.nil_append]
  after_results_simp <;> (try simp only [TRef.ofBuf, TRef.toBuf, cast_eq]) <;> rfl
theorem a_arg0 (W : Valuation τ sig (Elt F)) : after opsA W (main_arg0 : DevRef τ sig) = W (main_arg0 : DevRef τ sig) := by
  simp only [opsA, hostOps0, hostOps0_1, List.cons_append, List.nil_append]
  after_results_simp
theorem a_arg2 (W : Valuation τ sig (Elt F)) : after opsA W (main_arg2 : DevRef τ sig) = W (main_arg2 : DevRef τ sig) := by
  simp only [opsA, hostOps0, hostOps0_1, List.cons_append, List.nil_append]
  after_results_simp
theorem a_arg3 (W : Valuation τ sig (Elt F)) : after opsA W (main_arg3 : DevRef τ sig) = W (main_arg3 : DevRef τ sig) := by
  simp only [opsA, hostOps0, hostOps0_1, List.cons_append, List.nil_append]
  after_results_simp
theorem a_arg4 (W : Valuation τ sig (Elt F)) : after opsA W (main_arg4 : DevRef τ sig) = W (main_arg4 : DevRef τ sig) := by
  simp only [opsA, hostOps0, hostOps0_1, List.cons_append, List.nil_append]
  after_results_simp
theorem a_arg5 (W : Valuation τ sig (Elt F)) : after opsA W (main_arg5 : DevRef τ sig) = W (main_arg5 : DevRef τ sig) := by
  simp only [opsA, hostOps0, hostOps0_1, List.cons_append, List.nil_append]
  after_results_simp

/-! ## The second stretch -/

set_option maxHeartbeats 4000000 in
theorem b_v25 (W : Valuation τ sig (Elt F)) :
    after opsB W (main_v25 : DevRef τ sig)
      = k_slot (W (main_v0 : DevRef τ sig)) (W (main_v4 : DevRef τ sig)) (W (main_v5 : DevRef τ sig)) (W (main_arg2 : DevRef τ sig)) (W (main_arg4 : DevRef τ sig)) := by
  simp only [opsB, hostOps0_2, hostOps0_3, hostOps0_4, hostOps0_5, List.cons_append, List.nil_append]
  after_results_simp <;> (try simp only [TRef.ofBuf, TRef.toBuf, cast_eq]) <;> rfl
set_option maxHeartbeats 4000000 in
theorem b_v21 (W : Valuation τ sig (Elt F)) :
    after opsB W (main_v21 : DevRef τ sig)
      = k_valid (W (main_v0 : DevRef τ sig)) (W (main_v4 : DevRef τ sig)) (W (main_v5 : DevRef τ sig)) (W (main_arg2 : DevRef τ sig)) (W (main_arg4 : DevRef τ sig)) := by
  simp only [opsB, hostOps0_2, hostOps0_3, hostOps0_4, hostOps0_5, List.cons_append, List.nil_append]
  after_results_simp <;> (try simp only [TRef.ofBuf, TRef.toBuf, cast_eq]) <;> rfl
theorem b_arg0 (W : Valuation τ sig (Elt F)) : after opsB W (main_arg0 : DevRef τ sig) = W (main_arg0 : DevRef τ sig) := by
  simp only [opsB, hostOps0_2, hostOps0_3, hostOps0_4, hostOps0_5, List.cons_append, List.nil_append]
  after_results_simp
theorem b_arg3 (W : Valuation τ sig (Elt F)) : after opsB W (main_arg3 : DevRef τ sig) = W (main_arg3 : DevRef τ sig) := by
  simp only [opsB, hostOps0_2, hostOps0_3, hostOps0_4, hostOps0_5, List.cons_append, List.nil_append]
  after_results_simp
theorem b_arg5 (W : Valuation τ sig (Elt F)) : after opsB W (main_arg5 : DevRef τ sig) = W (main_arg5 : DevRef τ sig) := by
  simp only [opsB, hostOps0_2, hostOps0_3, hostOps0_4, hostOps0_5, List.cons_append, List.nil_append]
  after_results_simp

/-! ## The third stretch -/

set_option maxHeartbeats 4000000 in
set_option maxRecDepth 8192 in
theorem c_v46 (W : Valuation τ sig (Elt F)) :
    after opsC W (main_v46 : DevRef τ sig) = k_take (W (main_arg0 : DevRef τ sig)) (k_dest (k_idx (W (main_v25 : DevRef τ sig)))) := by
  simp only [opsC, hostOps0_6, hostOps0_7, hostOps0_8, List.cons_append, List.nil_append]
  after_results_simp <;> (try simp only [TRef.ofBuf, TRef.toBuf, cast_eq]) <;> rfl
set_option maxHeartbeats 4000000 in
set_option maxRecDepth 8192 in
theorem c_v53 (W : Valuation τ sig (Elt F)) :
    after opsC W (main_v53 : DevRef τ sig)
      = k_mask (k_occ (k_idx' (W (main_v25 : DevRef τ sig))) (W (main_v21 : DevRef τ sig))) (W (main_arg3 : DevRef τ sig)) := by
  simp only [opsC, hostOps0_6, hostOps0_7, hostOps0_8, List.cons_append, List.nil_append]
  after_results_simp <;> (try simp only [TRef.ofBuf, TRef.toBuf, cast_eq]) <;> rfl
set_option maxHeartbeats 4000000 in
theorem c_v54 (W : Valuation τ sig (Elt F)) : after opsC W (main_v54 : DevRef τ sig) = k_w1a (W (main_arg5 : DevRef τ sig)) := by
  simp only [opsC, hostOps0_6, hostOps0_7, hostOps0_8, List.cons_append, List.nil_append]
  after_results_simp <;> (try simp only [TRef.ofBuf, TRef.toBuf, cast_eq]) <;> rfl
set_option maxHeartbeats 4000000 in
theorem c_v55 (W : Valuation τ sig (Elt F)) : after opsC W (main_v55 : DevRef τ sig) = k_w1b (W (main_arg5 : DevRef τ sig)) := by
  simp only [opsC, hostOps0_6, hostOps0_7, hostOps0_8, List.cons_append, List.nil_append]
  after_results_simp <;> (try simp only [TRef.ofBuf, TRef.toBuf, cast_eq]) <;> rfl

/-! ## The arrays the region finds, as functions of the arguments -/

variable (m : (ℓ : Loc nD τ sig) → Buf (Elt F) ℓ)

/-- The slots of the nodes as a function of the group flags and the graph numbers. -/
abbrev slotA (a2 : (⟨S262144, .i1⟩ : BufTy).Contents (Elt F)) (a4 : (⟨S262144, .i32⟩ : BufTy).Contents (Elt F)) :
    (⟨S262144, .i32⟩ : BufTy).Contents (Elt F) := k_slot (k_v0 a2) k_v4 (k_v5 a2 a4) a2 a4
/-- The kept flags as a function of the group flags and the graph numbers. -/
abbrev validA (a2 : (⟨S262144, .i1⟩ : BufTy).Contents (Elt F)) (a4 : (⟨S262144, .i32⟩ : BufTy).Contents (Elt F)) :
    (⟨S262144, .i1⟩ : BufTy).Contents (Elt F) := k_valid (k_v0 a2) k_v4 (k_v5 a2 a4) a2 a4

theorem V_v46 (c : Dev nD) :
    V m c main_v46 = k_take (m ((c : Thread nD τ).loc main_arg0))
      (k_dest (k_idx (slotA (m ((c : Thread nD τ).loc main_arg2)) (m ((c : Thread nD τ).loc main_arg4))))) := by
  rw [V_eq, c_v46, b_v25, b_arg0, a_v0, a_v4, a_v5, a_arg0, a_arg2, a_arg4]

theorem V_v53 (c : Dev nD) :
    V m c main_v53 = k_mask (k_occ (k_idx' (slotA (m ((c : Thread nD τ).loc main_arg2)) (m ((c : Thread nD τ).loc main_arg4))))
        (validA (m ((c : Thread nD τ).loc main_arg2)) (m ((c : Thread nD τ).loc main_arg4))))
      (m ((c : Thread nD τ).loc main_arg3)) := by
  rw [V_eq, c_v53, b_v25, b_v21, b_arg3, a_v0, a_v4, a_v5, a_arg3, a_arg2, a_arg4]

theorem V_v54 (c : Dev nD) : V m c main_v54 = k_w1a (m ((c : Thread nD τ).loc main_arg5)) := by
  rw [V_eq, c_v54, b_arg5, a_arg5]

theorem V_v55 (c : Dev nD) : V m c main_v55 = k_w1b (m ((c : Thread nD τ).loc main_arg5)) := by
  rw [V_eq, c_v55, b_arg5, a_arg5]

end Cert.KernelIdeal.KerRes
end
-- ==== Proof.KerHostValue.lean ====
/-
  THE KERNEL PROGRAM'S HOST VALUES AT AN INDEX: what the wrapper hands the kernel. The slot-to-node table and the
  occupancy table are scatters read at a slot; the packed feature table reads, for a slot, the feature row of the
  node the table names (the table's entries are node numbers, so they are inside the feature array and neither the
  wrap of a negative index nor the fill for an index outside applies); the folded mask at `(b, 7·g + r)` is the
  conjunction of slot `(b, g)`'s occupancy and the direction mask there, widened to a 32-bit word; the two weight
  blocks are the upper and lower 128 rows of the first layer's weights.
-/
import proofs.«400074_j43971875176951_3_alg».proof.Proof.KerOps
import proofs.«400074_j43971875176951_3_alg».proof.Proof.Spec
import Idealize.ShloMosaic.Lib.ValueIdx
import Idealize.ShloMosaic.Lib.Pipeline.Value
import Idealize.ShloMosaic.Lib.StableHlo.Predicate
noncomputable section
namespace Cert.KernelIdeal.KerHost
open Cert.KernelIdeal Cert.KernelIdeal.Gen Cert.KernelIdeal.KerOps Idealize.ShloMosaic Idealize.ShloMosaic.ValueIdx Cert.Spec

/-! ## Words, the one-entry conjunction and the row lookup: what the packed feature table's reading rests on -/

open Idealize.ShloMosaic.StableHlo.Predicate in
/-- A 32-bit word below 2³¹ is not negative as a signed number. -/
theorem slt_zero_small {x : BitVec 32} (hx : x.toNat < 2 ^ 31) : IntOp.cmpi .slt x 0#32 = 0#1 :=
  eq_zero_of_ne_one fun h => absurd ((slt_iff_toNat hx (by decide)).1 h) (Nat.not_lt_zero _)

open Idealize.ShloMosaic.StableHlo.Predicate in
/-- … it is at least zero … -/
theorem sge_zero_small {x : BitVec 32} (hx : x.toNat < 2 ^ 31) : IntOp.cmpi .sge x 0#32 = 1#1 :=
  (sge_iff_toNat hx (by decide)).2 (Nat.zero_le _)

open Idealize.ShloMosaic.StableHlo.Predicate in
/-- … and a word below 262144 is at most 262143 as a signed number. -/
theorem sle_last_small {x : BitVec 32} (hx : x.toNat < 262144) : IntOp.cmpi .sle x 262143#32 = 1#1 :=
  (sle_iff_toNat (by omega) (by decide)).2 (by show x.toNat ≤ 262143; omega)

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- The `and` over the one entry of row `s` of a one-column table, from the initial value 1, is 1 when the entry is. -/
theorem reduce_col_one (x : IVec S32768x1 1) (init : IVec S_ 1) (h : S32768x1.ReducesTo [1] S32768) (hu : 0 < S_.numel)
    (s : Fin 32768) (hinit : ∀ i, init i = 1#1) (hx : x (ix2 s (0 : Fin 1)) = 1#1) :
    Host.reduce IntOp.andi x init h hu (ix1 s) = 1#1 := by
  rw [Host.reduce_eq_foldl, hinit]
  refine foldl_andi_one x _ fun i hi => ?_
  have hd : h.drop i = ix1 s := by simpa using (List.mem_filter.1 hi).2
  have h0 : ((h.drop i) 0 : Nat) = i 0 := Shape.ReducesTo.drop_apply_val_of_eq h i 0 0
  rw [hd] at h0
  have hi' : i = ix2 s (0 : Fin 1) := by
    funext a
    match a with
    | ⟨0, _⟩ => exact Fin.ext h0.symm
    | ⟨1, _⟩ => exact Fin.ext (by have := idx2_lt1 i; show (i 1).val = 0; omega)
  rw [hi']; exact hx

section Gather
variable {α : Type}

/-- The table lookup read at `(s, d)`: row `s`'s start index, read signed and clamped into the table's rows, and column `d`. -/
theorem gather_row {w : Nat} (a0 : S262144x128.Idx → α) (idx : IVec S32768x1 w) (s : Fin 32768) (d : Fin 128) :
    Host.gather gather_S262144x128_S32768x1_S32768x128_1_0_n_n_0_1_1128 a0 idx (ix2 s d)
      = a0 (ix2 (⟨min (idx (ix2 s (0 : Fin 1))).toInt.toNat 262143, by omega⟩ : Fin 262144) d) := by
  unfold Host.gather
  refine congrArg a0 (funext fun a => Fin.ext ?_)
  match a with
  | ⟨0, _⟩ =>
    show gather_S262144x128_S32768x1_S32768x128_1_0_n_n_0_1_1128.start (ix2 s d) idx 0
        + gather_S262144x128_S32768x1_S32768x128_1_0_n_n_0_1_1128.batchCoord (ix2 s d) 0
        + gather_S262144x128_S32768x1_S32768x128_1_0_n_n_0_1_1128.offCoord (ix2 s d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S262144x128_S32768x1_S32768x128_1_0_n_n_0_1_1128.startIndexMap from List.mem_singleton.mpr rfl)]
    have hsi : gather_S262144x128_S32768x1_S32768x128_1_0_n_n_0_1_1128.siIdx (ix2 s d)
        ⟨List.idxOf (0 : Fin 2) gather_S262144x128_S32768x1_S32768x128_1_0_n_n_0_1_1128.startIndexMap,
          List.idxOf_lt_length_iff.2 (List.mem_singleton.mpr rfl)⟩ = ix2 s (0 : Fin 1) := by
      funext b; refine Fin.ext ?_
      match b with
      | ⟨0, _⟩ => rfl
      | ⟨1, _⟩ => rfl
    rw [hsi]
    rfl
  | ⟨1, _⟩ =>
    show gather_S262144x128_S32768x1_S32768x128_1_0_n_n_0_1_1128.start (ix2 s d) idx 1
        + gather_S262144x128_S32768x1_S32768x128_1_0_n_n_0_1_1128.batchCoord (ix2 s d) 1
        + gather_S262144x128_S32768x1_S32768x128_1_0_n_n_0_1_1128.offCoord (ix2 s d) 1 = d.val
    rw [GatherDims.batchCoord_eq_zero _ _ _ List.not_mem_nil]
    have hst : gather_S262144x128_S32768x1_S32768x128_1_0_n_n_0_1_1128.start (ix2 s d) idx 1 = 0 := by
      unfold GatherDims.start
      rw [dif_neg (show (1 : Fin 2) ∉ gather_S262144x128_S32768x1_S32768x128_1_0_n_n_0_1_1128.startIndexMap from by decide)]
    rw [hst]
    show 0 + 0 + gather_S262144x128_S32768x1_S32768x128_1_0_n_n_0_1_1128.offCoord (ix2 s d) 1 = d.val
    unfold GatherDims.offCoord
    rw [dif_pos (show (1 : Fin 2) ∈ gather_S262144x128_S32768x1_S32768x128_1_0_n_n_0_1_1128.sKept from by decide)]
    simp only [Nat.zero_add]
    rfl

end Gather

/-- The start-index column at row `s`: a slot's entry that is not negative is kept as it is (no wrap by the table's length). -/
theorem col_apply (dest : (⟨S32768, .i32⟩ : BufTy).Contents (Elt Ideal)) (s : Fin 32768) (hx : (dest (ix1 s)).toNat < 2 ^ 31) :
    broadcastInDim S32768x1 ![0] bcast_S32768_S32768x1_0
      (select (cmpi .slt dest (broadcastInDim S32768 ![] bcast_S_S32768 (constantI S_ 32 0#32)))
        (addi dest (broadcastInDim S32768 ![] bcast_S_S32768 (constantI S_ 32 262144#32))) dest) (ix2 s (0 : Fin 1))
      = dest (ix1 s) := by
  refine (broadcastInDim_apply _ _ _ (ix2 s (0 : Fin 1)) (ix1 s) (fun a => match a with | ⟨0, _⟩ => rfl)).trans ?_
  show Scalar.select (IntOp.cmpi .slt (dest (ix1 s)) 0#32) _ _ = _
  rw [slt_zero_small hx]
  exact select_zero _ _

open Idealize.ShloMosaic.StableHlo.Predicate in
/-- The lookup with its in-range test, over any start-index column whose entry at row `s` is a row number of the table:
    the test holds, so the fill is not taken, and the clamp of the start index is the identity. -/
theorem take_core (a0 : FVec Ideal S262144x128 .f32) (v5 : IVec S32768x1 32)
    (fill : FVec Ideal S32768x128 .f32) (s : Fin 32768) (d : Fin 128) (x : BitVec 32)
    (hv : v5 (ix2 s (0 : Fin 1)) = x) (hd : x.toNat < 262144) :
    truncf (F := Ideal) .bf16 (select (broadcastInDim S32768x128 ![0] bcast_S32768_S32768x128_0
        (Host.reduce IntOp.andi
          (andi (cmpi .sge v5 (broadcastInDim S32768x1 ![] bcast_S_S32768x1 (constantI S_ 32 0#32)))
            (cmpi .sle v5 (broadcastInDim S32768x1 ![0, 1] bcast_S1x1_S32768x1_0_1
              (broadcastInDim S1x1 ![1] bcast_S1_S1x1_1 (constantI S1 32 262143#32)))))
          (constantI S_ 1 1#1) reducesTo_S32768x1_S32768_d1 h_S_))
        (Host.gather gather_S262144x128_S32768x1_S32768x128_1_0_n_n_0_1_1128 a0 v5) fill) bitsLt_bf16_f32 (ix2 s d)
      = a0 (ix2 ⟨x.toNat, hd⟩ d) := by
  subst hv
  refine (truncf_apply (φ := .f32) (ψ := .bf16) _ bitsLt_bf16_f32 _).trans ?_
  refine (select_apply _ _ _ _).trans ?_
  have hc : broadcastInDim S32768x128 ![0] bcast_S32768_S32768x128_0
        (Host.reduce IntOp.andi
          (andi (cmpi .sge v5 (broadcastInDim S32768x1 ![] bcast_S_S32768x1 (constantI S_ 32 0#32)))
            (cmpi .sle v5 (broadcastInDim S32768x1 ![0, 1] bcast_S1x1_S32768x1_0_1
              (broadcastInDim S1x1 ![1] bcast_S1_S1x1_1 (constantI S1 32 262143#32)))))
          (constantI S_ 1 1#1) reducesTo_S32768x1_S32768_d1 h_S_) (ix2 s d) = 1#1 := by
    refine (broadcastInDim_apply _ _ _ (ix2 s d) (ix1 s) (fun a => match a with | ⟨0, _⟩ => rfl)).trans ?_
    refine reduce_col_one _ _ _ _ s (fun _ => rfl) ?_
    show IntOp.andi (IntOp.cmpi .sge (v5 (ix2 s (0 : Fin 1))) 0#32) (IntOp.cmpi .sle (v5 (ix2 s (0 : Fin 1))) 262143#32) = 1#1
    rw [sge_zero_small (by omega), sle_last_small hd]
    rfl
  rw [hc, select_one, gather_row]
  refine congrArg (fun r : Fin 262144 => a0 (ix2 r d)) (Fin.ext ?_)
  show min (v5 (ix2 s (0 : Fin 1))).toInt.toNat 262143 = (v5 (ix2 s (0 : Fin 1))).toNat
  rw [toInt_eq_toNat_of_lt (by omega), Int.toNat_natCast]
  exact Nat.min_eq_left (by omega)

/-! ## The six host values -/

theorem dest_apply (I : (⟨S262144x1, .i32⟩ : BufTy).Contents (Elt Ideal)) (b : Fin 4096) (g : Fin 8) :
    k_dest (F := Ideal) I (ix1 (slot b g))
      = Host.scatter scatter_S32769_S262144x1_S262144_n_0_0_1 (fun _ b => b)
          (broadcastInDim S32769 ![] bcast_S_S32769 (constantI S_ 32 0#32)) I (iotaInDim S262144 32 0) (ix1 (slotW b g)) := by
  unfold k_dest
  exact extractStridedSlice_apply _ _ _ _ _ (fun a => match a with | ⟨0, _⟩ => by show 8 * b.val + g.val = 0 + (8 * b.val + g.val); omega)

theorem occ_apply (I : (⟨S262144x1, .i32⟩ : BufTy).Contents (Elt Ideal)) (valid : (⟨S262144, .i1⟩ : BufTy).Contents (Elt Ideal))
    (b : Fin 4096) (g : Fin 8) :
    k_occ (F := Ideal) I valid (ix2 b g)
      = Host.scatter scatter_S32769_S262144x1_S262144_n_0_0_1 (fun _ b => b)
          (broadcastInDim S32769 ![] bcast_S_S32769 (constantI S_ 1 0#1)) I valid (ix1 (slotW b g)) := by
  unfold k_occ
  refine (shapeCast_apply _ _ (ix2 b g) (ix1 (slot b g)) ?_).trans ?_
  · rw [Shape.rowMajor_val_one, Shape.rowMajor_val_two]
    show 8 * b.val + g.val = b.val * 8 + g.val
    omega
  · exact extractStridedSlice_apply _ _ _ _ _ (fun a => match a with | ⟨0, _⟩ => by show 8 * b.val + g.val = 0 + (8 * b.val + g.val); omega)

theorem mask_apply (O47 : (⟨S4096x8, .i1⟩ : BufTy).Contents (Elt Ideal)) (a3 : (⟨S4096x56, .i1⟩ : BufTy).Contents (Elt Ideal))
    (b : Fin 4096) (g : Fin 8) (r : Fin 7) :
    k_mask (F := Ideal) O47 a3 (ix2 b (col g r)) = (IntOp.andi (O47 (ix2 b g)) (a3 (ix2 b (col g r)))).setWidth 32 := by
  unfold k_mask
  refine (extui_apply _ _ _).trans ?_
  refine congrArg (fun x : BitVec 1 => x.setWidth 32) ?_
  refine (shapeCast_apply _ _ (ix2 b (col g r)) (ix3 b g r) ?_).trans ?_
  · rw [Shape.rowMajor_val_three, Shape.rowMajor_val_two]
    show (b.val * 8 + g.val) * 7 + r.val = b.val * 56 + (7 * g.val + r.val)
    omega
  · show IntOp.andi _ _ = IntOp.andi _ _
    congr 1
    · refine (broadcastInDim_apply _ _ _ (ix3 b g r) (ix3 b g (0 : Fin 1)) (fun a => match a with
        | ⟨0, _⟩ => rfl
        | ⟨1, _⟩ => rfl
        | ⟨2, _⟩ => rfl)).trans ?_
      exact broadcastInDim_apply _ _ _ (ix3 b g (0 : Fin 1)) (ix2 b g) (fun a => match a with
        | ⟨0, _⟩ => rfl
        | ⟨1, _⟩ => rfl)
    · refine shapeCast_apply _ _ (ix3 b g r) (ix2 b (col g r)) ?_
      rw [Shape.rowMajor_val_three, Shape.rowMajor_val_two]
      show b.val * 56 + (7 * g.val + r.val) = (b.val * 8 + g.val) * 7 + r.val
      omega

theorem take_apply (a0 : (⟨S262144x128, .f32⟩ : BufTy).Contents (Elt Ideal)) (dest : (⟨S32768, .i32⟩ : BufTy).Contents (Elt Ideal))
    (s : Fin 32768) (d : Fin 128) (hd : (dest (ix1 s)).toNat < 262144) :
    k_take (F := Ideal) a0 dest (ix2 s d) = a0 (ix2 ⟨(dest (ix1 s)).toNat, hd⟩ d) := by
  unfold k_take
  exact take_core a0 _ _ s d (dest (ix1 s)) (col_apply dest s (by omega)) hd

theorem w1a_apply (a5 : (⟨S256x128, .f32⟩ : BufTy).Contents (Elt Ideal)) (d k : Fin 128) :
    k_w1a (F := Ideal) a5 (ix2 d k) = a5 (ix2 (lo d) k) := by
  unfold k_w1a
  exact extractStridedSlice_apply _ _ _ _ _ (fun a => match a with
    | ⟨0, _⟩ => by show d.val = 0 + d.val; omega
    | ⟨1, _⟩ => by show k.val = 0 + k.val; omega)

theorem w1b_apply (a5 : (⟨S256x128, .f32⟩ : BufTy).Contents (Elt Ideal)) (d k : Fin 128) :
    k_w1b (F := Ideal) a5 (ix2 d k) = a5 (ix2 (hi d) k) := by
  unfold k_w1b
  exact extractStridedSlice_apply _ _ _ _ _ (fun a => match a with
    | ⟨0, _⟩ => by show 128 + d.val = 128 + d.val; rfl
    | ⟨1, _⟩ => by show k.val = 0 + k.val; omega)

end Cert.KernelIdeal.KerHost
end
-- ==== Proof.RefOps.lean ====
import proofs.«400074_j43971875176951_3_alg».proof.Proof.Gen.ReferenceIdeal
import Idealize.ShloMosaic.Lib.StableHlo.Run
noncomputable section
namespace Cert.ReferenceIdeal.RefOps
open Cert.ReferenceIdeal Cert.ReferenceIdeal.Gen Idealize.ShloMosaic Idealize.ShloMosaic.TcCoe Idealize.SL.Sem
variable {F : FTy → Type} [FloatOps F]

/-- The first ten host operations: the group flags widened, the per-graph counts scattered, their running sum. -/
abbrev ops1 : List (HloOp τ sig (Elt F)) :=
  [ StableHlo.unary main_arg2 main_v0 ((extui 32 · natLt_1_32) : (⟨S262144, .i1⟩ : BufTy).Contents (Elt F) → (⟨S262144, .i32⟩ : BufTy).Contents (Elt F)),
    StableHlo.nullary main_c (constantI S_ 32 0#32),
    StableHlo.unary main_c main_v1 (broadcastInDim S4096 ![] bcast_S_S4096 : (⟨S_, .i32⟩ : BufTy).Contents (Elt F) → (⟨S4096, .i32⟩ : BufTy).Contents (Elt F)),
    StableHlo.unary main_arg4 main_v2 (broadcastInDim S262144x1 ![0] bcast_S262144_S262144x1_0 : (⟨S262144, .i32⟩ : BufTy).Contents (Elt F) → (⟨S262144x1, .i32⟩ : BufTy).Contents (Elt F)),
    StableHlo.ternary main_v1 main_v2 main_v0 main_v3 ((fun x i u => Host.scatter scatter_S4096_S262144x1_S262144_n_0_0_1 IntOp.addi x i u) : (⟨S4096, .i32⟩ : BufTy).Contents (Elt F) → (⟨S262144x1, .i32⟩ : BufTy).Contents (Elt F) → (⟨S262144, .i32⟩ : BufTy).Contents (Elt F) → (⟨S4096, .i32⟩ : BufTy).Contents (Elt F)),
    StableHlo.nullary main_c_0 (constantI S_ 32 0#32),
    StableHlo.unary main_c_0 main_v4 (broadcastInDim S1 ![] bcast_S_S1 : (⟨S_, .i32⟩ : BufTy).Contents (Elt F) → (⟨S1, .i32⟩ : BufTy).Contents (Elt F)),
    StableHlo.TRef.nullary main_call0.call0.c (constantI S_ 32 0#32),
    StableHlo.TRef.unary main_call0.call0.c main_call0.call0.v0 (broadcastInDim S_ ![] bcast_S_S_),
    StableHlo.TRef.binary (.of main_v3 : StableHlo.TRef sig ⟨S4096, .i32⟩) main_call0.call0.v0 main_call0.call0.v1 (fun x v => Host.reduceWindow IntOp.addi ![4096] ![1] ![4095] ![0] x v reduceWindows_S4096_S4096_w4096s1p4095_0 h_S_) ]
theorem ops1_sub : (ops1 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub ..⟩
/-- The next thirty: the exclusive running sum, each node's rank within its graph, the kept flags and the slots. -/
abbrev ops2 : List (HloOp τ sig (Elt F)) :=
  [ StableHlo.binary main_v4 main_v5 main_v6 ((fun a b => concatenate S4097 0 [⟨S1, a⟩, ⟨S4096, b⟩] concatenates_S1_S4096_S4097_d0) : (⟨S1, .i32⟩ : BufTy).Contents (Elt F) → (⟨S4096, .i32⟩ : BufTy).Contents (Elt F) → (⟨S4097, .i32⟩ : BufTy).Contents (Elt F)),
    StableHlo.unary main_v6 main_v7 ((extractStridedSlice S4096 ![0] · slices_S4097_S4096_0) : (⟨S4097, .i32⟩ : BufTy).Contents (Elt F) → (⟨S4096, .i32⟩ : BufTy).Contents (Elt F)),
    StableHlo.TRef.nullary main_call1.call0.c (constantI S_ 32 0#32),
    StableHlo.TRef.unary main_call1.call0.c main_call1.call0.v0 (broadcastInDim S_ ![] bcast_S_S_),
    StableHlo.TRef.binary (.of main_v0 : StableHlo.TRef sig ⟨S262144, .i32⟩) main_call1.call0.v0 main_call1.call0.v1 (fun x v => Host.reduceWindow IntOp.addi ![262144] ![1] ![262143] ![0] x v reduceWindows_S262144_S262144_w262144s1p262143_0 h_S_),
    StableHlo.nullary main_c_1 (constantI S_ 32 1#32),
    StableHlo.unary main_c_1 main_v9 (broadcastInDim S262144 ![] bcast_S_S262144 : (⟨S_, .i32⟩ : BufTy).Contents (Elt F) → (⟨S262144, .i32⟩ : BufTy).Contents (Elt F)),
    StableHlo.binary main_v8 main_v9 main_v10 (subi : (⟨S262144, .i32⟩ : BufTy).Contents (Elt F) → (⟨S262144, .i32⟩ : BufTy).Contents (Elt F) → (⟨S262144, .i32⟩ : BufTy).Contents (Elt F)),
    StableHlo.nullary main_c_2 (constantI S_ 32 0#32),
    StableHlo.unary main_c_2 main_v11 (broadcastInDim S262144 ![] bcast_S_S262144 : (⟨S_, .i32⟩ : BufTy).Contents (Elt F) → (⟨S262144, .i32⟩ : BufTy).Contents (Elt F)),
    StableHlo.binary main_arg4 main_v11 main_v12 (cmpi .slt : (⟨S262144, .i32⟩ : BufTy).Contents (Elt F) → (⟨S262144, .i32⟩ : BufTy).Contents (Elt F) → (⟨S262144, .i1⟩ : BufTy).Contents (Elt F)),
    StableHlo.nullary main_c_3 (constantI S_ 32 4096#32),
    StableHlo.unary main_c_3 main_v13 (broadcastInDim S262144 ![] bcast_S_S262144 : (⟨S_, .i32⟩ : BufTy).Contents (Elt F) → (⟨S262144, .i32⟩ : BufTy).Contents (Elt F)),
    StableHlo.binary main_arg4 main_v13 main_v14 (addi : (⟨S262144, .i32⟩ : BufTy).Contents (Elt F) → (⟨S262144, .i32⟩ : BufTy).Contents (Elt F) → (⟨S262144, .i32⟩ : BufTy).Contents (Elt F)),
    StableHlo.ternary main_v12 main_v14 main_arg4 main_v15 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v15 main_v16 (broadcastInDim S262144x1 ![0] bcast_S262144_S262144x1_0 : (⟨S262144, .i32⟩ : BufTy).Contents (Elt F) → (⟨S262144x1, .i32⟩ : BufTy).Contents (Elt F)),
    StableHlo.binary main_v7 main_v16 main_v17 ((fun x i => Host.gather gather_S4096_S262144x1_S262144_n_0_n_n_0_1_1 x i) : (⟨S4096, .i32⟩ : BufTy).Contents (Elt F) → (⟨S262144x1, .i32⟩ : BufTy).Contents (Elt F) → (⟨S262144, .i32⟩ : BufTy).Contents (Elt F)),
    StableHlo.binary main_v10 main_v17 main_v18 (subi : (⟨S262144, .i32⟩ : BufTy).Contents (Elt F) → (⟨S262144, .i32⟩ : BufTy).Contents (Elt F) → (⟨S262144, .i32⟩ : BufTy).Contents (Elt F)),
    StableHlo.nullary main_c_4 (constantI S_ 32 8#32),
    StableHlo.unary main_c_4 main_v19 (broadcastInDim S262144 ![] bcast_S_S262144 : (⟨S_, .i32⟩ : BufTy).Contents (Elt F) → (⟨S262144, .i32⟩ : BufTy).Contents (Elt F)),
    StableHlo.binary main_v18 main_v19 main_v20 (cmpi .slt : (⟨S262144, .i32⟩ : BufTy).Contents (Elt F) → (⟨S262144, .i32⟩ : BufTy).Contents (Elt F) → (⟨S262144, .i1⟩ : BufTy).Contents (Elt F)),
    StableHlo.binary main_arg2 main_v20 main_v21 (andi : (⟨S262144, .i1⟩ : BufTy).Contents (Elt F) → (⟨S262144, .i1⟩ : BufTy).Contents (Elt F) → (⟨S262144, .i1⟩ : BufTy).Contents (Elt F)),
    StableHlo.nullary main_c_5 (constantI S_ 32 8#32),
    StableHlo.unary main_c_5 main_v22 (broadcastInDim S262144 ![] bcast_S_S262144 : (⟨S_, .i32⟩ : BufTy).Contents (Elt F) → (⟨S262144, .i32⟩ : BufTy).Contents (Elt F)),
    StableHlo.binary main_arg4 main_v22 main_v23 (muli : (⟨S262144, .i32⟩ : BufTy).Contents (Elt F) → (⟨S262144, .i32⟩ : BufTy).Contents (Elt F) → (⟨S262144, .i32⟩ : BufTy).Contents (Elt F)),
    StableHlo.binary main_v23 main_v18 main_v24 (addi : (⟨S262144, .i32⟩ : BufTy).Contents (Elt F) → (⟨S262144, .i32⟩ : BufTy).Contents (Elt F) → (⟨S262144, .i32⟩ : BufTy).Contents (Elt F)),
    StableHlo.nullary main_c_6 (constantI S_ 32 32768#32),
    StableHlo.TRef.unary (.of main_c_6 : StableHlo.TRef sig ⟨S_, .i32⟩) main_call2.v0 id,
    StableHlo.TRef.unary main_call2.v0 main_call2.v1 (broadcastInDim S262144 ![] bcast_S_S262144),
    StableHlo.TRef.ternary (.of main_v21 : StableHlo.TRef sig ⟨S262144, .i1⟩) (.of main_v24 : StableHlo.TRef sig ⟨S262144, .i32⟩) main_call2.v1 main_call2.v2 select ]
theorem ops2_sub : (ops2 : List (HloOp τ sig (Elt F))).Forall fun op => op.bufs ⊆ StableHlo.tcRefs τ sig :=
  ⟨StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub ..⟩
/-- The next twenty-eight: the packed feature table, the occupancy table and the broadcast global rows. -/
abbrev ops3 : List (HloOp τ sig (Elt F)) :=
  [ StableHlo.nullary main_cst (constant S_ .f32 0x00000000#32),
    StableHlo.unary main_cst main_v26 (broadcastInDim S32769x128 ![] bcast_S_S32769x128 : (⟨S_, .f32⟩ : BufTy).Contents (Elt F) → (⟨S32769x128, .f32⟩ : BufTy).Contents (Elt F)),
    StableHlo.nullary main_c_7 (constantI S_ 32 0#32),
    StableHlo.unary main_c_7 main_v27 (broadcastInDim S262144 ![] bcast_S_S262144 : (⟨S_, .i32⟩ : BufTy).Contents (Elt F) → (⟨S262144, .i32⟩ : BufTy).Contents (Elt F)),
    StableHlo.binary main_v25 main_v27 main_v28 (cmpi .slt : (⟨S262144, .i32⟩ : BufTy).Contents (Elt F) → (⟨S262144, .i32⟩ : BufTy).Contents (Elt F) → (⟨S262144, .i1⟩ : BufTy).Contents (Elt F)),
    StableHlo.nullary main_c_8 (constantI S_ 32 32769#32),
    StableHlo.unary main_c_8 main_v29 (broadcastInDim S262144 ![] bcast_S_S262144 : (⟨S_, .i32⟩ : BufTy).Contents (Elt F) → (⟨S262144, .i32⟩ : BufTy).Contents (Elt F)),
    StableHlo.binary main_v25 main_v29 main_v30 (addi : (⟨S262144, .i32⟩ : BufTy).Contents (Elt F) → (⟨S262144, .i32⟩ : BufTy).Contents (Elt F) → (⟨S262144, .i32⟩ : BufTy).Contents (Elt F)),
    StableHlo.ternary main_v28 main_v30 main_v25 main_v31 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v31 main_v32 (broadcastInDim S262144x1 ![0] bcast_S262144_S262144x1_0 : (⟨S262144, .i32⟩ : BufTy).Contents (Elt F) → (⟨S262144x1, .i32⟩ : BufTy).Contents (Elt F)),
    StableHlo.ternary main_v26 main_v32 main_arg0 main_v33 ((fun x i u => Host.scatter scatter_S32769x128_S262144x1_S262144x128_1_0_0_1 (fun _ b => b) x i u) : (⟨S32769x128, .f32⟩ : BufTy).Contents (Elt F) → (⟨S262144x1, .i32⟩ : BufTy).Contents (Elt F) → (⟨S262144x128, .f32⟩ : BufTy).Contents (Elt F) → (⟨S32769x128, .f32⟩ : BufTy).Contents (Elt F)),
    StableHlo.nullary main_c_9 (constantI S_ 1 0#1),
    StableHlo.unary main_c_9 main_v34 (broadcastInDim S32769 ![] bcast_S_S32769 : (⟨S_, .i1⟩ : BufTy).Contents (Elt F) → (⟨S32769, .i1⟩ : BufTy).Contents (Elt F)),
    StableHlo.nullary main_c_10 (constantI S_ 32 0#32),
    StableHlo.unary main_c_10 main_v35 (broadcastInDim S262144 ![] bcast_S_S262144 : (⟨S_, .i32⟩ : BufTy).Contents (Elt F) → (⟨S262144, .i32⟩ : BufTy).Contents (Elt F)),
    StableHlo.binary main_v25 main_v35 main_v36 (cmpi .slt : (⟨S262144, .i32⟩ : BufTy).Contents (Elt F) → (⟨S262144, .i32⟩ : BufTy).Contents (Elt F) → (⟨S262144, .i1⟩ : BufTy).Contents (Elt F)),
    StableHlo.nullary main_c_11 (constantI S_ 32 32769#32),
    StableHlo.unary main_c_11 main_v37 (broadcastInDim S262144 ![] bcast_S_S262144 : (⟨S_, .i32⟩ : BufTy).Contents (Elt F) → (⟨S262144, .i32⟩ : BufTy).Contents (Elt F)),
    StableHlo.binary main_v25 main_v37 main_v38 (addi : (⟨S262144, .i32⟩ : BufTy).Contents (Elt F) → (⟨S262144, .i32⟩ : BufTy).Contents (Elt F) → (⟨S262144, .i32⟩ : BufTy).Contents (Elt F)),
    StableHlo.ternary main_v36 main_v38 main_v25 main_v39 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v39 main_v40 (broadcastInDim S262144x1 ![0] bcast_S262144_S262144x1_0 : (⟨S262144, .i32⟩ : BufTy).Contents (Elt F) → (⟨S262144x1, .i32⟩ : BufTy).Contents (Elt F)),
    StableHlo.ternary main_v34 main_v40 main_v21 main_v41 ((fun x i u => Host.scatter scatter_S32769_S262144x1_S262144_n_0_0_1 (fun _ b => b) x i u) : (⟨S32769, .i1⟩ : BufTy).Contents (Elt F) → (⟨S262144x1, .i32⟩ : BufTy).Contents (Elt F) → (⟨S262144, .i1⟩ : BufTy).Contents (Elt F) → (⟨S32769, .i1⟩ : BufTy).Contents (Elt F)),
    StableHlo.unary main_v33 main_v42 ((extractStridedSlice S32768x128 ![0, 0] · slices_S32769x128_S32768x128_0_0) : (⟨S32769x128, .f32⟩ : BufTy).Contents (Elt F) → (⟨S32768x128, .f32⟩ : BufTy).Contents (Elt F)),
    StableHlo.reshape main_v42 main_v43 rfl shapeCasts_S32768x128_S4096x8x128,
    StableHlo.unary main_v41 main_v44 ((extractStridedSlice S32768 ![0] · slices_S32769_S32768_0) : (⟨S32769, .i1⟩ : BufTy).Contents (Elt F) → (⟨S32768, .i1⟩ : BufTy).Contents (Elt F)),
    StableHlo.reshape main_v44 main_v45 rfl shapeCasts_S32768_S4096x8,
    StableHlo.unary main_arg1 main_v46 (broadcastInDim S4096x1x128 ![0, 2] bcast_S4096x128_S4096x1x128_0_2 : (⟨S4096x128, .f32⟩ : BufTy).Contents (Elt F) → (⟨S4096x1x128, .f32⟩ : BufTy).Contents (Elt F)),
    StableHlo.unary main_v46 main_v47 (broadcastInDim S4096x8x128 ![0, 1, 2] bcast_S4096x1x128_S4096x8x128_0_1_2 : (⟨S4096x1x128, .f32⟩ : BufTy).Contents (Elt F) → (⟨S4096x8x128, .f32⟩ : BufTy).Contents (Elt F)) ]
theorem ops3_sub : (ops3 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.reshape_bufs_sub .., StableHlo.unary_bufs_sub .., StableHlo.reshape_bufs_sub .., StableHlo.unary_bufs_sub .., StableHlo.unary_bufs_sub ..⟩
/-- The last twenty-three: the two-layer perceptron and the two masks. -/
abbrev ops4 : List (HloOp τ sig (Elt F)) :=
  [ StableHlo.binary main_v43 main_v47 main_v48 ((fun a b => concatenate S4096x8x256 2 [⟨S4096x8x128, a⟩, ⟨S4096x8x128, b⟩] concatenates_S4096x8x128_S4096x8x128_S4096x8x256_d2) : (⟨S4096x8x128, .f32⟩ : BufTy).Contents (Elt F) → (⟨S4096x8x128, .f32⟩ : BufTy).Contents (Elt F) → (⟨S4096x8x256, .f32⟩ : BufTy).Contents (Elt F)),
    StableHlo.binary main_v48 main_arg5 main_v49 ((fun l r => Host.dotGeneral dot_S4096x8x256_S256x128_S4096x8x128_2_0_01_1_n_n none l r) : (⟨S4096x8x256, .f32⟩ : BufTy).Contents (Elt F) → (⟨S256x128, .f32⟩ : BufTy).Contents (Elt F) → (⟨S4096x8x128, .f32⟩ : BufTy).Contents (Elt F)),
    StableHlo.unary main_arg6 main_v50 (broadcastInDim S1x1x128 ![2] bcast_S128_S1x1x128_2 : (⟨S128, .f32⟩ : BufTy).Contents (Elt F) → (⟨S1x1x128, .f32⟩ : BufTy).Contents (Elt F)),
    StableHlo.unary main_v50 main_v51 (broadcastInDim S4096x8x128 ![0, 1, 2] bcast_S1x1x128_S4096x8x128_0_1_2 : (⟨S1x1x128, .f32⟩ : BufTy).Contents (Elt F) → (⟨S4096x8x128, .f32⟩ : BufTy).Contents (Elt F)),
    StableHlo.binary main_v49 main_v51 main_v52 (addf : (⟨S4096x8x128, .f32⟩ : BufTy).Contents (Elt F) → (⟨S4096x8x128, .f32⟩ : BufTy).Contents (Elt F) → (⟨S4096x8x128, .f32⟩ : BufTy).Contents (Elt F)),
    StableHlo.TRef.nullary main_call3.cst (constant S_ .f32 0x00000000#32),
    StableHlo.TRef.unary main_call3.cst main_call3.v0 (broadcastInDim S4096x8x128 ![] bcast_S_S4096x8x128),
    StableHlo.TRef.binary (.of main_v52 : StableHlo.TRef sig ⟨S4096x8x128, .f32⟩) main_call3.v0 main_call3.v1 maximumf,
    StableHlo.binary main_v53 main_arg7 main_v54 ((fun l r => Host.dotGeneral dot_S4096x8x128_S128x7_S4096x8x7_2_0_01_1_n_n none l r) : (⟨S4096x8x128, .f32⟩ : BufTy).Contents (Elt F) → (⟨S128x7, .f32⟩ : BufTy).Contents (Elt F) → (⟨S4096x8x7, .f32⟩ : BufTy).Contents (Elt F)),
    StableHlo.unary main_arg8 main_v55 (broadcastInDim S1x1x7 ![2] bcast_S7_S1x1x7_2 : (⟨S7, .f32⟩ : BufTy).Contents (Elt F) → (⟨S1x1x7, .f32⟩ : BufTy).Contents (Elt F)),
    StableHlo.unary main_v55 main_v56 (broadcastInDim S4096x8x7 ![0, 1, 2] bcast_S1x1x7_S4096x8x7_0_1_2 : (⟨S1x1x7, .f32⟩ : BufTy).Contents (Elt F) → (⟨S4096x8x7, .f32⟩ : BufTy).Contents (Elt F)),
    StableHlo.binary main_v54 main_v56 main_v57 (addf : (⟨S4096x8x7, .f32⟩ : BufTy).Contents (Elt F) → (⟨S4096x8x7, .f32⟩ : BufTy).Contents (Elt F) → (⟨S4096x8x7, .f32⟩ : BufTy).Contents (Elt F)),
    StableHlo.unary main_v45 main_v58 (broadcastInDim S4096x8x1 ![0, 1] bcast_S4096x8_S4096x8x1_0_1 : (⟨S4096x8, .i1⟩ : BufTy).Contents (Elt F) → (⟨S4096x8x1, .i1⟩ : BufTy).Contents (Elt F)),
    StableHlo.nullary main_cst_12 (constant S_ .f32 0xCE6E6B28#32),
    StableHlo.TRef.unary (.of main_cst_12 : StableHlo.TRef sig ⟨S_, .f32⟩) main_call4.v0 id,
    StableHlo.TRef.unary (.of main_v58 : StableHlo.TRef sig ⟨S4096x8x1, .i1⟩) main_call4.v1 (broadcastInDim S4096x8x7 ![0, 1, 2] bcast_S4096x8x1_S4096x8x7_0_1_2),
    StableHlo.TRef.unary main_call4.v0 main_call4.v2 (broadcastInDim S4096x8x7 ![] bcast_S_S4096x8x7),
    StableHlo.TRef.ternary main_call4.v1 (.of main_v57 : StableHlo.TRef sig ⟨S4096x8x7, .f32⟩) main_call4.v2 main_call4.v3 select,
    StableHlo.reshape main_v59 main_v60 rfl shapeCasts_S4096x8x7_S4096x56,
    StableHlo.nullary main_cst_13 (constant S_ .f32 0xCE6E6B28#32),
    StableHlo.TRef.unary (.of main_cst_13 : StableHlo.TRef sig ⟨S_, .f32⟩) main_call5.v0 id,
    StableHlo.TRef.unary main_call5.v0 main_call5.v1 (broadcastInDim S4096x56 ![] bcast_S_S4096x56),
    StableHlo.TRef.ternary (.of main_arg3 : StableHlo.TRef sig ⟨S4096x56, .i1⟩) (.of main_v60 : StableHlo.TRef sig ⟨S4096x56, .f32⟩) main_call5.v1 main_call5.v2 select ]
theorem ops4_sub : (ops4 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.ternary_bufs_sub .., StableHlo.reshape_bufs_sub .., StableHlo.nullary_bufs_sub .., StableHlo.unary_bufs_sub .., StableHlo.unary_bufs_sub .., StableHlo.ternary_bufs_sub ..⟩
/-- The group flags as 32-bit words. -/
def r_v0 (a2 : (⟨S262144, .i1⟩ : BufTy).Contents (Elt F)) : (⟨S262144, .i32⟩ : BufTy).Contents (Elt F) :=
  have x_v0 : (⟨S262144, .i32⟩ : BufTy).Contents (Elt F) := ((extui 32 · natLt_1_32) : (⟨S262144, .i1⟩ : BufTy).Contents (Elt F) → (⟨S262144, .i32⟩ : BufTy).Contents (Elt F)) a2
  x_v0

/-- The one-entry zero vector that heads the exclusive running sum. -/
def r_v4  : (⟨S1, .i32⟩ : BufTy).Contents (Elt F) :=
  have x_c_0 : (⟨S_, .i32⟩ : BufTy).Contents (Elt F) := (constantI S_ 32 0#32)
  have x_v4 : (⟨S1, .i32⟩ : BufTy).Contents (Elt F) := (broadcastInDim S1 ![] bcast_S_S1 : (⟨S_, .i32⟩ : BufTy).Contents (Elt F) → (⟨S1, .i32⟩ : BufTy).Contents (Elt F)) x_c_0
  x_v4

/-- The running sum of the per-graph group counts. -/
def r_v5 (a2 : (⟨S262144, .i1⟩ : BufTy).Contents (Elt F)) (a4 : (⟨S262144, .i32⟩ : BufTy).Contents (Elt F)) : (⟨S4096, .i32⟩ : BufTy).Contents (Elt F) :=
  have x_v0 : (⟨S262144, .i32⟩ : BufTy).Contents (Elt F) := ((extui 32 · natLt_1_32) : (⟨S262144, .i1⟩ : BufTy).Contents (Elt F) → (⟨S262144, .i32⟩ : BufTy).Contents (Elt F)) a2
  have x_c : (⟨S_, .i32⟩ : BufTy).Contents (Elt F) := (constantI S_ 32 0#32)
  have x_v1 : (⟨S4096, .i32⟩ : BufTy).Contents (Elt F) := (broadcastInDim S4096 ![] bcast_S_S4096 : (⟨S_, .i32⟩ : BufTy).Contents (Elt F) → (⟨S4096, .i32⟩ : BufTy).Contents (Elt F)) x_c
  have x_v2 : (⟨S262144x1, .i32⟩ : BufTy).Contents (Elt F) := (broadcastInDim S262144x1 ![0] bcast_S262144_S262144x1_0 : (⟨S262144, .i32⟩ : BufTy).Contents (Elt F) → (⟨S262144x1, .i32⟩ : BufTy).Contents (Elt F)) a4
  have x_v3 : (⟨S4096, .i32⟩ : BufTy).Contents (Elt F) := ((fun x i u => Host.scatter scatter_S4096_S262144x1_S262144_n_0_0_1 IntOp.addi x i u) : (⟨S4096, .i32⟩ : BufTy).Contents (Elt F) → (⟨S262144x1, .i32⟩ : BufTy).Contents (Elt F) → (⟨S262144, .i32⟩ : BufTy).Contents (Elt F) → (⟨S4096, .i32⟩ : BufTy).Contents (Elt F)) x_v1 x_v2 x_v0
  have x_call0_call0_c : (⟨S_, .i32⟩ : BufTy).Contents (Elt F) := (constantI S_ 32 0#32)
  have x_call0_call0_v0 : (⟨S_, .i32⟩ : BufTy).Contents (Elt F) := (broadcastInDim S_ ![] bcast_S_S_) x_call0_call0_c
  have x_v5 : (⟨S4096, .i32⟩ : BufTy).Contents (Elt F) := (fun x v => Host.reduceWindow IntOp.addi ![4096] ![1] ![4095] ![0] x v reduceWindows_S4096_S4096_w4096s1p4095_0 h_S_) x_v3 x_call0_call0_v0
  x_v5

/-- Which nodes are kept: a group whose rank within its graph is below 8. -/
def r_valid (v0 : (⟨S262144, .i32⟩ : BufTy).Contents (Elt F)) (v4 : (⟨S1, .i32⟩ : BufTy).Contents (Elt F)) (v5 : (⟨S4096, .i32⟩ : BufTy).Contents (Elt F)) (a2 : (⟨S262144, .i1⟩ : BufTy).Contents (Elt F)) (a4 : (⟨S262144, .i32⟩ : BufTy).Contents (Elt F)) : (⟨S262144, .i1⟩ : BufTy).Contents (Elt F) :=
  have x_v6 : (⟨S4097, .i32⟩ : BufTy).Contents (Elt F) := ((fun a b => concatenate S4097 0 [⟨S1, a⟩, ⟨S4096, b⟩] concatenates_S1_S4096_S4097_d0) : (⟨S1, .i32⟩ : BufTy).Contents (Elt F) → (⟨S4096, .i32⟩ : BufTy).Contents (Elt F) → (⟨S4097, .i32⟩ : BufTy).Contents (Elt F)) v4 v5
  have x_v7 : (⟨S4096, .i32⟩ : BufTy).Contents (Elt F) := ((extractStridedSlice S4096 ![0] · slices_S4097_S4096_0) : (⟨S4097, .i32⟩ : BufTy).Contents (Elt F) → (⟨S4096, .i32⟩ : BufTy).Contents (Elt F)) x_v6
  have x_call1_call0_c : (⟨S_, .i32⟩ : BufTy).Contents (Elt F) := (constantI S_ 32 0#32)
  have x_call1_call0_v0 : (⟨S_, .i32⟩ : BufTy).Contents (Elt F) := (broadcastInDim S_ ![] bcast_S_S_) x_call1_call0_c
  have x_v8 : (⟨S262144, .i32⟩ : BufTy).Contents (Elt F) := (fun x v => Host.reduceWindow IntOp.addi ![262144] ![1] ![262143] ![0] x v reduceWindows_S262144_S262144_w262144s1p262143_0 h_S_) v0 x_call1_call0_v0
  have x_c_1 : (⟨S_, .i32⟩ : BufTy).Contents (Elt F) := (constantI S_ 32 1#32)
  have x_v9 : (⟨S262144, .i32⟩ : BufTy).Contents (Elt F) := (broadcastInDim S262144 ![] bcast_S_S262144 : (⟨S_, .i32⟩ : BufTy).Contents (Elt F) → (⟨S262144, .i32⟩ : BufTy).Contents (Elt F)) x_c_1
  have x_v10 : (⟨S262144, .i32⟩ : BufTy).Contents (Elt F) := (subi : (⟨S262144, .i32⟩ : BufTy).Contents (Elt F) → (⟨S262144, .i32⟩ : BufTy).Contents (Elt F) → (⟨S262144, .i32⟩ : BufTy).Contents (Elt F)) x_v8 x_v9
  have x_c_2 : (⟨S_, .i32⟩ : BufTy).Contents (Elt F) := (constantI S_ 32 0#32)
  have x_v11 : (⟨S262144, .i32⟩ : BufTy).Contents (Elt F) := (broadcastInDim S262144 ![] bcast_S_S262144 : (⟨S_, .i32⟩ : BufTy).Contents (Elt F) → (⟨S262144, .i32⟩ : BufTy).Contents (Elt F)) x_c_2
  have x_v12 : (⟨S262144, .i1⟩ : BufTy).Contents (Elt F) := (cmpi .slt : (⟨S262144, .i32⟩ : BufTy).Contents (Elt F) → (⟨S262144, .i32⟩ : BufTy).Contents (Elt F) → (⟨S262144, .i1⟩ : BufTy).Contents (Elt F)) a4 x_v11
  have x_c_3 : (⟨S_, .i32⟩ : BufTy).Contents (Elt F) := (constantI S_ 32 4096#32)
  have x_v13 : (⟨S262144, .i32⟩ : BufTy).Contents (Elt F) := (broadcastInDim S262144 ![] bcast_S_S262144 : (⟨S_, .i32⟩ : BufTy).Contents (Elt F) → (⟨S262144, .i32⟩ : BufTy).Contents (Elt F)) x_c_3
  have x_v14 : (⟨S262144, .i32⟩ : BufTy).Contents (Elt F) := (addi : (⟨S262144, .i32⟩ : BufTy).Contents (Elt F) → (⟨S262144, .i32⟩ : BufTy).Contents (Elt F) → (⟨S262144, .i32⟩ : BufTy).Contents (Elt F)) a4 x_v13
  have x_v15 : (⟨S262144, .i32⟩ : BufTy).Contents (Elt F) := (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) x_v12 x_v14 a4
  have x_v16 : (⟨S262144x1, .i32⟩ : BufTy).Contents (Elt F) := (broadcastInDim S262144x1 ![0] bcast_S262144_S262144x1_0 : (⟨S262144, .i32⟩ : BufTy).Contents (Elt F) → (⟨S262144x1, .i32⟩ : BufTy).Contents (Elt F)) x_v15
  have x_v17 : (⟨S262144, .i32⟩ : BufTy).Contents (Elt F) := ((fun x i => Host.gather gather_S4096_S262144x1_S262144_n_0_n_n_0_1_1 x i) : (⟨S4096, .i32⟩ : BufTy).Contents (Elt F) → (⟨S262144x1, .i32⟩ : BufTy).Contents (Elt F) → (⟨S262144, .i32⟩ : BufTy).Contents (Elt F)) x_v7 x_v16
  have x_v18 : (⟨S262144, .i32⟩ : BufTy).Contents (Elt F) := (subi : (⟨S262144, .i32⟩ : BufTy).Contents (Elt F) → (⟨S262144, .i32⟩ : BufTy).Contents (Elt F) → (⟨S262144, .i32⟩ : BufTy).Contents (Elt F)) x_v10 x_v17
  have x_c_4 : (⟨S_, .i32⟩ : BufTy).Contents (Elt F) := (constantI S_ 32 8#32)
  have x_v19 : (⟨S262144, .i32⟩ : BufTy).Contents (Elt F) := (broadcastInDim S262144 ![] bcast_S_S262144 : (⟨S_, .i32⟩ : BufTy).Contents (Elt F) → (⟨S262144, .i32⟩ : BufTy).Contents (Elt F)) x_c_4
  have x_v20 : (⟨S262144, .i1⟩ : BufTy).Contents (Elt F) := (cmpi .slt : (⟨S262144, .i32⟩ : BufTy).Contents (Elt F) → (⟨S262144, .i32⟩ : BufTy).Contents (Elt F) → (⟨S262144, .i1⟩ : BufTy).Contents (Elt F)) x_v18 x_v19
  have x_v21 : (⟨S262144, .i1⟩ : BufTy).Contents (Elt F) := (andi : (⟨S262144, .i1⟩ : BufTy).Contents (Elt F) → (⟨S262144, .i1⟩ : BufTy).Contents (Elt F) → (⟨S262144, .i1⟩ : BufTy).Contents (Elt F)) a2 x_v20
  x_v21

/-- Each node's slot: 8·graph + rank when kept, the dummy row 32768 otherwise. -/
def r_slot (v0 : (⟨S262144, .i32⟩ : BufTy).Contents (Elt F)) (v4 : (⟨S1, .i32⟩ : BufTy).Contents (Elt F)) (v5 : (⟨S4096, .i32⟩ : BufTy).Contents (Elt F)) (a2 : (⟨S262144, .i1⟩ : BufTy).Contents (Elt F)) (a4 : (⟨S262144, .i32⟩ : BufTy).Contents (Elt F)) : (⟨S262144, .i32⟩ : BufTy).Contents (Elt F) :=
  have x_v6 : (⟨S4097, .i32⟩ : BufTy).Contents (Elt F) := ((fun a b => concatenate S4097 0 [⟨S1, a⟩, ⟨S4096, b⟩] concatenates_S1_S4096_S4097_d0) : (⟨S1, .i32⟩ : BufTy).Contents (Elt F) → (⟨S4096, .i32⟩ : BufTy).Contents (Elt F) → (⟨S4097, .i32⟩ : BufTy).Contents (Elt F)) v4 v5
  have x_v7 : (⟨S4096, .i32⟩ : BufTy).Contents (Elt F) := ((extractStridedSlice S4096 ![0] · slices_S4097_S4096_0) : (⟨S4097, .i32⟩ : BufTy).Contents (Elt F) → (⟨S4096, .i32⟩ : BufTy).Contents (Elt F)) x_v6
  have x_call1_call0_c : (⟨S_, .i32⟩ : BufTy).Contents (Elt F) := (constantI S_ 32 0#32)
  have x_call1_call0_v0 : (⟨S_, .i32⟩ : BufTy).Contents (Elt F) := (broadcastInDim S_ ![] bcast_S_S_) x_call1_call0_c
  have x_v8 : (⟨S262144, .i32⟩ : BufTy).Contents (Elt F) := (fun x v => Host.reduceWindow IntOp.addi ![262144] ![1] ![262143] ![0] x v reduceWindows_S262144_S262144_w262144s1p262143_0 h_S_) v0 x_call1_call0_v0
  have x_c_1 : (⟨S_, .i32⟩ : BufTy).Contents (Elt F) := (constantI S_ 32 1#32)
  have x_v9 : (⟨S262144, .i32⟩ : BufTy).Contents (Elt F) := (broadcastInDim S262144 ![] bcast_S_S262144 : (⟨S_, .i32⟩ : BufTy).Contents (Elt F) → (⟨S262144, .i32⟩ : BufTy).Contents (Elt F)) x_c_1
  have x_v10 : (⟨S262144, .i32⟩ : BufTy).Contents (Elt F) := (subi : (⟨S262144, .i32⟩ : BufTy).Contents (Elt F) → (⟨S262144, .i32⟩ : BufTy).Contents (Elt F) → (⟨S262144, .i32⟩ : BufTy).Contents (Elt F)) x_v8 x_v9
  have x_c_2 : (⟨S_, .i32⟩ : BufTy).Contents (Elt F) := (constantI S_ 32 0#32)
  have x_v11 : (⟨S262144, .i32⟩ : BufTy).Contents (Elt F) := (broadcastInDim S262144 ![] bcast_S_S262144 : (⟨S_, .i32⟩ : BufTy).Contents (Elt F) → (⟨S262144, .i32⟩ : BufTy).Contents (Elt F)) x_c_2
  have x_v12 : (⟨S262144, .i1⟩ : BufTy).Contents (Elt F) := (cmpi .slt : (⟨S262144, .i32⟩ : BufTy).Contents (Elt F) → (⟨S262144, .i32⟩ : BufTy).Contents (Elt F) → (⟨S262144, .i1⟩ : BufTy).Contents (Elt F)) a4 x_v11
  have x_c_3 : (⟨S_, .i32⟩ : BufTy).Contents (Elt F) := (constantI S_ 32 4096#32)
  have x_v13 : (⟨S262144, .i32⟩ : BufTy).Contents (Elt F) := (broadcastInDim S262144 ![] bcast_S_S262144 : (⟨S_, .i32⟩ : BufTy).Contents (Elt F) → (⟨S262144, .i32⟩ : BufTy).Contents (Elt F)) x_c_3
  have x_v14 : (⟨S262144, .i32⟩ : BufTy).Contents (Elt F) := (addi : (⟨S262144, .i32⟩ : BufTy).Contents (Elt F) → (⟨S262144, .i32⟩ : BufTy).Contents (Elt F) → (⟨S262144, .i32⟩ : BufTy).Contents (Elt F)) a4 x_v13
  have x_v15 : (⟨S262144, .i32⟩ : BufTy).Contents (Elt F) := (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) x_v12 x_v14 a4
  have x_v16 : (⟨S262144x1, .i32⟩ : BufTy).Contents (Elt F) := (broadcastInDim S262144x1 ![0] bcast_S262144_S262144x1_0 : (⟨S262144, .i32⟩ : BufTy).Contents (Elt F) → (⟨S262144x1, .i32⟩ : BufTy).Contents (Elt F)) x_v15
  have x_v17 : (⟨S262144, .i32⟩ : BufTy).Contents (Elt F) := ((fun x i => Host.gather gather_S4096_S262144x1_S262144_n_0_n_n_0_1_1 x i) : (⟨S4096, .i32⟩ : BufTy).Contents (Elt F) → (⟨S262144x1, .i32⟩ : BufTy).Contents (Elt F) → (⟨S262144, .i32⟩ : BufTy).Contents (Elt F)) x_v7 x_v16
  have x_v18 : (⟨S262144, .i32⟩ : BufTy).Contents (Elt F) := (subi : (⟨S262144, .i32⟩ : BufTy).Contents (Elt F) → (⟨S262144, .i32⟩ : BufTy).Contents (Elt F) → (⟨S262144, .i32⟩ : BufTy).Contents (Elt F)) x_v10 x_v17
  have x_c_4 : (⟨S_, .i32⟩ : BufTy).Contents (Elt F) := (constantI S_ 32 8#32)
  have x_v19 : (⟨S262144, .i32⟩ : BufTy).Contents (Elt F) := (broadcastInDim S262144 ![] bcast_S_S262144 : (⟨S_, .i32⟩ : BufTy).Contents (Elt F) → (⟨S262144, .i32⟩ : BufTy).Contents (Elt F)) x_c_4
  have x_v20 : (⟨S262144, .i1⟩ : BufTy).Contents (Elt F) := (cmpi .slt : (⟨S262144, .i32⟩ : BufTy).Contents (Elt F) → (⟨S262144, .i32⟩ : BufTy).Contents (Elt F) → (⟨S262144, .i1⟩ : BufTy).Contents (Elt F)) x_v18 x_v19
  have x_v21 : (⟨S262144, .i1⟩ : BufTy).Contents (Elt F) := (andi : (⟨S262144, .i1⟩ : BufTy).Contents (Elt F) → (⟨S262144, .i1⟩ : BufTy).Contents (Elt F) → (⟨S262144, .i1⟩ : BufTy).Contents (Elt F)) a2 x_v20
  have x_c_5 : (⟨S_, .i32⟩ : BufTy).Contents (Elt F) := (constantI S_ 32 8#32)
  have x_v22 : (⟨S262144, .i32⟩ : BufTy).Contents (Elt F) := (broadcastInDim S262144 ![] bcast_S_S262144 : (⟨S_, .i32⟩ : BufTy).Contents (Elt F) → (⟨S262144, .i32⟩ : BufTy).Contents (Elt F)) x_c_5
  have x_v23 : (⟨S262144, .i32⟩ : BufTy).Contents (Elt F) := (muli : (⟨S262144, .i32⟩ : BufTy).Contents (Elt F) → (⟨S262144, .i32⟩ : BufTy).Contents (Elt F) → (⟨S262144, .i32⟩ : BufTy).Contents (Elt F)) a4 x_v22
  have x_v24 : (⟨S262144, .i32⟩ : BufTy).Contents (Elt F) := (addi : (⟨S262144, .i32⟩ : BufTy).Contents (Elt F) → (⟨S262144, .i32⟩ : BufTy).Contents (Elt F) → (⟨S262144, .i32⟩ : BufTy).Contents (Elt F)) x_v23 x_v18
  have x_c_6 : (⟨S_, .i32⟩ : BufTy).Contents (Elt F) := (constantI S_ 32 32768#32)
  have x_call2_v0 : (⟨S_, .i32⟩ : BufTy).Contents (Elt F) := id x_c_6
  have x_call2_v1 : (⟨S262144, .i32⟩ : BufTy).Contents (Elt F) := (broadcastInDim S262144 ![] bcast_S_S262144) x_call2_v0
  have x_v25 : (⟨S262144, .i32⟩ : BufTy).Contents (Elt F) := select x_v21 x_v24 x_call2_v1
  x_v25

/-- The slots as a column of scatter indices, a negative one moved up by the table's length. -/
def r_idx (s : (⟨S262144, .i32⟩ : BufTy).Contents (Elt F)) : (⟨S262144x1, .i32⟩ : BufTy).Contents (Elt F) :=
  have x_c_7 : (⟨S_, .i32⟩ : BufTy).Contents (Elt F) := (constantI S_ 32 0#32)
  have x_v27 : (⟨S262144, .i32⟩ : BufTy).Contents (Elt F) := (broadcastInDim S262144 ![] bcast_S_S262144 : (⟨S_, .i32⟩ : BufTy).Contents (Elt F) → (⟨S262144, .i32⟩ : BufTy).Contents (Elt F)) x_c_7
  have x_v28 : (⟨S262144, .i1⟩ : BufTy).Contents (Elt F) := (cmpi .slt : (⟨S262144, .i32⟩ : BufTy).Contents (Elt F) → (⟨S262144, .i32⟩ : BufTy).Contents (Elt F) → (⟨S262144, .i1⟩ : BufTy).Contents (Elt F)) s x_v27
  have x_c_8 : (⟨S_, .i32⟩ : BufTy).Contents (Elt F) := (constantI S_ 32 32769#32)
  have x_v29 : (⟨S262144, .i32⟩ : BufTy).Contents (Elt F) := (broadcastInDim S262144 ![] bcast_S_S262144 : (⟨S_, .i32⟩ : BufTy).Contents (Elt F) → (⟨S262144, .i32⟩ : BufTy).Contents (Elt F)) x_c_8
  have x_v30 : (⟨S262144, .i32⟩ : BufTy).Contents (Elt F) := (addi : (⟨S262144, .i32⟩ : BufTy).Contents (Elt F) → (⟨S262144, .i32⟩ : BufTy).Contents (Elt F) → (⟨S262144, .i32⟩ : BufTy).Contents (Elt F)) s x_v29
  have x_v31 : (⟨S262144, .i32⟩ : BufTy).Contents (Elt F) := (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) x_v28 x_v30 s
  have x_v32 : (⟨S262144x1, .i32⟩ : BufTy).Contents (Elt F) := (broadcastInDim S262144x1 ![0] bcast_S262144_S262144x1_0 : (⟨S262144, .i32⟩ : BufTy).Contents (Elt F) → (⟨S262144x1, .i32⟩ : BufTy).Contents (Elt F)) x_v31
  x_v32

/-- The same column, as the program computes it a second time. -/
def r_idx' (s : (⟨S262144, .i32⟩ : BufTy).Contents (Elt F)) : (⟨S262144x1, .i32⟩ : BufTy).Contents (Elt F) :=
  have x_c_10 : (⟨S_, .i32⟩ : BufTy).Contents (Elt F) := (constantI S_ 32 0#32)
  have x_v35 : (⟨S262144, .i32⟩ : BufTy).Contents (Elt F) := (broadcastInDim S262144 ![] bcast_S_S262144 : (⟨S_, .i32⟩ : BufTy).Contents (Elt F) → (⟨S262144, .i32⟩ : BufTy).Contents (Elt F)) x_c_10
  have x_v36 : (⟨S262144, .i1⟩ : BufTy).Contents (Elt F) := (cmpi .slt : (⟨S262144, .i32⟩ : BufTy).Contents (Elt F) → (⟨S262144, .i32⟩ : BufTy).Contents (Elt F) → (⟨S262144, .i1⟩ : BufTy).Contents (Elt F)) s x_v35
  have x_c_11 : (⟨S_, .i32⟩ : BufTy).Contents (Elt F) := (constantI S_ 32 32769#32)
  have x_v37 : (⟨S262144, .i32⟩ : BufTy).Contents (Elt F) := (broadcastInDim S262144 ![] bcast_S_S262144 : (⟨S_, .i32⟩ : BufTy).Contents (Elt F) → (⟨S262144, .i32⟩ : BufTy).Contents (Elt F)) x_c_11
  have x_v38 : (⟨S262144, .i32⟩ : BufTy).Contents (Elt F) := (addi : (⟨S262144, .i32⟩ : BufTy).Contents (Elt F) → (⟨S262144, .i32⟩ : BufTy).Contents (Elt F) → (⟨S262144, .i32⟩ : BufTy).Contents (Elt F)) s x_v37
  have x_v39 : (⟨S262144, .i32⟩ : BufTy).Contents (Elt F) := (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) x_v36 x_v38 s
  have x_v40 : (⟨S262144x1, .i32⟩ : BufTy).Contents (Elt F) := (broadcastInDim S262144x1 ![0] bcast_S262144_S262144x1_0 : (⟨S262144, .i32⟩ : BufTy).Contents (Elt F) → (⟨S262144x1, .i32⟩ : BufTy).Contents (Elt F)) x_v39
  x_v40

/-- The packed feature table: the node rows scattered to their slots over zeros, the dummy row dropped, seen as [4096, 8, 128]. -/
def r_feats (I : (⟨S262144x1, .i32⟩ : BufTy).Contents (Elt F)) (a0 : (⟨S262144x128, .f32⟩ : BufTy).Contents (Elt F)) : (⟨S4096x8x128, .f32⟩ : BufTy).Contents (Elt F) :=
  have x_cst : (⟨S_, .f32⟩ : BufTy).Contents (Elt F) := (constant S_ .f32 0x00000000#32)
  have x_v26 : (⟨S32769x128, .f32⟩ : BufTy).Contents (Elt F) := (broadcastInDim S32769x128 ![] bcast_S_S32769x128 : (⟨S_, .f32⟩ : BufTy).Contents (Elt F) → (⟨S32769x128, .f32⟩ : BufTy).Contents (Elt F)) x_cst
  have x_v33 : (⟨S32769x128, .f32⟩ : BufTy).Contents (Elt F) := ((fun x i u => Host.scatter scatter_S32769x128_S262144x1_S262144x128_1_0_0_1 (fun _ b => b) x i u) : (⟨S32769x128, .f32⟩ : BufTy).Contents (Elt F) → (⟨S262144x1, .i32⟩ : BufTy).Contents (Elt F) → (⟨S262144x128, .f32⟩ : BufTy).Contents (Elt F) → (⟨S32769x128, .f32⟩ : BufTy).Contents (Elt F)) x_v26 I a0
  have x_v42 : (⟨S32768x128, .f32⟩ : BufTy).Contents (Elt F) := ((extractStridedSlice S32768x128 ![0, 0] · slices_S32769x128_S32768x128_0_0) : (⟨S32769x128, .f32⟩ : BufTy).Contents (Elt F) → (⟨S32768x128, .f32⟩ : BufTy).Contents (Elt F)) x_v33
  have x_v43 : (⟨S4096x8x128, .f32⟩ : BufTy).Contents (Elt F) := shapeCast S4096x8x128 x_v42 shapeCasts_S32768x128_S4096x8x128
  x_v43

/-- The occupancy table: the kept flags scattered to their slots over false, the dummy entry dropped, seen as [4096, 8]. -/
def r_occ (I : (⟨S262144x1, .i32⟩ : BufTy).Contents (Elt F)) (valid : (⟨S262144, .i1⟩ : BufTy).Contents (Elt F)) : (⟨S4096x8, .i1⟩ : BufTy).Contents (Elt F) :=
  have x_c_9 : (⟨S_, .i1⟩ : BufTy).Contents (Elt F) := (constantI S_ 1 0#1)
  have x_v34 : (⟨S32769, .i1⟩ : BufTy).Contents (Elt F) := (broadcastInDim S32769 ![] bcast_S_S32769 : (⟨S_, .i1⟩ : BufTy).Contents (Elt F) → (⟨S32769, .i1⟩ : BufTy).Contents (Elt F)) x_c_9
  have x_v41 : (⟨S32769, .i1⟩ : BufTy).Contents (Elt F) := ((fun x i u => Host.scatter scatter_S32769_S262144x1_S262144_n_0_0_1 (fun _ b => b) x i u) : (⟨S32769, .i1⟩ : BufTy).Contents (Elt F) → (⟨S262144x1, .i32⟩ : BufTy).Contents (Elt F) → (⟨S262144, .i1⟩ : BufTy).Contents (Elt F) → (⟨S32769, .i1⟩ : BufTy).Contents (Elt F)) x_v34 I valid
  have x_v44 : (⟨S32768, .i1⟩ : BufTy).Contents (Elt F) := ((extractStridedSlice S32768 ![0] · slices_S32769_S32768_0) : (⟨S32769, .i1⟩ : BufTy).Contents (Elt F) → (⟨S32768, .i1⟩ : BufTy).Contents (Elt F)) x_v41
  have x_v45 : (⟨S4096x8, .i1⟩ : BufTy).Contents (Elt F) := shapeCast S4096x8 x_v44 shapeCasts_S32768_S4096x8
  x_v45

/-- The global rows repeated for the 8 groups of each graph. -/
def r_glob (a1 : (⟨S4096x128, .f32⟩ : BufTy).Contents (Elt F)) : (⟨S4096x8x128, .f32⟩ : BufTy).Contents (Elt F) :=
  have x_v46 : (⟨S4096x1x128, .f32⟩ : BufTy).Contents (Elt F) := (broadcastInDim S4096x1x128 ![0, 2] bcast_S4096x128_S4096x1x128_0_2 : (⟨S4096x128, .f32⟩ : BufTy).Contents (Elt F) → (⟨S4096x1x128, .f32⟩ : BufTy).Contents (Elt F)) a1
  have x_v47 : (⟨S4096x8x128, .f32⟩ : BufTy).Contents (Elt F) := (broadcastInDim S4096x8x128 ![0, 1, 2] bcast_S4096x1x128_S4096x8x128_0_1_2 : (⟨S4096x1x128, .f32⟩ : BufTy).Contents (Elt F) → (⟨S4096x8x128, .f32⟩ : BufTy).Contents (Elt F)) x_v46
  x_v47

/-- The result from the packed features, the occupancy, the repeated global rows, the direction mask and the weights. -/
def r_tail (F43 : (⟨S4096x8x128, .f32⟩ : BufTy).Contents (Elt F)) (O45 : (⟨S4096x8, .i1⟩ : BufTy).Contents (Elt F)) (G47 : (⟨S4096x8x128, .f32⟩ : BufTy).Contents (Elt F)) (a3 : (⟨S4096x56, .i1⟩ : BufTy).Contents (Elt F)) (a5 : (⟨S256x128, .f32⟩ : BufTy).Contents (Elt F)) (a6 : (⟨S128, .f32⟩ : BufTy).Contents (Elt F)) (a7 : (⟨S128x7, .f32⟩ : BufTy).Contents (Elt F)) (a8 : (⟨S7, .f32⟩ : BufTy).Contents (Elt F)) : (⟨S4096x56, .f32⟩ : BufTy).Contents (Elt F) :=
  have x_v48 : (⟨S4096x8x256, .f32⟩ : BufTy).Contents (Elt F) := ((fun a b => concatenate S4096x8x256 2 [⟨S4096x8x128, a⟩, ⟨S4096x8x128, b⟩] concatenates_S4096x8x128_S4096x8x128_S4096x8x256_d2) : (⟨S4096x8x128, .f32⟩ : BufTy).Contents (Elt F) → (⟨S4096x8x128, .f32⟩ : BufTy).Contents (Elt F) → (⟨S4096x8x256, .f32⟩ : BufTy).Contents (Elt F)) F43 G47
  have x_v49 : (⟨S4096x8x128, .f32⟩ : BufTy).Contents (Elt F) := ((fun l r => Host.dotGeneral dot_S4096x8x256_S256x128_S4096x8x128_2_0_01_1_n_n none l r) : (⟨S4096x8x256, .f32⟩ : BufTy).Contents (Elt F) → (⟨S256x128, .f32⟩ : BufTy).Contents (Elt F) → (⟨S4096x8x128, .f32⟩ : BufTy).Contents (Elt F)) x_v48 a5
  have x_v50 : (⟨S1x1x128, .f32⟩ : BufTy).Contents (Elt F) := (broadcastInDim S1x1x128 ![2] bcast_S128_S1x1x128_2 : (⟨S128, .f32⟩ : BufTy).Contents (Elt F) → (⟨S1x1x128, .f32⟩ : BufTy).Contents (Elt F)) a6
  have x_v51 : (⟨S4096x8x128, .f32⟩ : BufTy).Contents (Elt F) := (broadcastInDim S4096x8x128 ![0, 1, 2] bcast_S1x1x128_S4096x8x128_0_1_2 : (⟨S1x1x128, .f32⟩ : BufTy).Contents (Elt F) → (⟨S4096x8x128, .f32⟩ : BufTy).Contents (Elt F)) x_v50
  have x_v52 : (⟨S4096x8x128, .f32⟩ : BufTy).Contents (Elt F) := (addf : (⟨S4096x8x128, .f32⟩ : BufTy).Contents (Elt F) → (⟨S4096x8x128, .f32⟩ : BufTy).Contents (Elt F) → (⟨S4096x8x128, .f32⟩ : BufTy).Contents (Elt F)) x_v49 x_v51
  have x_call3_cst : (⟨S_, .f32⟩ : BufTy).Contents (Elt F) := (constant S_ .f32 0x00000000#32)
  have x_call3_v0 : (⟨S4096x8x128, .f32⟩ : BufTy).Contents (Elt F) := (broadcastInDim S4096x8x128 ![] bcast_S_S4096x8x128) x_call3_cst
  have x_v53 : (⟨S4096x8x128, .f32⟩ : BufTy).Contents (Elt F) := maximumf x_v52 x_call3_v0
  have x_v54 : (⟨S4096x8x7, .f32⟩ : BufTy).Contents (Elt F) := ((fun l r => Host.dotGeneral dot_S4096x8x128_S128x7_S4096x8x7_2_0_01_1_n_n none l r) : (⟨S4096x8x128, .f32⟩ : BufTy).Contents (Elt F) → (⟨S128x7, .f32⟩ : BufTy).Contents (Elt F) → (⟨S4096x8x7, .f32⟩ : BufTy).Contents (Elt F)) x_v53 a7
  have x_v55 : (⟨S1x1x7, .f32⟩ : BufTy).Contents (Elt F) := (broadcastInDim S1x1x7 ![2] bcast_S7_S1x1x7_2 : (⟨S7, .f32⟩ : BufTy).Contents (Elt F) → (⟨S1x1x7, .f32⟩ : BufTy).Contents (Elt F)) a8
  have x_v56 : (⟨S4096x8x7, .f32⟩ : BufTy).Contents (Elt F) := (broadcastInDim S4096x8x7 ![0, 1, 2] bcast_S1x1x7_S4096x8x7_0_1_2 : (⟨S1x1x7, .f32⟩ : BufTy).Contents (Elt F) → (⟨S4096x8x7, .f32⟩ : BufTy).Contents (Elt F)) x_v55
  have x_v57 : (⟨S4096x8x7, .f32⟩ : BufTy).Contents (Elt F) := (addf : (⟨S4096x8x7, .f32⟩ : BufTy).Contents (Elt F) → (⟨S4096x8x7, .f32⟩ : BufTy).Contents (Elt F) → (⟨S4096x8x7, .f32⟩ : BufTy).Contents (Elt F)) x_v54 x_v56
  have x_v58 : (⟨S4096x8x1, .i1⟩ : BufTy).Contents (Elt F) := (broadcastInDim S4096x8x1 ![0, 1] bcast_S4096x8_S4096x8x1_0_1 : (⟨S4096x8, .i1⟩ : BufTy).Contents (Elt F) → (⟨S4096x8x1, .i1⟩ : BufTy).Contents (Elt F)) O45
  have x_cst_12 : (⟨S_, .f32⟩ : BufTy).Contents (Elt F) := (constant S_ .f32 0xCE6E6B28#32)
  have x_call4_v0 : (⟨S_, .f32⟩ : BufTy).Contents (Elt F) := id x_cst_12
  have x_call4_v1 : (⟨S4096x8x7, .i1⟩ : BufTy).Contents (Elt F) := (broadcastInDim S4096x8x7 ![0, 1, 2] bcast_S4096x8x1_S4096x8x7_0_1_2) x_v58
  have x_call4_v2 : (⟨S4096x8x7, .f32⟩ : BufTy).Contents (Elt F) := (broadcastInDim S4096x8x7 ![] bcast_S_S4096x8x7) x_call4_v0
  have x_v59 : (⟨S4096x8x7, .f32⟩ : BufTy).Contents (Elt F) := select x_call4_v1 x_v57 x_call4_v2
  have x_v60 : (⟨S4096x56, .f32⟩ : BufTy).Contents (Elt F) := shapeCast S4096x56 x_v59 shapeCasts_S4096x8x7_S4096x56
  have x_cst_13 : (⟨S_, .f32⟩ : BufTy).Contents (Elt F) := (constant S_ .f32 0xCE6E6B28#32)
  have x_call5_v0 : (⟨S_, .f32⟩ : BufTy).Contents (Elt F) := id x_cst_13
  have x_call5_v1 : (⟨S4096x56, .f32⟩ : BufTy).Contents (Elt F) := (broadcastInDim S4096x56 ![] bcast_S_S4096x56) x_call5_v0
  have x_v61 : (⟨S4096x56, .f32⟩ : BufTy).Contents (Elt F) := select a3 x_v60 x_call5_v1
  x_v61

end Cert.ReferenceIdeal.RefOps
end
-- ==== Proof.RefRun.lean ====
/-
  THE REFERENCE'S RUN. @main is a straight line of ninety-one host operations once the module-local functions are
  unfolded at their calls; such a line run from any memory ends with every buffer at the fold of the operations'
  results. The fold is read in four stretches — up to the running sum of the counts, on to the slots, on to the three
  tables the perceptron reads, then the perceptron and the masks — each stretch's results being the same operations applied
  in order to what the stretch before left.
-/
import proofs.«400074_j43971875176951_3_alg».proof.Proof.RefOps
import Idealize.ShloMosaic.Lib.Pipeline.Frame
noncomputable section
namespace Cert.ReferenceIdeal.RefRun
open Cert.ReferenceIdeal Cert.ReferenceIdeal.Gen Cert.ReferenceIdeal.RefOps Idealize.ShloMosaic Idealize.ShloMosaic.TcCoe Idealize.SL.Sem
open Idealize.ShloMosaic.StableHlo

variable {F : FTy → Type} [FloatOps F]

/-- @main's operations, in order. -/
abbrev ops : List (HloOp τ sig (Elt F)) := ops1 ++ (ops2 ++ (ops3 ++ ops4))

set_option maxRecDepth 8192 in
set_option maxHeartbeats 2000000 in
/-- @main is that straight line: the functions' definitions unfolded at their calls, both sides are one chain of
    steps once the sequencing is reassociated. -/
theorem main_eq (c : Dev nD) : main (F := F) c = seq ops := by
  simp only [main, main_part0, main_part1, fn_cumsum.body, fn_cumsum_0.body, fn_cumsum_1.body, fn_cumsum_2.body,
    fn_where.body, fn_relu.body, fn_where_3.body, fn_where_4.body, ops, ops1, ops2, ops3, ops4, List.cons_append, List.nil_append,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [List.forall_iff_forall_mem]
  intro op hop
  rcases List.mem_append.1 hop with h | h
  · exact List.forall_iff_forall_mem.1 ops1_sub op h
  · rcases List.mem_append.1 h with h | h
    · exact List.forall_iff_forall_mem.1 ops2_sub op h
    · rcases List.mem_append.1 h with h | h
      · exact List.forall_iff_forall_mem.1 ops3_sub op h
      · exact List.forall_iff_forall_mem.1 ops4_sub op h

theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h
theorem ops4_fresh : ∀ op ∈ (ops4 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op hop
  rcases List.mem_append.1 hop with h | h
  · exact ops1_fresh op h
  · rcases List.mem_append.1 h with h | h
    · exact ops2_fresh op h
    · rcases List.mem_append.1 h with h | h
      · exact ops3_fresh op h
      · exact ops4_fresh op h

/-- From any memory with zero counters every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun
end
-- ==== Proof.RefRes.lean ====
/-
  THE REFERENCE'S FOLD, READ. Each of the four stretches of @main leaves, at the buffers the next ones read, the
  stretch's operations applied in order to what it found; the arguments are written by no operation. Composed,
  the result buffer holds `refOut` of the nine arguments.
-/
import proofs.«400074_j43971875176951_3_alg».proof.Proof.RefRun
noncomputable section
namespace Cert.ReferenceIdeal.RefRun
open Cert.ReferenceIdeal Cert.ReferenceIdeal.Gen Cert.ReferenceIdeal.RefOps Idealize.ShloMosaic Idealize.ShloMosaic.TcCoe Idealize.SL.Sem
open Idealize.ShloMosaic.StableHlo

variable {F : FTy → Type} [FloatOps F]

attribute [local irreducible] Host.scatter Host.gather Host.reduceWindow concatenate

/-! ## The first stretch -/

theorem s1_v0 (W : Valuation τ sig (Elt F)) : after ops1 W (main_v0 : DevRef τ sig) = r_v0 (W (main_arg2 : DevRef τ sig)) := by
  after_results_simp <;> (try simp only [TRef.ofBuf, TRef.toBuf, cast_eq]) <;> rfl
theorem s1_v4 (W : Valuation τ sig (Elt F)) : after ops1 W (main_v4 : DevRef τ sig) = r_v4 := by
  after_results_simp <;> (try simp only [TRef.ofBuf, TRef.toBuf, cast_eq]) <;> rfl
theorem s1_v5 (W : Valuation τ sig (Elt F)) :
    after ops1 W (main_v5 : DevRef τ sig) = r_v5 (W (main_arg2 : DevRef τ sig)) (W (main_arg4 : DevRef τ sig)) := by
  after_results_simp <;> (try simp only [TRef.ofBuf, TRef.toBuf, cast_eq]) <;> rfl
theorem s1_arg0 (W : Valuation τ sig (Elt F)) : after ops1 W (main_arg0 : DevRef τ sig) = W (main_arg0 : DevRef τ sig) := by
  after_results_simp
theorem s1_arg1 (W : Valuation τ sig (Elt F)) : after ops1 W (main_arg1 : DevRef τ sig) = W (main_arg1 : DevRef τ sig) := by
  after_results_simp
theorem s1_arg2 (W : Valuation τ sig (Elt F)) : after ops1 W (main_arg2 : DevRef τ sig) = W (main_arg2 : DevRef τ sig) := by
  after_results_simp
theorem s1_arg3 (W : Valuation τ sig (Elt F)) : after ops1 W (main_arg3 : DevRef τ sig) = W (main_arg3 : DevRef τ sig) := by
  after_results_simp
theorem s1_arg4 (W : Valuation τ sig (Elt F)) : after ops1 W (main_arg4 : DevRef τ sig) = W (main_arg4 : DevRef τ sig) := by
  after_results_simp
theorem s1_arg5 (W : Valuation τ sig (Elt F)) : after ops1 W (main_arg5 : DevRef τ sig) = W (main_arg5 : DevRef τ sig) := by
  after_results_simp
theorem s1_arg6 (W : Valuation τ sig (Elt F)) : after ops1 W (main_arg6 : DevRef τ sig) = W (main_arg6 : DevRef τ sig) := by
  after_results_simp
theorem s1_arg7 (W : Valuation τ sig (Elt F)) : after ops1 W (main_arg7 : DevRef τ sig) = W (main_arg7 : DevRef τ sig) := by
  after_results_simp
theorem s1_arg8 (W : Valuation τ sig (Elt F)) : after ops1 W (main_arg8 : DevRef τ sig) = W (main_arg8 : DevRef τ sig) := by
  after_results_simp

/-! ## The second stretch -/

set_option maxHeartbeats 4000000 in
theorem s2_v25 (W : Valuation τ sig (Elt F)) :
    after ops2 W (main_v25 : DevRef τ sig)
      = r_slot (W (main_v0 : DevRef τ sig)) (W (main_v4 : DevRef τ sig)) (W (main_v5 : DevRef τ sig)) (W (main_arg2 : DevRef τ sig)) (W (main_arg4 : DevRef τ sig)) := by
  after_results_simp <;> (try simp only [TRef.ofBuf, TRef.toBuf, cast_eq]) <;> rfl
set_option maxHeartbeats 4000000 in
theorem s2_v21 (W : Valuation τ sig (Elt F)) :
    after ops2 W (main_v21 : DevRef τ sig)
      = r_valid (W (main_v0 : DevRef τ sig)) (W (main_v4 : DevRef τ sig)) (W (main_v5 : DevRef τ sig)) (W (main_arg2 : DevRef τ sig)) (W (main_arg4 : DevRef τ sig)) := by
  after_results_simp <;> (try simp only [TRef.ofBuf, TRef.toBuf, cast_eq]) <;> rfl
theorem s2_arg0 (W : Valuation τ sig (Elt F)) : after ops2 W (main_arg0 : DevRef τ sig) = W (main_arg0 : DevRef τ sig) := by
  after_results_simp
theorem s2_arg1 (W : Valuation τ sig (Elt F)) : after ops2 W (main_arg1 : DevRef τ sig) = W (main_arg1 : DevRef τ sig) := by
  after_results_simp
theorem s2_arg3 (W : Valuation τ sig (Elt F)) : after ops2 W (main_arg3 : DevRef τ sig) = W (main_arg3 : DevRef τ sig) := by
  after_results_simp
theorem s2_arg5 (W : Valuation τ sig (Elt F)) : after ops2 W (main_arg5 : DevRef τ sig) = W (main_arg5 : DevRef τ sig) := by
  after_results_simp
theorem s2_arg6 (W : Valuation τ sig (Elt F)) : after ops2 W (main_arg6 : DevRef τ sig) = W (main_arg6 : DevRef τ sig) := by
  after_results_simp
theorem s2_arg7 (W : Valuation τ sig (Elt F)) : after ops2 W (main_arg7 : DevRef τ sig) = W (main_arg7 : DevRef τ sig) := by
  after_results_simp
theorem s2_arg8 (W : Valuation τ sig (Elt F)) : after ops2 W (main_arg8 : DevRef τ sig) = W (main_arg8 : DevRef τ sig) := by
  after_results_simp

/-! ## The third stretch -/

theorem s3_v43 (W : Valuation τ sig (Elt F)) :
    after ops3 W (main_v43 : DevRef τ sig) = r_feats (r_idx (W (main_v25 : DevRef τ sig))) (W (main_arg0 : DevRef τ sig)) := by
  after_results_simp <;> (try simp only [TRef.ofBuf, TRef.toBuf, cast_eq]) <;> rfl
theorem s3_v45 (W : Valuation τ sig (Elt F)) :
    after ops3 W (main_v45 : DevRef τ sig) = r_occ (r_idx' (W (main_v25 : DevRef τ sig))) (W (main_v21 : DevRef τ sig)) := by
  after_results_simp <;> (try simp only [TRef.ofBuf, TRef.toBuf, cast_eq]) <;> rfl
theorem s3_v47 (W : Valuation τ sig (Elt F)) : after ops3 W (main_v47 : DevRef τ sig) = r_glob (W (main_arg1 : DevRef τ sig)) := by
  after_results_simp <;> (try simp only [TRef.ofBuf, TRef.toBuf, cast_eq]) <;> rfl
theorem s3_arg3 (W : Valuation τ sig (Elt F)) : after ops3 W (main_arg3 : DevRef τ sig) = W (main_arg3 : DevRef τ sig) := by
  after_results_simp
theorem s3_arg5 (W : Valuation τ sig (Elt F)) : after ops3 W (main_arg5 : DevRef τ sig) = W (main_arg5 : DevRef τ sig) := by
  after_results_simp
theorem s3_arg6 (W : Valuation τ sig (Elt F)) : after ops3 W (main_arg6 : DevRef τ sig) = W (main_arg6 : DevRef τ sig) := by
  after_results_simp
theorem s3_arg7 (W : Valuation τ sig (Elt F)) : after ops3 W (main_arg7 : DevRef τ sig) = W (main_arg7 : DevRef τ sig) := by
  after_results_simp
theorem s3_arg8 (W : Valuation τ sig (Elt F)) : after ops3 W (main_arg8 : DevRef τ sig) = W (main_arg8 : DevRef τ sig) := by
  after_results_simp

/-! ## The fourth stretch -/

theorem s4_v61 (W : Valuation τ sig (Elt F)) :
    after ops4 W (main_v61 : DevRef τ sig)
      = r_tail (W (main_v43 : DevRef τ sig)) (W (main_v45 : DevRef τ sig)) (W (main_v47 : DevRef τ sig)) (W (main_arg3 : DevRef τ sig))
          (W (main_arg5 : DevRef τ sig)) (W (main_arg6 : DevRef τ sig)) (W (main_arg7 : DevRef τ sig)) (W (main_arg8 : DevRef τ sig)) := by
  after_results_simp <;> (try simp only [TRef.ofBuf, TRef.toBuf, cast_eq]) <;> rfl

/-! ## The arguments: no operation writes them -/

theorem res_arg0 (V : Valuation τ sig (Elt F)) : after ops V (main_arg0 : DevRef τ sig) = V (main_arg0 : DevRef τ sig) := by
  show after (ops1 ++ (ops2 ++ (ops3 ++ ops4))) V _ = _
  simp only [StableHlo.after_append]
  after_results_simp
theorem res_arg1 (V : Valuation τ sig (Elt F)) : after ops V (main_arg1 : DevRef τ sig) = V (main_arg1 : DevRef τ sig) := by
  show after (ops1 ++ (ops2 ++ (ops3 ++ ops4))) V _ = _
  simp only [StableHlo.after_append]
  after_results_simp
theorem res_arg2 (V : Valuation τ sig (Elt F)) : after ops V (main_arg2 : DevRef τ sig) = V (main_arg2 : DevRef τ sig) := by
  show after (ops1 ++ (ops2 ++ (ops3 ++ ops4))) V _ = _
  simp only [StableHlo.after_append]
  after_results_simp
theorem res_arg3 (V : Valuation τ sig (Elt F)) : after ops V (main_arg3 : DevRef τ sig) = V (main_arg3 : DevRef τ sig) := by
  show after (ops1 ++ (ops2 ++ (ops3 ++ ops4))) V _ = _
  simp only [StableHlo.after_append]
  after_results_simp
theorem res_arg4 (V : Valuation τ sig (Elt F)) : after ops V (main_arg4 : DevRef τ sig) = V (main_arg4 : DevRef τ sig) := by
  show after (ops1 ++ (ops2 ++ (ops3 ++ ops4))) V _ = _
  simp only [StableHlo.after_append]
  after_results_simp
theorem res_arg5 (V : Valuation τ sig (Elt F)) : after ops V (main_arg5 : DevRef τ sig) = V (main_arg5 : DevRef τ sig) := by
  show after (ops1 ++ (ops2 ++ (ops3 ++ ops4))) V _ = _
  simp only [StableHlo.after_append]
  after_results_simp
theorem res_arg6 (V : Valuation τ sig (Elt F)) : after ops V (main_arg6 : DevRef τ sig) = V (main_arg6 : DevRef τ sig) := by
  show after (ops1 ++ (ops2 ++ (ops3 ++ ops4))) V _ = _
  simp only [StableHlo.after_append]
  after_results_simp
theorem res_arg7 (V : Valuation τ sig (Elt F)) : after ops V (main_arg7 : DevRef τ sig) = V (main_arg7 : DevRef τ sig) := by
  show after (ops1 ++ (ops2 ++ (ops3 ++ ops4))) V _ = _
  simp only [StableHlo.after_append]
  after_results_simp
theorem res_arg8 (V : Valuation τ sig (Elt F)) : after ops V (main_arg8 : DevRef τ sig) = V (main_arg8 : DevRef τ sig) := by
  show after (ops1 ++ (ops2 ++ (ops3 ++ ops4))) V _ = _
  simp only [StableHlo.after_append]
  after_results_simp

/-! ## The whole line -/

/-- The slots of the nodes as a function of the group flags and the graph numbers. -/
abbrev slotA (a2 : (⟨S262144, .i1⟩ : BufTy).Contents (Elt F)) (a4 : (⟨S262144, .i32⟩ : BufTy).Contents (Elt F)) :
    (⟨S262144, .i32⟩ : BufTy).Contents (Elt F) := r_slot (r_v0 a2) r_v4 (r_v5 a2 a4) a2 a4
/-- The kept flags as a function of the group flags and the graph numbers. -/
abbrev validA (a2 : (⟨S262144, .i1⟩ : BufTy).Contents (Elt F)) (a4 : (⟨S262144, .i32⟩ : BufTy).Contents (Elt F)) :
    (⟨S262144, .i1⟩ : BufTy).Contents (Elt F) := r_valid (r_v0 a2) r_v4 (r_v5 a2 a4) a2 a4

/-- The reference's result as a function of its nine arguments. -/
def refOut (a0 : (⟨S262144x128, .f32⟩ : BufTy).Contents (Elt F)) (a1 : (⟨S4096x128, .f32⟩ : BufTy).Contents (Elt F))
    (a2 : (⟨S262144, .i1⟩ : BufTy).Contents (Elt F)) (a3 : (⟨S4096x56, .i1⟩ : BufTy).Contents (Elt F))
    (a4 : (⟨S262144, .i32⟩ : BufTy).Contents (Elt F)) (a5 : (⟨S256x128, .f32⟩ : BufTy).Contents (Elt F))
    (a6 : (⟨S128, .f32⟩ : BufTy).Contents (Elt F)) (a7 : (⟨S128x7, .f32⟩ : BufTy).Contents (Elt F))
    (a8 : (⟨S7, .f32⟩ : BufTy).Contents (Elt F)) : (⟨S4096x56, .f32⟩ : BufTy).Contents (Elt F) :=
  r_tail (r_feats (r_idx (slotA a2 a4)) a0) (r_occ (r_idx' (slotA a2 a4)) (validA a2 a4)) (r_glob a1) a3 a5 a6 a7 a8

theorem res_v61 (V : Valuation τ sig (Elt F)) :
    after ops V (main_v61 : DevRef τ sig)
      = refOut (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) := by
  show after (ops1 ++ (ops2 ++ (ops3 ++ ops4))) V _ = _
  rw [StableHlo.after_append, StableHlo.after_append, StableHlo.after_append, s4_v61, s3_v43, s3_v45, s3_v47,
    s3_arg3, s3_arg5, s3_arg6, s3_arg7, s3_arg8, s2_v25, s2_v21, s2_arg0, s2_arg1, s2_arg3, s2_arg5, s2_arg6, s2_arg7, s2_arg8,
    s1_v0, s1_v4, s1_v5, s1_arg0, s1_arg1, s1_arg2, s1_arg3, s1_arg4, s1_arg5, s1_arg6, s1_arg7, s1_arg8]
  rfl

end Cert.ReferenceIdeal.RefRun
end
-- ==== Proof.RefValue.lean ====
/-
  THE REFERENCE'S VALUES AT AN INDEX. The packed feature table and the occupancy table are scatters read at a slot
  (a slice that drops the dummy row, then a row-major regrouping of the 32768 slots as 4096 graphs of 8 groups);
  the repeated global rows read the graph's row; and the result at `(b, 7·g + r)` is the perceptron score of slot
  `(b, g)` at direction `r`, kept where the slot is occupied and the direction allowed, the fill value elsewhere.
-/
import proofs.«400074_j43971875176951_3_alg».proof.Proof.RefOps
import proofs.«400074_j43971875176951_3_alg».proof.Proof.Spec
import Idealize.ShloMosaic.Lib.ValueIdx
import Idealize.ShloMosaic.Lib.Pipeline.Value
import Idealize.ShloMosaic.PureOps.Ideal.Laws
noncomputable section
namespace Cert.ReferenceIdeal.RefValue
open Cert.ReferenceIdeal Cert.ReferenceIdeal.Gen Cert.ReferenceIdeal.RefOps Idealize.ShloMosaic Idealize.ShloMosaic.ValueIdx Cert.Spec

theorem glob_apply (a1 : (⟨S4096x128, .f32⟩ : BufTy).Contents (Elt Ideal)) (b : Fin 4096) (g : Fin 8) (d : Fin 128) :
    r_glob (F := Ideal) a1 (ix3 b g d) = a1 (ix2 b d) := by
  unfold r_glob
  refine (broadcastInDim_apply _ _ _ (ix3 b g d) (ix3 b (0 : Fin 1) d) ?_).trans ?_
  · intro a
    match a with
    | ⟨0, _⟩ => rfl
    | ⟨1, _⟩ => rfl
    | ⟨2, _⟩ => rfl
  · refine (broadcastInDim_apply _ _ _ (ix3 b (0 : Fin 1) d) (ix2 b d) ?_)
    intro a
    match a with
    | ⟨0, _⟩ => rfl
    | ⟨1, _⟩ => rfl

theorem feats_apply (I : (⟨S262144x1, .i32⟩ : BufTy).Contents (Elt Ideal)) (a0 : (⟨S262144x128, .f32⟩ : BufTy).Contents (Elt Ideal))
    (b : Fin 4096) (g : Fin 8) (d : Fin 128) :
    r_feats (F := Ideal) I a0 (ix3 b g d)
      = Host.scatter scatter_S32769x128_S262144x1_S262144x128_1_0_0_1 (fun _ b => b)
          (broadcastInDim S32769x128 ![] bcast_S_S32769x128 (constant (F := Ideal) S_ .f32 0x00000000#32)) I a0 (ix2 (slotW b g) d) := by
  unfold r_feats
  have hb := b.isLt
  have hg := g.isLt
  -- row-major position (8·b + g)·128 + d on both sides of the regrouping; the slice at offset 0 keeps the coordinates
  refine (shapeCast_apply _ _ (ix3 b g d) (ix2 (⟨8 * b.val + g.val, by omega⟩ : Fin 32768) d) ?_).trans ?_
  · rw [Shape.rowMajor_val_two, Shape.rowMajor_val_three]
    show (8 * b.val + g.val) * 128 + d.val = (b.val * 8 + g.val) * 128 + d.val
    omega
  · refine (extractStridedSlice_apply _ _ _ (ix2 (⟨8 * b.val + g.val, by omega⟩ : Fin 32768) d) (ix2 (slotW b g) d) ?_)
    intro a
    match a with
    | ⟨0, _⟩ => show (slotW b g).val = 0 + (8 * b.val + g.val); unfold slotW; simp
    | ⟨1, _⟩ => show d.val = 0 + d.val; omega

theorem occ_apply (I : (⟨S262144x1, .i32⟩ : BufTy).Contents (Elt Ideal)) (valid : (⟨S262144, .i1⟩ : BufTy).Contents (Elt Ideal))
    (b : Fin 4096) (g : Fin 8) :
    r_occ (F := Ideal) I valid (ix2 b g)
      = Host.scatter scatter_S32769_S262144x1_S262144_n_0_0_1 (fun _ b => b)
          (broadcastInDim S32769 ![] bcast_S_S32769 (constantI S_ 1 0#1)) I valid (ix1 (slotW b g)) := by
  unfold r_occ
  have hb := b.isLt
  have hg := g.isLt
  -- row-major position 8·b + g on both sides of the regrouping; the slice at offset 0 keeps the coordinate
  refine (shapeCast_apply _ _ (ix2 b g) (ix1 (⟨8 * b.val + g.val, by omega⟩ : Fin 32768)) ?_).trans ?_
  · rw [Shape.rowMajor_val_one, Shape.rowMajor_val_two]
    show (8 * b.val + g.val) = b.val * 8 + g.val
    omega
  · refine (extractStridedSlice_apply _ _ _ (ix1 (⟨8 * b.val + g.val, by omega⟩ : Fin 32768)) (ix1 (slotW b g)) ?_)
    intro a
    match a with
    | ⟨0, _⟩ => show (slotW b g).val = 0 + (8 * b.val + g.val); unfold slotW; simp

/-! ### The one law: a sum over 256 positions is the sum over the first 128 plus the sum over the last 128 -/

theorem sum_lo_hi (f : Fin 256 → EReal) : ∑ e : Fin 256, f e = (∑ d : Fin 128, f (lo d)) + (∑ d : Fin 128, f (hi d)) := by
  exact Fin.sum_univ_add (M := EReal) (a := 128) (b := 128) f

/-! ### The two contractions at an index -/

theorem lhs_d1_0 (i : S4096x8x128.Idx) (q : dot_S4096x8x256_S256x128_S4096x8x128_2_0_01_1_n_n.contr.Idx) :
    (dot_S4096x8x256_S256x128_S4096x8x128_2_0_01_1_n_n.lhsIdx i q 0).val = (i 0).val := by
  unfold DotDims.lhsIdx
  rw [dif_neg (show ¬(0 : Fin S4096x8x256.rank) ∈ dot_S4096x8x256_S256x128_S4096x8x128_2_0_01_1_n_n.lhsBatch by decide),
    dif_pos (show (0 : Fin S4096x8x256.rank) ∈ dot_S4096x8x256_S256x128_S4096x8x128_2_0_01_1_n_n.lhsNonContracting by decide)]
  rfl
theorem lhs_d1_1 (i : S4096x8x128.Idx) (q : dot_S4096x8x256_S256x128_S4096x8x128_2_0_01_1_n_n.contr.Idx) :
    (dot_S4096x8x256_S256x128_S4096x8x128_2_0_01_1_n_n.lhsIdx i q 1).val = (i 1).val := by
  unfold DotDims.lhsIdx
  rw [dif_neg (show ¬(1 : Fin S4096x8x256.rank) ∈ dot_S4096x8x256_S256x128_S4096x8x128_2_0_01_1_n_n.lhsBatch by decide),
    dif_pos (show (1 : Fin S4096x8x256.rank) ∈ dot_S4096x8x256_S256x128_S4096x8x128_2_0_01_1_n_n.lhsNonContracting by decide)]
  rfl
theorem lhs_d1_2 (i : S4096x8x128.Idx) (q : dot_S4096x8x256_S256x128_S4096x8x128_2_0_01_1_n_n.contr.Idx) :
    (dot_S4096x8x256_S256x128_S4096x8x128_2_0_01_1_n_n.lhsIdx i q 2).val = (q ⟨0, by decide⟩).val :=
  dot_S4096x8x256_S256x128_S4096x8x128_2_0_01_1_n_n.lhsIdx_val_of_single rfl i q
theorem rhs_d1_0 (i : S4096x8x128.Idx) (q : dot_S4096x8x256_S256x128_S4096x8x128_2_0_01_1_n_n.contr.Idx) :
    (dot_S4096x8x256_S256x128_S4096x8x128_2_0_01_1_n_n.rhsIdx i q 0).val = (q ⟨0, by decide⟩).val :=
  dot_S4096x8x256_S256x128_S4096x8x128_2_0_01_1_n_n.rhsIdx_val_of_single rfl i q
theorem rhs_d1_1 (i : S4096x8x128.Idx) (q : dot_S4096x8x256_S256x128_S4096x8x128_2_0_01_1_n_n.contr.Idx) :
    (dot_S4096x8x256_S256x128_S4096x8x128_2_0_01_1_n_n.rhsIdx i q 1).val = (i 2).val := by
  unfold DotDims.rhsIdx
  rw [dif_neg (show ¬(1 : Fin S256x128.rank) ∈ dot_S4096x8x256_S256x128_S4096x8x128_2_0_01_1_n_n.rhsBatch by decide),
    dif_pos (show (1 : Fin S256x128.rank) ∈ dot_S4096x8x256_S256x128_S4096x8x128_2_0_01_1_n_n.rhsNonContracting by decide)]
  rfl

/-- The first layer's product at `(b, g, k)`: the sum over the 256 concatenated positions. -/
theorem dot1_apply (X : (⟨S4096x8x256, .f32⟩ : BufTy).Contents (Elt Ideal)) (a5 : (⟨S256x128, .f32⟩ : BufTy).Contents (Elt Ideal))
    (b : Fin 4096) (g : Fin 8) (k : Fin 128) :
    Host.dotGeneral (F := Ideal) (φ₁ := .f32) (φ₂ := .f32) dot_S4096x8x256_S256x128_S4096x8x128_2_0_01_1_n_n none X a5 (ix3 b g k)
      = ∑ e : Fin 256, X (ix3 b g e) * a5 (ix2 e k) := by
  simp only [Host.dotGeneral]
  rw [Ideal.dotGeneral_apply, ← Equiv.sum_comp (contrEquiv1 dot_S4096x8x256_S256x128_S4096x8x128_2_0_01_1_n_n 256 rfl rfl).symm]
  refine Finset.sum_congr rfl fun e _ => ?_
  have hk := contrEquiv1_symm_val dot_S4096x8x256_S256x128_S4096x8x128_2_0_01_1_n_n 256 rfl rfl e
  have el : dot_S4096x8x256_S256x128_S4096x8x128_2_0_01_1_n_n.lhsIdx (ix3 b g k)
      ((contrEquiv1 dot_S4096x8x256_S256x128_S4096x8x128_2_0_01_1_n_n 256 rfl rfl).symm e) = ix3 b g e := funext fun a => Fin.ext (by
    match a with
    | ⟨0, _⟩ => exact lhs_d1_0 _ _
    | ⟨1, _⟩ => exact lhs_d1_1 _ _
    | ⟨2, _⟩ => exact (lhs_d1_2 _ _).trans hk)
  have er : dot_S4096x8x256_S256x128_S4096x8x128_2_0_01_1_n_n.rhsIdx (ix3 b g k)
      ((contrEquiv1 dot_S4096x8x256_S256x128_S4096x8x128_2_0_01_1_n_n 256 rfl rfl).symm e) = ix2 e k := funext fun a => Fin.ext (by
    match a with
    | ⟨0, _⟩ => exact (rhs_d1_0 _ _).trans hk
    | ⟨1, _⟩ => exact rhs_d1_1 _ _)
  rw [el, er]

theorem lhs_d2_0 (i : S4096x8x7.Idx) (q : dot_S4096x8x128_S128x7_S4096x8x7_2_0_01_1_n_n.contr.Idx) :
    (dot_S4096x8x128_S128x7_S4096x8x7_2_0_01_1_n_n.lhsIdx i q 0).val = (i 0).val := by
  unfold DotDims.lhsIdx
  rw [dif_neg (show ¬(0 : Fin S4096x8x128.rank) ∈ dot_S4096x8x128_S128x7_S4096x8x7_2_0_01_1_n_n.lhsBatch by decide),
    dif_pos (show (0 : Fin S4096x8x128.rank) ∈ dot_S4096x8x128_S128x7_S4096x8x7_2_0_01_1_n_n.lhsNonContracting by decide)]
  rfl
theorem lhs_d2_1 (i : S4096x8x7.Idx) (q : dot_S4096x8x128_S128x7_S4096x8x7_2_0_01_1_n_n.contr.Idx) :
    (dot_S4096x8x128_S128x7_S4096x8x7_2_0_01_1_n_n.lhsIdx i q 1).val = (i 1).val := by
  unfold DotDims.lhsIdx
  rw [dif_neg (show ¬(1 : Fin S4096x8x128.rank) ∈ dot_S4096x8x128_S128x7_S4096x8x7_2_0_01_1_n_n.lhsBatch by decide),
    dif_pos (show (1 : Fin S4096x8x128.rank) ∈ dot_S4096x8x128_S128x7_S4096x8x7_2_0_01_1_n_n.lhsNonContracting by decide)]
  rfl
theorem lhs_d2_2 (i : S4096x8x7.Idx) (q : dot_S4096x8x128_S128x7_S4096x8x7_2_0_01_1_n_n.contr.Idx) :
    (dot_S4096x8x128_S128x7_S4096x8x7_2_0_01_1_n_n.lhsIdx i q 2).val = (q ⟨0, by decide⟩).val :=
  dot_S4096x8x128_S128x7_S4096x8x7_2_0_01_1_n_n.lhsIdx_val_of_single rfl i q
theorem rhs_d2_0 (i : S4096x8x7.Idx) (q : dot_S4096x8x128_S128x7_S4096x8x7_2_0_01_1_n_n.contr.Idx) :
    (dot_S4096x8x128_S128x7_S4096x8x7_2_0_01_1_n_n.rhsIdx i q 0).val = (q ⟨0, by decide⟩).val :=
  dot_S4096x8x128_S128x7_S4096x8x7_2_0_01_1_n_n.rhsIdx_val_of_single rfl i q
theorem rhs_d2_1 (i : S4096x8x7.Idx) (q : dot_S4096x8x128_S128x7_S4096x8x7_2_0_01_1_n_n.contr.Idx) :
    (dot_S4096x8x128_S128x7_S4096x8x7_2_0_01_1_n_n.rhsIdx i q 1).val = (i 2).val := by
  unfold DotDims.rhsIdx
  rw [dif_neg (show ¬(1 : Fin S128x7.rank) ∈ dot_S4096x8x128_S128x7_S4096x8x7_2_0_01_1_n_n.rhsBatch by decide),
    dif_pos (show (1 : Fin S128x7.rank) ∈ dot_S4096x8x128_S128x7_S4096x8x7_2_0_01_1_n_n.rhsNonContracting by decide)]
  rfl

/-- The second layer's product at `(b, g, r)`: the sum over the 128 hidden units. -/
theorem dot2_apply (Y : (⟨S4096x8x128, .f32⟩ : BufTy).Contents (Elt Ideal)) (a7 : (⟨S128x7, .f32⟩ : BufTy).Contents (Elt Ideal))
    (b : Fin 4096) (g : Fin 8) (r : Fin 7) :
    Host.dotGeneral (F := Ideal) (φ₁ := .f32) (φ₂ := .f32) dot_S4096x8x128_S128x7_S4096x8x7_2_0_01_1_n_n none Y a7 (ix3 b g r)
      = ∑ k : Fin 128, Y (ix3 b g k) * a7 (ix2 k r) := by
  simp only [Host.dotGeneral]
  rw [Ideal.dotGeneral_apply, ← Equiv.sum_comp (contrEquiv1 dot_S4096x8x128_S128x7_S4096x8x7_2_0_01_1_n_n 128 rfl rfl).symm]
  refine Finset.sum_congr rfl fun k _ => ?_
  have hk := contrEquiv1_symm_val dot_S4096x8x128_S128x7_S4096x8x7_2_0_01_1_n_n 128 rfl rfl k
  have el : dot_S4096x8x128_S128x7_S4096x8x7_2_0_01_1_n_n.lhsIdx (ix3 b g r)
      ((contrEquiv1 dot_S4096x8x128_S128x7_S4096x8x7_2_0_01_1_n_n 128 rfl rfl).symm k) = ix3 b g k := funext fun a => Fin.ext (by
    match a with
    | ⟨0, _⟩ => exact lhs_d2_0 _ _
    | ⟨1, _⟩ => exact lhs_d2_1 _ _
    | ⟨2, _⟩ => exact (lhs_d2_2 _ _).trans hk)
  have er : dot_S4096x8x128_S128x7_S4096x8x7_2_0_01_1_n_n.rhsIdx (ix3 b g r)
      ((contrEquiv1 dot_S4096x8x128_S128x7_S4096x8x7_2_0_01_1_n_n 128 rfl rfl).symm k) = ix2 k r := funext fun a => Fin.ext (by
    match a with
    | ⟨0, _⟩ => exact (rhs_d2_0 _ _).trans hk
    | ⟨1, _⟩ => exact rhs_d2_1 _ _)
  rw [el, er]

/-! ### The layout operations at an index -/

/-- The concatenation along the last axis reads the packed features on the first 128 positions … -/
theorem cat_lo (F43 G47 : (⟨S4096x8x128, .f32⟩ : BufTy).Contents (Elt Ideal)) (b : Fin 4096) (g : Fin 8) (d : Fin 128) :
    concatenate S4096x8x256 2 [⟨S4096x8x128, F43⟩, ⟨S4096x8x128, G47⟩] concatenates_S4096x8x128_S4096x8x128_S4096x8x256_d2 (ix3 b g (lo d))
      = F43 (ix3 b g d) := by
  refine concatenate_apply_piece (2 : Fin S4096x8x256.rank) [⟨S4096x8x128, F43⟩, ⟨S4096x8x128, G47⟩] concatenates_S4096x8x128_S4096x8x128_S4096x8x256_d2 (ix3 b g (lo d)) 0 (Nat.zero_lt_succ 1) S4096x8x128 F43 rfl rfl 0 rfl (ix3 b g d) ?_ ?_
  · intro a ha
    match a with
    | ⟨0, _⟩ => rfl
    | ⟨1, _⟩ => rfl
    | ⟨2, _⟩ => exact absurd rfl ha
  · show 0 + d.val = d.val
    omega

/-- … and the global rows on the last 128. -/
theorem cat_hi (F43 G47 : (⟨S4096x8x128, .f32⟩ : BufTy).Contents (Elt Ideal)) (b : Fin 4096) (g : Fin 8) (d : Fin 128) :
    concatenate S4096x8x256 2 [⟨S4096x8x128, F43⟩, ⟨S4096x8x128, G47⟩] concatenates_S4096x8x128_S4096x8x128_S4096x8x256_d2 (ix3 b g (hi d))
      = G47 (ix3 b g d) := by
  refine concatenate_apply_piece (2 : Fin S4096x8x256.rank) [⟨S4096x8x128, F43⟩, ⟨S4096x8x128, G47⟩] concatenates_S4096x8x128_S4096x8x128_S4096x8x256_d2 (ix3 b g (hi d)) 1 (Nat.lt_succ_self 1) S4096x8x128 G47 rfl rfl 128 rfl (ix3 b g d) ?_ ?_
  · intro a ha
    match a with
    | ⟨0, _⟩ => rfl
    | ⟨1, _⟩ => rfl
    | ⟨2, _⟩ => exact absurd rfl ha
  · show 128 + d.val = 128 + d.val
    rfl

/-- The first layer's bias repeated over graphs and groups reads its entry at the unit. -/
theorem bias1_apply (a6 : (⟨S128, .f32⟩ : BufTy).Contents (Elt Ideal)) (b : Fin 4096) (g : Fin 8) (k : Fin 128) :
    broadcastInDim S4096x8x128 ![0, 1, 2] bcast_S1x1x128_S4096x8x128_0_1_2 (broadcastInDim S1x1x128 ![2] bcast_S128_S1x1x128_2 a6) (ix3 b g k)
      = a6 (ix1 k) := by
  refine (broadcastInDim_apply _ _ _ (ix3 b g k) (ix3 (0 : Fin 1) (0 : Fin 1) k) ?_).trans ?_
  · intro a
    match a with
    | ⟨0, _⟩ => rfl
    | ⟨1, _⟩ => rfl
    | ⟨2, _⟩ => rfl
  · refine broadcastInDim_apply _ _ _ (ix3 (0 : Fin 1) (0 : Fin 1) k) (ix1 k) ?_
    intro a
    match a with
    | ⟨0, _⟩ => rfl

/-- The second layer's bias repeated over graphs and groups reads its entry at the direction. -/
theorem bias2_apply (a8 : (⟨S7, .f32⟩ : BufTy).Contents (Elt Ideal)) (b : Fin 4096) (g : Fin 8) (r : Fin 7) :
    broadcastInDim S4096x8x7 ![0, 1, 2] bcast_S1x1x7_S4096x8x7_0_1_2 (broadcastInDim S1x1x7 ![2] bcast_S7_S1x1x7_2 a8) (ix3 b g r)
      = a8 (ix1 r) := by
  refine (broadcastInDim_apply _ _ _ (ix3 b g r) (ix3 (0 : Fin 1) (0 : Fin 1) r) ?_).trans ?_
  · intro a
    match a with
    | ⟨0, _⟩ => rfl
    | ⟨1, _⟩ => rfl
    | ⟨2, _⟩ => rfl
  · refine broadcastInDim_apply _ _ _ (ix3 (0 : Fin 1) (0 : Fin 1) r) (ix1 r) ?_
    intro a
    match a with
    | ⟨0, _⟩ => rfl

/-- The occupancy repeated over the 7 directions reads the slot's flag. -/
theorem occ_bcast_apply (O45 : (⟨S4096x8, .i1⟩ : BufTy).Contents (Elt Ideal)) (b : Fin 4096) (g : Fin 8) (r : Fin 7) :
    broadcastInDim S4096x8x7 ![0, 1, 2] bcast_S4096x8x1_S4096x8x7_0_1_2 (broadcastInDim S4096x8x1 ![0, 1] bcast_S4096x8_S4096x8x1_0_1 O45) (ix3 b g r)
      = O45 (ix2 b g) := by
  refine (broadcastInDim_apply _ _ _ (ix3 b g r) (ix3 b g (0 : Fin 1)) ?_).trans ?_
  · intro a
    match a with
    | ⟨0, _⟩ => rfl
    | ⟨1, _⟩ => rfl
    | ⟨2, _⟩ => rfl
  · refine broadcastInDim_apply _ _ _ (ix3 b g (0 : Fin 1)) (ix2 b g) ?_
    intro a
    match a with
    | ⟨0, _⟩ => rfl
    | ⟨1, _⟩ => rfl

/-- The regrouping of `[4096, 8, 7]` as `[4096, 56]`: column `7·g + r` of row `b` is entry `(b, g, r)`. -/
theorem cast56_apply {α : Type} (v : S4096x8x7.Idx → α) (b : Fin 4096) (g : Fin 8) (r : Fin 7) :
    shapeCast S4096x56 v shapeCasts_S4096x8x7_S4096x56 (ix2 b (col g r)) = v (ix3 b g r) := by
  refine shapeCast_apply _ _ (ix2 b (col g r)) (ix3 b g r) ?_
  rw [Shape.rowMajor_val_three, Shape.rowMajor_val_two]
  show (b.val * 8 + g.val) * 7 + r.val = b.val * 56 + (7 * g.val + r.val)
  omega

/-! ### The hidden layer and the result -/

/-- One unit of the hidden layer of slot `(b, g)`: the product over the 256 concatenated positions splits into the
    feature half and the global half. -/
theorem hidden_apply (F43 G47 : (⟨S4096x8x128, .f32⟩ : BufTy).Contents (Elt Ideal))
    (a5 : (⟨S256x128, .f32⟩ : BufTy).Contents (Elt Ideal)) (a6 : (⟨S128, .f32⟩ : BufTy).Contents (Elt Ideal))
    (b : Fin 4096) (g : Fin 8) (k : Fin 128) :
    max ((Host.dotGeneral (F := Ideal) (φ₁ := .f32) (φ₂ := .f32) dot_S4096x8x256_S256x128_S4096x8x128_2_0_01_1_n_n none
          (concatenate S4096x8x256 2 [⟨S4096x8x128, F43⟩, ⟨S4096x8x128, G47⟩] concatenates_S4096x8x128_S4096x8x128_S4096x8x256_d2) a5 (ix3 b g k))
        + broadcastInDim S4096x8x128 ![0, 1, 2] bcast_S1x1x128_S4096x8x128_0_1_2 (broadcastInDim S1x1x128 ![2] bcast_S128_S1x1x128_2 a6) (ix3 b g k)) Z
      = Spec.hidden (fun d => F43 (ix3 b g d)) (fun d => G47 (ix3 b g d)) (fun d k => a5 (ix2 (lo d) k)) (fun d k => a5 (ix2 (hi d) k))
          (fun k => a6 (ix1 k)) k := by
  rw [dot1_apply, bias1_apply, sum_lo_hi]
  unfold Spec.hidden
  refine congrArg (fun x => max (x + a6 (ix1 k)) Z) (congrArg₂ (· + ·) ?_ ?_)
  · exact Finset.sum_congr rfl fun d _ => congrArg (· * a5 (ix2 (lo d) k)) (cat_lo F43 G47 b g d)
  · exact Finset.sum_congr rfl fun d _ => congrArg (· * a5 (ix2 (hi d) k)) (cat_hi F43 G47 b g d)

theorem tail_apply (F43 : (⟨S4096x8x128, .f32⟩ : BufTy).Contents (Elt Ideal)) (O45 : (⟨S4096x8, .i1⟩ : BufTy).Contents (Elt Ideal))
    (G47 : (⟨S4096x8x128, .f32⟩ : BufTy).Contents (Elt Ideal)) (a3 : (⟨S4096x56, .i1⟩ : BufTy).Contents (Elt Ideal))
    (a5 : (⟨S256x128, .f32⟩ : BufTy).Contents (Elt Ideal)) (a6 : (⟨S128, .f32⟩ : BufTy).Contents (Elt Ideal))
    (a7 : (⟨S128x7, .f32⟩ : BufTy).Contents (Elt Ideal)) (a8 : (⟨S7, .f32⟩ : BufTy).Contents (Elt Ideal))
    (b : Fin 4096) (g : Fin 8) (r : Fin 7) :
    r_tail (F := Ideal) F43 O45 G47 a3 a5 a6 a7 a8 (ix2 b (col g r))
      = Scalar.select (a3 (ix2 b (col g r)))
          (Scalar.select (O45 (ix2 b g))
            (mlp (fun d => F43 (ix3 b g d)) (fun d => G47 (ix3 b g d)) (fun d k => a5 (ix2 (lo d) k)) (fun d k => a5 (ix2 (hi d) k))
              (fun k => a6 (ix1 k)) (fun k r => a7 (ix2 k r)) (fun r => a8 (ix1 r)) r)
            NEG)
          NEG := by
  unfold r_tail
  dsimp only
  rw [select_apply, cast56_apply, select_apply, occ_bcast_apply, addf_apply, dot2_apply, bias2_apply]
  unfold mlp
  refine congrArg₂ (fun x y => Scalar.select (a3 (ix2 b (col g r))) x y) (congrArg₂ (fun x y => Scalar.select (O45 (ix2 b g)) x y) ?_ rfl) rfl
  refine congrArg (· + a8 (ix1 r)) (Finset.sum_congr rfl fun k _ => ?_)
  exact congrArg (· * a7 (ix2 k r)) (hidden_apply F43 G47 a5 a6 b g k)

end Cert.ReferenceIdeal.RefValue
end
-- ==== Proof.Chain.lean ====
/-
  THE TWO PROGRAMS SHARE THEIR BOOKKEEPING. Up to the column of scatter indices both programs apply the same
  integer operations to the group flags and the graph numbers: the per-graph counts, their running sum, each
  node's rank within its graph, the kept flags, the slots. The two texts are the same operations in the same
  order, so the values are equal by unfolding; and within each program the index column is computed twice from the
  same slots by the same operations.
-/
import proofs.«400074_j43971875176951_3_alg».proof.Proof.RefOps
import proofs.«400074_j43971875176951_3_alg».proof.Proof.KerOps
noncomputable section
namespace Cert.Chain
open Idealize.ShloMosaic
open Cert.ReferenceIdeal.RefOps Cert.KernelIdeal.KerOps

variable {F : FTy → Type} [FloatOps F]

attribute [local irreducible] Host.scatter Host.gather Host.reduceWindow concatenate

theorem v0_eq (a2 : (⟨Cert.KernelIdeal.S262144, .i1⟩ : BufTy).Contents (Elt F)) : k_v0 (F := F) a2 = r_v0 (F := F) a2 := rfl
theorem v4_eq : k_v4 (F := F) = r_v4 (F := F) := rfl
theorem v5_eq (a2 : (⟨Cert.KernelIdeal.S262144, .i1⟩ : BufTy).Contents (Elt F)) (a4 : (⟨Cert.KernelIdeal.S262144, .i32⟩ : BufTy).Contents (Elt F)) :
    k_v5 (F := F) a2 a4 = r_v5 (F := F) a2 a4 := rfl
theorem valid_eq (v0 : (⟨Cert.KernelIdeal.S262144, .i32⟩ : BufTy).Contents (Elt F)) (v4 : (⟨Cert.KernelIdeal.S1, .i32⟩ : BufTy).Contents (Elt F))
    (v5 : (⟨Cert.KernelIdeal.S4096, .i32⟩ : BufTy).Contents (Elt F)) (a2 : (⟨Cert.KernelIdeal.S262144, .i1⟩ : BufTy).Contents (Elt F))
    (a4 : (⟨Cert.KernelIdeal.S262144, .i32⟩ : BufTy).Contents (Elt F)) :
    k_valid (F := F) v0 v4 v5 a2 a4 = r_valid (F := F) v0 v4 v5 a2 a4 := rfl
theorem slot_eq (v0 : (⟨Cert.KernelIdeal.S262144, .i32⟩ : BufTy).Contents (Elt F)) (v4 : (⟨Cert.KernelIdeal.S1, .i32⟩ : BufTy).Contents (Elt F))
    (v5 : (⟨Cert.KernelIdeal.S4096, .i32⟩ : BufTy).Contents (Elt F)) (a2 : (⟨Cert.KernelIdeal.S262144, .i1⟩ : BufTy).Contents (Elt F))
    (a4 : (⟨Cert.KernelIdeal.S262144, .i32⟩ : BufTy).Contents (Elt F)) :
    k_slot (F := F) v0 v4 v5 a2 a4 = r_slot (F := F) v0 v4 v5 a2 a4 := rfl
theorem idx_eq (s : (⟨Cert.KernelIdeal.S262144, .i32⟩ : BufTy).Contents (Elt F)) : k_idx (F := F) s = r_idx (F := F) s := rfl
theorem idx'_eq (s : (⟨Cert.KernelIdeal.S262144, .i32⟩ : BufTy).Contents (Elt F)) : k_idx' (F := F) s = r_idx (F := F) s := rfl
theorem ridx'_eq (s : (⟨Cert.ReferenceIdeal.S262144, .i32⟩ : BufTy).Contents (Elt F)) : r_idx' (F := F) s = r_idx (F := F) s := rfl

end Cert.Chain
end
-- ==== Proof.LibScatterUnit.lean ====
/-
  SCATTER-ADD THROUGH A TRAILING UNIT AXIS (a general lemma about the ideal instance's accumulating scatter; it
  mentions no program).

  The accumulating scatter of updates `s : [E, H]` into an operand `x : [N, H]` along axis 0, at the row indices
  `idx : [E, 1]`, has at `(n, h)` the value `x n h` plus the sum of `s e c` over the update indices `(e, c)` whose
  result index is `(n, h)`. The result index of `(e, c)` is, axis by axis, start plus window coordinate: on axis 0
  (the scattered, inserted axis) the start is `idx e 0` read as a signed integer and the window coordinate is `0`;
  on axis 1 the start is `0` and the window coordinate is `c`. So `(e, c)` lands on `(n, h)` exactly when
  `idx e 0 = n` (as integers) and `c = h`.

  Seen with a trailing unit axis — operand `[N, H, 1]`, updates `[E, H, 1]`, window axes `[1, 2]` — the first two
  axes read the same, and the third has start `0` and window coordinate the update's third coordinate, which is
  `0` because the axis has one element; the target's third coordinate is `0` too, so the third axis asks nothing:
  `(e, c, 0)` lands on `(n, h, 0)` exactly when `idx e 0 = n` and `c = h`. Hence `(e, c) ↦ (e, c, 0)` is a bijection
  between the two sets of landing update indices, the summands agree along it, and the two sums, and with them
  the two scatter values, are equal.

  Proof shape: `resultIdx?_eq_some_iff` (an update lands on `i` iff start plus window is `i`'s coordinate on every
  axis, for any dimension numbers); `start2_*` / `window2_*` and `start3_*` / `window3_*` (what start and window
  are on each axis of the two literal dimension numbers); `res2_iff` / `res3_iff` (the landing condition in both
  ranks); `hostScatterAdd_unit_axis` (the sums re-indexed along the bijection).
-/
import Idealize.ShloMosaic.PureOps.Ideal
import Idealize.ShloMosaic.Lib.ValueIdx
noncomputable section
namespace Cert.Lib.ScatterUnit
open Idealize.ShloMosaic Idealize.ShloMosaic.ValueIdx

abbrev dims2 (N E H : Nat) (wf : ScatterDims.WF ⟨2, ![N, H]⟩ ⟨2, ![E, 1]⟩ ⟨2, ![E, H]⟩ [1] [0] [0] 1) :
    ScatterDims ⟨2, ![N, H]⟩ ⟨2, ![E, 1]⟩ ⟨2, ![E, H]⟩ :=
  { updateWindowDims := [1], insertedWindowDims := [0], scatterDimsToOperandDims := [0], indexVectorDim := 1, wf := wf }
abbrev dims3 (N E H : Nat) (wf : ScatterDims.WF ⟨3, ![N, H, 1]⟩ ⟨2, ![E, 1]⟩ ⟨3, ![E, H, 1]⟩ [1, 2] [0] [0] 1) :
    ScatterDims ⟨3, ![N, H, 1]⟩ ⟨2, ![E, 1]⟩ ⟨3, ![E, H, 1]⟩ :=
  { updateWindowDims := [1, 2], insertedWindowDims := [0], scatterDimsToOperandDims := [0], indexVectorDim := 1, wf := wf }

/-- A scatter update lands on operand index `i` exactly when, on every axis, start plus window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i hh
    constructor
    · intro he a
      have h1 := congrFun (Option.some.inj he) a
      have h2 := congrArg Fin.val h1
      simp only at h2
      have h3 := (hh a).1
      omega
    · intro he
      congr 1
      funext a
      apply Fin.ext
      simp only
      have h1 := he a
      omega
  · rename_i hh
    constructor
    · intro he; exact absurd he (by simp)
    · intro he
      exfalso; apply hh
      intro a
      have h1 := he a
      have h2 := (i a).isLt
      omega

section Rank2
variable {N E H w : Nat} (wf : ScatterDims.WF ⟨2, ![N, H]⟩ ⟨2, ![E, 1]⟩ ⟨2, ![E, H]⟩ [1] [0] [0] 1)
  (idx : IVec ⟨2, ![E, 1]⟩ w) (j : (⟨2, ![E, H]⟩ : Shape).Idx)

/-- On the scattered axis the window starts at the row's index, read signed. -/
theorem start2_0 : (dims2 N E H wf).start j idx 0 = (idx (ix2 (j 0) 0)).toInt := by
  unfold ScatterDims.start
  rw [dif_pos (show (0 : Fin 2) ∈ (dims2 N E H wf).scatterDimsToOperandDims from List.mem_singleton.mpr rfl)]
  have hsi : (dims2 N E H wf).siIdx j ⟨List.idxOf (0 : Fin 2) (dims2 N E H wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The other axis is not scattered: its start is `0`. -/
theorem start2_1 : (dims2 N E H wf).start j idx 1 = 0 := by
  unfold ScatterDims.start
  rw [dif_neg (show ¬ (1 : Fin 2) ∈ (dims2 N E H wf).scatterDimsToOperandDims from by
    intro hm
    have hm' : (1 : Fin 2) = (0 : Fin 2) := List.mem_singleton.mp hm
    exact absurd hm' (by decide))]

/-- The scattered axis is an inserted window axis: window coordinate `0`. -/
theorem window2_0 : (dims2 N E H wf).window j 0 = 0 := by
  unfold ScatterDims.window
  rw [dif_neg (show ¬ (0 : Fin 2) ∈ (dims2 N E H wf).sKept from by
    intro hm
    have hm' : (0 : Fin 2) ∈ [(1 : Fin 2)] := hm
    have hm'' : (0 : Fin 2) = (1 : Fin 2) := List.mem_singleton.mp hm'
    exact absurd hm'' (by decide))]

/-- The other axis carries the update's window coordinate. -/
theorem window2_1 : (dims2 N E H wf).window j 1 = (j 1).val := by
  unfold ScatterDims.window
  rw [dif_pos (show (1 : Fin 2) ∈ (dims2 N E H wf).sKept from
    (show (1 : Fin 2) ∈ [(1 : Fin 2)] from List.mem_singleton.mpr rfl))]
  rfl
end Rank2

section Rank3
variable {N E H w : Nat} (wf : ScatterDims.WF ⟨3, ![N, H, 1]⟩ ⟨2, ![E, 1]⟩ ⟨3, ![E, H, 1]⟩ [1, 2] [0] [0] 1)
  (idx : IVec ⟨2, ![E, 1]⟩ w) (j : (⟨3, ![E, H, 1]⟩ : Shape).Idx)

/-- On the scattered axis the window starts at the row's index, read signed. -/
theorem start3_0 : (dims3 N E H wf).start j idx 0 = (idx (ix2 (j 0) 0)).toInt := by
  unfold ScatterDims.start
  rw [dif_pos (show (0 : Fin 3) ∈ (dims3 N E H wf).scatterDimsToOperandDims from List.mem_singleton.mpr rfl)]
  have hsi : (dims3 N E H wf).siIdx j ⟨List.idxOf (0 : Fin 3) (dims3 N E H wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The second axis is not scattered: its start is `0`. -/
theorem start3_1 : (dims3 N E H wf).start j idx 1 = 0 := by
  unfold ScatterDims.start
  rw [dif_neg (show ¬ (1 : Fin 3) ∈ (dims3 N E H wf).scatterDimsToOperandDims from by
    intro hm
    have hm' : (1 : Fin 3) = (0 : Fin 3) := List.mem_singleton.mp hm
    exact absurd hm' (by decide))]

/-- The unit axis is not scattered: its start is `0`. -/
theorem start3_2 : (dims3 N E H wf).start j idx 2 = 0 := by
  unfold ScatterDims.start
  rw [dif_neg (show ¬ (2 : Fin 3) ∈ (dims3 N E H wf).scatterDimsToOperandDims from by
    intro hm
    have hm' : (2 : Fin 3) = (0 : Fin 3) := List.mem_singleton.mp hm
    exact absurd hm' (by decide))]

/-- The scattered axis is an inserted window axis: window coordinate `0`. -/
theorem window3_0 : (dims3 N E H wf).window j 0 = 0 := by
  unfold ScatterDims.window
  rw [dif_neg (show ¬ (0 : Fin 3) ∈ (dims3 N E H wf).sKept from by
    intro hm
    have hm' : (0 : Fin 3) ∈ [(1 : Fin 3), (2 : Fin 3)] := hm
    revert hm'; decide)]

/-- The second axis carries the update's second coordinate. -/
theorem window3_1 : (dims3 N E H wf).window j 1 = (j 1).val := by
  unfold ScatterDims.window
  rw [dif_pos (show (1 : Fin 3) ∈ (dims3 N E H wf).sKept from
    (show (1 : Fin 3) ∈ [(1 : Fin 3), (2 : Fin 3)] from by decide))]
  rfl

/-- The unit axis carries the update's third coordinate. -/
theorem window3_2 : (dims3 N E H wf).window j 2 = (j 2).val := by
  unfold ScatterDims.window
  rw [dif_pos (show (2 : Fin 3) ∈ (dims3 N E H wf).sKept from
    (show (2 : Fin 3) ∈ [(1 : Fin 3), (2 : Fin 3)] from by decide))]
  rfl
end Rank3

/-- At rank 2, update row `j` lands on `(n, h)` exactly when its row's index, read signed, is `n` and its column
    is `h`. -/
theorem res2_iff {N E H w : Nat} (wf : ScatterDims.WF ⟨2, ![N, H]⟩ ⟨2, ![E, 1]⟩ ⟨2, ![E, H]⟩ [1] [0] [0] 1)
    (idx : IVec ⟨2, ![E, 1]⟩ w) (j : (⟨2, ![E, H]⟩ : Shape).Idx) (n : Fin N) (h : Fin H) :
    (dims2 N E H wf).resultIdx? j idx = some (ix2 n h)
      ↔ (idx (ix2 (j 0) 0)).toInt = (n.val : Int) ∧ (j 1).val = h.val := by
  rw [resultIdx?_eq_some_iff]
  constructor
  · intro hh
    have h0 : (dims2 N E H wf).start j idx 0 + ((dims2 N E H wf).window j 0 : Int) = (n.val : Int) := hh 0
    have h1 : (dims2 N E H wf).start j idx 1 + ((dims2 N E H wf).window j 1 : Int) = (h.val : Int) := hh 1
    rw [start2_0, window2_0] at h0
    rw [start2_1, window2_1] at h1
    constructor <;> omega
  · rintro ⟨e0, e1⟩ a
    match a with
    | ⟨0, _⟩ =>
      show (dims2 N E H wf).start j idx 0 + ((dims2 N E H wf).window j 0 : Int) = (n.val : Int)
      rw [start2_0, window2_0]; omega
    | ⟨1, _⟩ =>
      show (dims2 N E H wf).start j idx 1 + ((dims2 N E H wf).window j 1 : Int) = (h.val : Int)
      rw [start2_1, window2_1]; omega

/-- At rank 3 with a trailing unit axis the condition is the same: the third coordinate of an update index is
    `0`, as the target's is, so the third axis asks nothing. -/
theorem res3_iff {N E H w : Nat} (wf : ScatterDims.WF ⟨3, ![N, H, 1]⟩ ⟨2, ![E, 1]⟩ ⟨3, ![E, H, 1]⟩ [1, 2] [0] [0] 1)
    (idx : IVec ⟨2, ![E, 1]⟩ w) (j : (⟨3, ![E, H, 1]⟩ : Shape).Idx) (n : Fin N) (h : Fin H) :
    (dims3 N E H wf).resultIdx? j idx = some (ix3 n h (0 : Fin 1))
      ↔ (idx (ix2 (j 0) 0)).toInt = (n.val : Int) ∧ (j 1).val = h.val := by
  rw [resultIdx?_eq_some_iff]
  have hj2 : (j 2).val < 1 := (j 2).isLt
  constructor
  · intro hh
    have h0 : (dims3 N E H wf).start j idx 0 + ((dims3 N E H wf).window j 0 : Int) = (n.val : Int) := hh 0
    have h1 : (dims3 N E H wf).start j idx 1 + ((dims3 N E H wf).window j 1 : Int) = (h.val : Int) := hh 1
    rw [start3_0, window3_0] at h0
    rw [start3_1, window3_1] at h1
    constructor <;> omega
  · rintro ⟨e0, e1⟩ a
    match a with
    | ⟨0, _⟩ =>
      show (dims3 N E H wf).start j idx 0 + ((dims3 N E H wf).window j 0 : Int) = (n.val : Int)
      rw [start3_0, window3_0]; omega
    | ⟨1, _⟩ =>
      show (dims3 N E H wf).start j idx 1 + ((dims3 N E H wf).window j 1 : Int) = (h.val : Int)
      rw [start3_1, window3_1]; omega
    | ⟨2, _⟩ =>
      show (dims3 N E H wf).start j idx 2 + ((dims3 N E H wf).window j 2 : Int) = ((0 : Nat) : Int)
      rw [start3_2, window3_2]; omega

/-- SCATTER-ADD THROUGH A TRAILING UNIT AXIS. Scattering the rows of `s : [E, H]` into `x : [N, H]` along axis 0 at
    the indices `idx : [E, 1]`, and scattering the same rows seen as `[E, H, 1]` into the same operand seen as
    `[N, H, 1]`, give the same value at `(n, h)` and `(n, h, 0)`: the update elements landing there correspond
    under `(e, c) ↦ (e, c, 0)`, and both sums add `s e c` over them. -/
theorem hostScatterAdd_unit_axis {N E H w : Nat} (wf2) (wf3) (idx : IVec ⟨2, ![E, 1]⟩ w)
    (x : (⟨2, ![N, H]⟩ : Shape).Idx → EReal) (s : (⟨2, ![E, H]⟩ : Shape).Idx → EReal) (n : Fin N) (h : Fin H) :
    Ideal.hostScatterAdd (dims3 N E H wf3) (fun i => x (ix2 (i 0) (i 1))) idx (fun j => s (ix2 (j 0) (j 1))) (ix3 n h (0 : Fin 1))
      = Ideal.hostScatterAdd (dims2 N E H wf2) x idx s (ix2 n h) := by
  unfold Ideal.hostScatterAdd
  show x (ix2 n h) + _ = x (ix2 n h) + _
  congr 1
  refine Finset.sum_nbij' (fun j3 => ix2 (j3 0) (j3 1)) (fun j2 => ix3 (j2 0) (j2 1) (0 : Fin 1)) ?_ ?_ ?_ ?_ ?_
  · intro j3 hj3
    rw [Finset.mem_filter] at hj3 ⊢
    exact ⟨Finset.mem_univ _, (res2_iff wf2 idx _ n h).mpr ((res3_iff wf3 idx j3 n h).mp hj3.2)⟩
  · intro j2 hj2
    rw [Finset.mem_filter] at hj2 ⊢
    exact ⟨Finset.mem_univ _, (res3_iff wf3 idx _ n h).mpr ((res2_iff wf2 idx j2 n h).mp hj2.2)⟩
  · intro j3 _
    funext a
    match a with
    | ⟨0, _⟩ => rfl
    | ⟨1, _⟩ => rfl
    | ⟨2, _⟩ =>
      have hlt : (j3 2).val < 1 := (j3 2).isLt
      exact Fin.ext (show (0 : Nat) = (j3 2).val by omega)
  · intro j2 _
    funext a
    match a with
    | ⟨0, _⟩ => rfl
    | ⟨1, _⟩ => rfl
  · intro j3 _
    rfl

/-- The same with the rank-3 operand and updates given as arbitrary functions that agree with the rank-2 ones
    entry by entry. -/
theorem hostScatterAdd_unit_axis_of_eq {N E H w : Nat} (wf2) (wf3) (idx : IVec ⟨2, ![E, 1]⟩ w)
    (x : (⟨2, ![N, H]⟩ : Shape).Idx → EReal) (s : (⟨2, ![E, H]⟩ : Shape).Idx → EReal)
    (x3 : (⟨3, ![N, H, 1]⟩ : Shape).Idx → EReal) (s3 : (⟨3, ![E, H, 1]⟩ : Shape).Idx → EReal)
    (hx : ∀ i, x3 i = x (ix2 (i 0) (i 1))) (hs : ∀ j, s3 j = s (ix2 (j 0) (j 1))) (n : Fin N) (h : Fin H) :
    Ideal.hostScatterAdd (dims3 N E H wf3) x3 idx s3 (ix3 n h (0 : Fin 1))
      = Ideal.hostScatterAdd (dims2 N E H wf2) x idx s (ix2 n h) := by
  obtain rfl : x3 = fun i => x (ix2 (i 0) (i 1)) := funext hx
  obtain rfl : s3 = fun j => s (ix2 (j 0) (j 1)) := funext hs
  exact hostScatterAdd_unit_axis wf2 wf3 idx x s n h

end Cert.Lib.ScatterUnit
end
-- ==== Proof.LibPoolScatter.lean ====
/-
  POOLING BY A MEMBERSHIP MATRIX IS THE SCATTER-ADD BY GROUP ID (general lemmas about the ideal instance's
  accumulating scatter on the extended reals; they mention no program).

  Let every one of \`E\` items carry a group id, a 32-bit word \`idx e 0\`, and a row \`u e : [H]\` of extended reals. The
  accumulating scatter of the rows into an operand \`x : [G, H]\` along axis 0 at the ids has at \`(g, c)\` the value
  \`x g c\` plus the sum of \`u e c'\` over the update indices \`(e, c')\` that land on \`(g, c)\`; an update lands there
  exactly when its id, read as a signed integer, is \`g\` and \`c' = c\`. A group number \`g\` below \`2^31\` is the signed
  reading of exactly one word, the word \`g\` itself. So the sum is over the items whose id is the word \`g\`, of
  \`u e c\`: written with the membership indicator \`[id e = g]\` (\`1\` or \`0\`), it is \`∑ e, [id e = g] · u e c\`, the
  \`(g, c)\` entry of the product of the transposed membership matrix with the rows. With the operand zero this is
  the pooled sum.

  The same at rank 1: the scatter of scalars \`u e\` into \`x : [G]\` at the ids has at \`g\` the value
  \`x g + ∑ e, [id e = g] · u e\`; with the operand zero and every update one this is the number of items of group
  \`g\`, the column sum of the membership matrix.

  Proof shape: \`toInt_eq_natCast_iff\` (the signed reading of a word is a small natural exactly when the word is
  that natural); \`start1_0\` / \`window1_0\` / \`res1_iff\` (the landing condition for the rank-1 dimension numbers,
  beside the rank-2 one); \`scatterAdd2_eq_sum\` / \`scatterAdd1_eq_sum\` (the filtered sum over landing update indices
  rewritten as the indicator-weighted sum over items); \`scatterAdd_eq_pool\` / \`scatterAdd_eq_count\` (the two
  statements at the literal sizes, against the membership matrix of a vector of ids), and their forms for an
  operand, updates and dimension numbers given by hypotheses.
-/
import Idealize.ShloMosaic.PureOps.Ideal
import Idealize.ShloMosaic.Lib.ValueIdx
import proofs.«400074_j43971875176951_3_alg».proof.Proof.LibScatterUnit
noncomputable section
namespace Cert.Lib.PoolScatter
open Idealize.ShloMosaic Idealize.ShloMosaic.ValueIdx Cert.Lib.ScatterUnit

/-- The signed reading of a word is the natural \`g\`, \`g\` below half the modulus, exactly when the word is \`g\`. -/
theorem toInt_eq_natCast_iff {w : Nat} (x : BitVec w) (g : Nat) (hg : 2 * g < 2 ^ w) :
    x.toInt = (g : Int) ↔ x = BitVec.ofNat w g := by
  have hx := x.isLt
  rw [BitVec.toInt_eq_toNat_cond]
  generalize hP : 2 ^ w = P at hg hx
  constructor
  · intro h
    apply BitVec.eq_of_toNat_eq
    rw [BitVec.toNat_ofNat, hP, Nat.mod_eq_of_lt (by omega)]
    split at h <;> omega
  · rintro rfl
    rw [BitVec.toNat_ofNat, hP, Nat.mod_eq_of_lt (by omega), if_pos hg]

/-- The rank-2 scatter-add read at \`(g, c)\`: the operand there plus, over the items, the indicator that the item's
    id is the word \`g\` times the item's entry in column \`c\`. An update index \`(e, c')\` lands on \`(g, c)\` exactly when
    the id of \`e\`, read signed, is \`g\` and \`c' = c\`; the sum over the landing indices is the double sum over \`e\` and
    \`c'\` of the guarded entry, and the inner sum over \`c'\` keeps the one term \`c' = c\`. -/
theorem scatterAdd2_eq_sum {G E H : Nat} (hG : 2 * G ≤ 2 ^ 32)
    (wf : ScatterDims.WF ⟨2, ![G, H]⟩ ⟨2, ![E, 1]⟩ ⟨2, ![E, H]⟩ [1] [0] [0] 1) (idx : IVec ⟨2, ![E, 1]⟩ 32)
    (x : (⟨2, ![G, H]⟩ : Shape).Idx → EReal) (u : (⟨2, ![E, H]⟩ : Shape).Idx → EReal) (g : Fin G) (c : Fin H) :
    Ideal.hostScatterAdd (dims2 G E H wf) x idx u (ix2 g c)
      = x (ix2 g c) + ∑ e : Fin E, (if idx (ix2 e 0) = BitVec.ofNat 32 g.val then 1 else 0) * u (ix2 e c) := by
  unfold Ideal.hostScatterAdd
  show x (ix2 g c) + _ = x (ix2 g c) + _
  congr 1
  have hg : 2 * g.val < 2 ^ 32 := by have := g.isLt; omega
  rw [Finset.sum_filter, sum_idx2]
  refine Finset.sum_congr rfl fun e _ => ?_
  by_cases he : idx (ix2 e 0) = BitVec.ofNat 32 g.val
  · rw [if_pos he, one_mul]
    rw [Finset.sum_eq_single c]
    · rw [if_pos]
      exact (res2_iff wf idx (ix2 e c) g c).mpr ⟨(toInt_eq_natCast_iff _ _ hg).mpr he, rfl⟩
    · intro c' _ hc'
      rw [if_neg]
      intro hl
      exact hc' (Fin.ext ((res2_iff wf idx (ix2 e c') g c).mp hl).2)
    · intro hc; exact absurd (Finset.mem_univ c) hc
  · rw [if_neg he, zero_mul]
    refine Finset.sum_eq_zero fun c' _ => ?_
    rw [if_neg]
    intro hl
    exact he ((toInt_eq_natCast_iff _ _ hg).mp ((res2_iff wf idx (ix2 e c') g c).mp hl).1)

/-! ## The rank-1 dimension numbers: scalars scattered along the one axis -/

/-- Scalars \`[E]\` scattered into \`[N]\` at the indices \`[E, 1]\`: no window axes, the one operand axis inserted and
    scattered. -/
abbrev dims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

section Rank1
variable {N E w : Nat} (wf : ScatterDims.WF ⟨1, ![N]⟩ ⟨2, ![E, 1]⟩ ⟨1, ![E]⟩ [] [0] [0] 1)
  (idx : IVec ⟨2, ![E, 1]⟩ w) (j : (⟨1, ![E]⟩ : Shape).Idx)

/-- On the one axis the window starts at the item's index, read signed. -/
theorem start1_0 : (dims1 N E wf).start j idx 0 = (idx (ix2 (j 0) 0)).toInt := by
  unfold ScatterDims.start
  rw [dif_pos (show (0 : Fin 1) ∈ (dims1 N E wf).scatterDimsToOperandDims from List.mem_singleton.mpr rfl)]
  have hsi : (dims1 N E wf).siIdx j ⟨List.idxOf (0 : Fin 1) (dims1 N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The one axis is an inserted window axis: window coordinate \`0\`. -/
theorem window1_0 : (dims1 N E wf).window j 0 = 0 := by
  unfold ScatterDims.window
  rw [dif_neg (show ¬ (0 : Fin 1) ∈ (dims1 N E wf).sKept from by
    intro hm
    have hm' : (0 : Fin 1) ∈ ([] : List (Fin 1)) := hm
    exact absurd hm' List.not_mem_nil)]
end Rank1

/-- At rank 1, update \`j\` lands on \`g\` exactly when its index, read signed, is \`g\`. -/
theorem res1_iff {N E w : Nat} (wf : ScatterDims.WF ⟨1, ![N]⟩ ⟨2, ![E, 1]⟩ ⟨1, ![E]⟩ [] [0] [0] 1)
    (idx : IVec ⟨2, ![E, 1]⟩ w) (j : (⟨1, ![E]⟩ : Shape).Idx) (g : Fin N) :
    (dims1 N E wf).resultIdx? j idx = some (ix1 g) ↔ (idx (ix2 (j 0) 0)).toInt = (g.val : Int) := by
  rw [resultIdx?_eq_some_iff]
  constructor
  · intro hh
    have h0 : (dims1 N E wf).start j idx 0 + ((dims1 N E wf).window j 0 : Int) = (g.val : Int) := hh 0
    rw [start1_0, window1_0] at h0
    omega
  · intro e0 a
    match a with
    | ⟨0, _⟩ =>
      show (dims1 N E wf).start j idx 0 + ((dims1 N E wf).window j 0 : Int) = (g.val : Int)
      rw [start1_0, window1_0]; omega

/-- A sum over a rank-1 index set is the sum over its coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    (fun i => congrArg f (eq_ix1 i))

/-- The rank-1 scatter-add read at \`g\`: the operand there plus, over the items, the indicator that the item's id
    is the word \`g\` times the item's scalar. -/
theorem scatterAdd1_eq_sum {G E : Nat} (hG : 2 * G ≤ 2 ^ 32)
    (wf : ScatterDims.WF ⟨1, ![G]⟩ ⟨2, ![E, 1]⟩ ⟨1, ![E]⟩ [] [0] [0] 1) (idx : IVec ⟨2, ![E, 1]⟩ 32)
    (x : (⟨1, ![G]⟩ : Shape).Idx → EReal) (u : (⟨1, ![E]⟩ : Shape).Idx → EReal) (g : Fin G) :
    Ideal.hostScatterAdd (dims1 G E wf) x idx u (ix1 g)
      = x (ix1 g) + ∑ e : Fin E, (if idx (ix2 e 0) = BitVec.ofNat 32 g.val then 1 else 0) * u (ix1 e) := by
  unfold Ideal.hostScatterAdd
  show x (ix1 g) + _ = x (ix1 g) + _
  congr 1
  have hg : 2 * g.val < 2 ^ 32 := by have := g.isLt; omega
  rw [Finset.sum_filter, sum_idx1]
  refine Finset.sum_congr rfl fun e _ => ?_
  have hiff : (dims1 G E wf).resultIdx? (ix1 e) idx = some (ix1 g) ↔ idx (ix2 e 0) = BitVec.ofNat 32 g.val :=
    (res1_iff wf idx (ix1 e) g).trans (toInt_eq_natCast_iff _ _ hg)
  by_cases he : idx (ix2 e 0) = BitVec.ofNat 32 g.val
  · rw [if_pos he, one_mul, if_pos (hiff.mpr he)]
  · rw [if_neg he, zero_mul, if_neg (fun hl => he (hiff.mp hl))]

end Cert.Lib.PoolScatter
end
-- ==== Proof.LibScatterSet.lean ====
/-
  SET-SCATTER: THE LAST WRITER WINS (general lemmas about the host scatter whose body returns the update; they
  mention no program).

  The host scatter is a left fold over the update indices in row-major order; with the body `fun _ b => b` each
  landing update overwrites the element it lands on. So an element no update lands on keeps the operand's value,
  and an element some update lands on holds the LAST landing update, in row-major order. For a scatter along axis 0
  at row indices `idx : [E, 1]`, update row `e` lands on operand row `n` exactly when `idx e 0`, read signed, is `n`
  (rank 1: scalars; rank 2: row `e`'s column `c` lands on `(n, c)`). Row-major order of `(e, c)` is lexicographic, so
  in both ranks the winner for row `n` is the largest `e` whose index is `n`: the two scatters choose the same row.
-/
import Idealize.ShloMosaic.PureOps.Ideal
import Idealize.ShloMosaic.Lib.ValueIdx
import proofs.«400074_j43971875176951_3_alg».proof.Proof.LibScatterUnit
import proofs.«400074_j43971875176951_3_alg».proof.Proof.LibPoolScatter
noncomputable section
namespace Cert.Lib.ScatterSet
open Idealize.ShloMosaic Idealize.ShloMosaic.ValueIdx Cert.Lib.ScatterUnit Cert.Lib.PoolScatter

/-! ## The fold, abstractly

  A left fold over a list of update positions whose step, read at one element `i`, either keeps the value (the
  position does not land on `i`) or overwrites it with the position's update (it lands on `i`). -/

/-- No position of the list lands on `i`: the fold leaves the start value at `i`. -/
theorem fold_keep {I J α : Type} (ρ : J → Option I) (i : I) (step : (I → α) → J → (I → α))
    (hne : ∀ r j, ρ j ≠ some i → step r j i = r i) :
    ∀ (l : List J) (x : I → α), (∀ j ∈ l, ρ j ≠ some i) → l.foldl step x i = x i := by
  intro l
  induction l with
  | nil => intro x _; rfl
  | cons a t ih =>
    intro x h
    rw [List.foldl_cons, ih (step x a) (fun j hj => h j (List.mem_cons_of_mem _ hj)),
      hne x a (h a List.mem_cons_self)]

/-- In a strictly increasing list, position `j` lands on `i` and no later position does: the fold holds `j`'s update
    at `i`. -/
theorem fold_last {I J α : Type} [LT J] (ρ : J → Option I) (i : I) (upd : J → α) (step : (I → α) → J → (I → α))
    (hne : ∀ r j, ρ j ≠ some i → step r j i = r i) (heq : ∀ r j, ρ j = some i → step r j i = upd j)
    (j : J) (hj : ρ j = some i) :
    ∀ (l : List J) (x : I → α), l.Pairwise (· < ·) → j ∈ l → (∀ j' ∈ l, j < j' → ρ j' ≠ some i) →
      l.foldl step x i = upd j := by
  intro l
  induction l with
  | nil => intro x _ hm; exact absurd hm List.not_mem_nil
  | cons a t ih =>
    intro x hp hm hl
    rw [List.foldl_cons]
    rw [List.pairwise_cons] at hp
    rcases List.mem_cons.mp hm with hja | hm'
    · subst hja
      rw [fold_keep ρ i step hne t _ (fun j' hj' => hl j' (List.mem_cons_of_mem _ hj') (hp.1 j' hj')), heq x j hj]
    · exact ih (step x a) hp.2 hm' (fun j' hj' => hl j' (List.mem_cons_of_mem _ hj'))

/-! ## The host scatter whose body returns the update -/

section Scatter
variable {s si u : Shape} {α : Type} {w : Nat} (d : ScatterDims s si u) (x : s.Idx → α) (idx : IVec si w)
  (upd : u.Idx → α) (i : s.Idx)

/-- A step whose position does not land on `i` keeps the value at `i`. -/
theorem step_keep (r : s.Idx → α) (n : Fin u.numel) (hn : d.resultIdx? (u.rowMajor.symm n) idx ≠ some i) :
    (match d.resultIdx? (u.rowMajor.symm n) idx with
      | some i0 => fun i' => if i' = i0 then (fun (_ : α) (b : α) => b) (r i0) (upd (u.rowMajor.symm n)) else r i'
      | none => r) i = r i := by
  generalize d.resultIdx? (u.rowMajor.symm n) idx = o at hn
  cases o with
  | none => rfl
  | some i0 =>
    show (if i = i0 then _ else r i) = r i
    rw [if_neg]
    intro hi
    apply hn
    rw [hi]

/-- A step whose position lands on `i` writes its update at `i`. -/
theorem step_write (r : s.Idx → α) (n : Fin u.numel) (hn : d.resultIdx? (u.rowMajor.symm n) idx = some i) :
    (match d.resultIdx? (u.rowMajor.symm n) idx with
      | some i0 => fun i' => if i' = i0 then (fun (_ : α) (b : α) => b) (r i0) (upd (u.rowMajor.symm n)) else r i'
      | none => r) i = upd (u.rowMajor.symm n) := by
  rw [hn]
  show (if i = i then _ else r i) = _
  rw [if_pos rfl]

/-- No update lands on `i`: the operand's value stays. -/
theorem scatter_set_of_none (h : ∀ j : u.Idx, d.resultIdx? j idx ≠ some i) :
    Host.scatter d (fun _ b => b) x idx upd i = x i := by
  unfold Host.scatter
  exact fold_keep (fun n => d.resultIdx? (u.rowMajor.symm n) idx) i _
    (fun r n hn => step_keep d idx upd i r n hn) _ x (fun n _ => h _)

/-- Update `j` lands on `i` and no update later in row-major order does: the value is update `j`. -/
theorem scatter_set_of_last (j : u.Idx) (hj : d.resultIdx? j idx = some i)
    (hl : ∀ j' : u.Idx, u.rowMajor j < u.rowMajor j' → d.resultIdx? j' idx ≠ some i) :
    Host.scatter d (fun _ b => b) x idx upd i = upd j := by
  unfold Host.scatter
  have h := fold_last (fun n => d.resultIdx? (u.rowMajor.symm n) idx) i (fun n => upd (u.rowMajor.symm n)) _
    (fun r n hn => step_keep d idx upd i r n hn) (fun r n hn => step_write d idx upd i r n hn)
    (u.rowMajor j) (by show d.resultIdx? (u.rowMajor.symm (u.rowMajor j)) idx = some i; rw [Equiv.symm_apply_apply]; exact hj)
    (List.finRange u.numel) x (List.pairwise_lt_finRange _) (List.mem_finRange _)
    (fun n _ hlt => hl (u.rowMajor.symm n) (by rw [Equiv.apply_symm_apply]; exact hlt))
  refine Eq.trans h ?_
  show upd (u.rowMajor.symm (u.rowMajor j)) = upd j
  rw [Equiv.symm_apply_apply]
end Scatter

/-- Either no row's index is `n`, or there is a last row whose index is `n`. -/
theorem winner_cases {E w : Nat} (idx : IVec ⟨2, ![E, 1]⟩ w) (n : Nat) :
    (∀ e : Fin E, (idx (ix2 e 0)).toInt ≠ (n : Int)) ∨
    ∃ e : Fin E, (idx (ix2 e 0)).toInt = (n : Int) ∧ ∀ e' : Fin E, e < e' → (idx (ix2 e' 0)).toInt ≠ (n : Int) := by
  classical
  by_cases h : ∃ e : Fin E, (idx (ix2 e 0)).toInt = (n : Int)
  · right
    obtain ⟨e0, he0⟩ := h
    obtain ⟨e, hem, hmax⟩ := Finset.exists_max_image
      (Finset.univ.filter fun e : Fin E => (idx (ix2 e 0)).toInt = (n : Int)) id
      ⟨e0, Finset.mem_filter.mpr ⟨Finset.mem_univ _, he0⟩⟩
    refine ⟨e, (Finset.mem_filter.mp hem).2, fun e' hlt heq => ?_⟩
    have hle : e' ≤ e := hmax e' (Finset.mem_filter.mpr ⟨Finset.mem_univ _, heq⟩)
    exact absurd hlt (not_lt.mpr hle)
  · left
    intro e he
    exact h ⟨e, he⟩

/-- Rank 1, nothing lands on `g`: the operand's value stays. -/
theorem set1_of_none {α : Type} {N E w : Nat} (wf : ScatterDims.WF ⟨1, ![N]⟩ ⟨2, ![E, 1]⟩ ⟨1, ![E]⟩ [] [0] [0] 1)
    (idx : IVec ⟨2, ![E, 1]⟩ w) (x : (⟨1, ![N]⟩ : Shape).Idx → α) (u : (⟨1, ![E]⟩ : Shape).Idx → α) (g : Fin N)
    (h : ∀ e : Fin E, (idx (ix2 e 0)).toInt ≠ (g.val : Int)) :
    Host.scatter (dims1 N E wf) (fun _ b => b) x idx u (ix1 g) = x (ix1 g) := by
  refine scatter_set_of_none (dims1 N E wf) x idx u (ix1 g) (fun j hj => ?_)
  exact h (j 0) ((res1_iff wf idx j g).mp hj)

/-- Rank 1, `e` is the last row whose index is `g`: the value is update `e`. -/
theorem set1_of_last {α : Type} {N E w : Nat} (wf : ScatterDims.WF ⟨1, ![N]⟩ ⟨2, ![E, 1]⟩ ⟨1, ![E]⟩ [] [0] [0] 1)
    (idx : IVec ⟨2, ![E, 1]⟩ w) (x : (⟨1, ![N]⟩ : Shape).Idx → α) (u : (⟨1, ![E]⟩ : Shape).Idx → α) (g : Fin N) (e : Fin E)
    (he : (idx (ix2 e 0)).toInt = (g.val : Int)) (hlast : ∀ e' : Fin E, e < e' → (idx (ix2 e' 0)).toInt ≠ (g.val : Int)) :
    Host.scatter (dims1 N E wf) (fun _ b => b) x idx u (ix1 g) = u (ix1 e) := by
  refine scatter_set_of_last (dims1 N E wf) x idx u (ix1 g) (ix1 e) ((res1_iff wf idx (ix1 e) g).mpr he)
    (fun j' hlt hj' => ?_)
  have h1 := (res1_iff wf idx j' g).mp hj'
  rw [Fin.lt_def, Shape.rowMajor_val_one, Shape.rowMajor_val_one] at hlt
  exact hlast (j' 0) (Fin.lt_def.mpr hlt) h1

/-- Rank 2, nothing lands on row `g`: the operand's value stays. -/
theorem set2_of_none {α : Type} {N E H w : Nat} (wf : ScatterDims.WF ⟨2, ![N, H]⟩ ⟨2, ![E, 1]⟩ ⟨2, ![E, H]⟩ [1] [0] [0] 1)
    (idx : IVec ⟨2, ![E, 1]⟩ w) (x : (⟨2, ![N, H]⟩ : Shape).Idx → α) (u : (⟨2, ![E, H]⟩ : Shape).Idx → α) (g : Fin N) (c : Fin H)
    (h : ∀ e : Fin E, (idx (ix2 e 0)).toInt ≠ (g.val : Int)) :
    Host.scatter (dims2 N E H wf) (fun _ b => b) x idx u (ix2 g c) = x (ix2 g c) := by
  refine scatter_set_of_none (dims2 N E H wf) x idx u (ix2 g c) (fun j hj => ?_)
  exact h (j 0) ((res2_iff wf idx j g c).mp hj).1

/-- Rank 2, `e` is the last row whose index is `g`: the value at `(g, c)` is update row `e`'s column `c`. -/
theorem set2_of_last {α : Type} {N E H w : Nat} (wf : ScatterDims.WF ⟨2, ![N, H]⟩ ⟨2, ![E, 1]⟩ ⟨2, ![E, H]⟩ [1] [0] [0] 1)
    (idx : IVec ⟨2, ![E, 1]⟩ w) (x : (⟨2, ![N, H]⟩ : Shape).Idx → α) (u : (⟨2, ![E, H]⟩ : Shape).Idx → α) (g : Fin N) (c : Fin H) (e : Fin E)
    (he : (idx (ix2 e 0)).toInt = (g.val : Int)) (hlast : ∀ e' : Fin E, e < e' → (idx (ix2 e' 0)).toInt ≠ (g.val : Int)) :
    Host.scatter (dims2 N E H wf) (fun _ b => b) x idx u (ix2 g c) = u (ix2 e c) := by
  refine scatter_set_of_last (dims2 N E H wf) x idx u (ix2 g c) (ix2 e c)
    ((res2_iff wf idx (ix2 e c) g c).mpr ⟨he, rfl⟩) (fun j' hlt hj' => ?_)
  obtain ⟨h1, h2⟩ := (res2_iff wf idx j' g c).mp hj'
  rw [Fin.lt_def, Shape.rowMajor_val_two, Shape.rowMajor_val_two] at hlt
  -- row-major order is lexicographic: a later position has a later row, or the same row and another column
  have hlt' : e.val * H + c.val < (j' 0).val * H + (j' 1).val := hlt
  have hc : (j' 1).val < H := (j' 1).isLt
  by_cases hgt : e.val < (j' 0).val
  · exact hlast (j' 0) (Fin.lt_def.mpr hgt) h1
  · rcases Nat.lt_or_eq_of_le (Nat.le_of_not_lt hgt) with hlt2 | heq2
    · have hm : ((j' 0).val + 1) * H ≤ e.val * H := Nat.mul_le_mul_right H hlt2
      rw [Nat.succ_mul] at hm
      omega
    · rw [heq2] at hlt'
      omega

end Cert.Lib.ScatterSet
end
-- ==== Proof.Bridge.lean ====
/-
  ONE SLOT, THREE SCATTERS. The node rows, the kept flags and the node numbers are scattered along the same
  column of slots, each over a constant table. For a slot `n`: if no node's slot is `n`, the flag table keeps its
  initial value there (false); otherwise the three scatters are all won by the last node `e` whose slot is `n`:
  the number table holds `e`, and the row table holds node `e`'s row — the row the number table points at.
-/
import proofs.«400074_j43971875176951_3_alg».proof.Proof.LibScatterSet
noncomputable section
namespace Cert.Bridge
open Idealize.ShloMosaic Idealize.ShloMosaic.ValueIdx Cert.Lib.ScatterUnit Cert.Lib.PoolScatter Cert.Lib.ScatterSet

theorem slot_cases {α : Type} (I : IVec ⟨2, ![262144, 1]⟩ 32) (n : Fin 32769)
    (wf1 : ScatterDims.WF ⟨1, ![32769]⟩ ⟨2, ![262144, 1]⟩ ⟨1, ![262144]⟩ [] [0] [0] 1)
    (wf2 : ScatterDims.WF ⟨2, ![32769, 128]⟩ ⟨2, ![262144, 1]⟩ ⟨2, ![262144, 128]⟩ [1] [0] [0] 1)
    (x1 : (⟨1, ![32769]⟩ : Shape).Idx → BitVec 1) (hx1 : x1 (ix1 n) = 0#1) (valid : (⟨1, ![262144]⟩ : Shape).Idx → BitVec 1)
    (x32 : (⟨1, ![32769]⟩ : Shape).Idx → BitVec 32) (u : (⟨1, ![262144]⟩ : Shape).Idx → BitVec 32)
    (hu : ∀ e : Fin 262144, u (ix1 e) = BitVec.ofNat 32 e.val)
    (xz : (⟨2, ![32769, 128]⟩ : Shape).Idx → α) (a0 : (⟨2, ![262144, 128]⟩ : Shape).Idx → α) :
    Host.scatter (dims1 32769 262144 wf1) (fun _ b => b) x1 I valid (ix1 n) = 0#1
    ∨ ∃ e : Fin 262144, Host.scatter (dims1 32769 262144 wf1) (fun _ b => b) x32 I u (ix1 n) = BitVec.ofNat 32 e.val
        ∧ ∀ d : Fin 128, Host.scatter (dims2 32769 262144 128 wf2) (fun _ b => b) xz I a0 (ix2 n d) = a0 (ix2 e d) := by
  rcases winner_cases I n.val with hnone | ⟨e, he, hlast⟩
  · left
    rw [set1_of_none wf1 I x1 valid n hnone]
    exact hx1
  · right
    refine ⟨e, ?_, fun d => ?_⟩
    · rw [set1_of_last wf1 I x32 u n e he hlast]
      exact hu e
    · exact set2_of_last wf2 I xz a0 n d e he hlast

end Cert.Bridge
end
-- ==== Proof.Final.lean ====
/-
  THE TWO RESULTS ARE EQUAL, ENTRY BY ENTRY. At entry `(b, 7·g + r)` the kernel's array holds the perceptron score
  of slot `(b, g)` where the folded mask is positive, the reference's holds it where the slot is occupied and the
  direction allowed; the folded mask is positive exactly when both hold. Where they hold the slot is occupied, so
  some node fills it, and the last such node `e` wins all three scatters: the reference's packed row is node `e`'s
  feature row, and the kernel's slot-to-node table holds `e`, so its gathered row is node `e`'s feature row too;
  the global rows and the weights are the same arrays. Elsewhere both hold the fill value.
-/
import proofs.«400074_j43971875176951_3_alg».proof.Proof.KerValue
import proofs.«400074_j43971875176951_3_alg».proof.Proof.KerRes
import proofs.«400074_j43971875176951_3_alg».proof.Proof.KerHostValue
import proofs.«400074_j43971875176951_3_alg».proof.Proof.RefRes
import proofs.«400074_j43971875176951_3_alg».proof.Proof.RefValue
import proofs.«400074_j43971875176951_3_alg».proof.Proof.Chain
import proofs.«400074_j43971875176951_3_alg».proof.Proof.Bridge
set_option maxRecDepth 65536
noncomputable section
namespace Cert.Final
open Idealize.ShloMosaic Idealize.ShloMosaic.ValueIdx Idealize.ShloMosaic.TcCoe Idealize.SL.Sem Cert.Spec
open Cert.Lib.ScatterUnit Cert.Lib.PoolScatter

/-- The widened conjunction of two flags is positive exactly when both are set. -/
theorem sgt_ext_and (o a : BitVec 1) : IntOp.cmpi .sgt ((IntOp.andi o a).setWidth 32) 0#32 = IntOp.andi o a := by
  revert o a; decide

/-- Choosing by a conjunction is choosing twice. -/
theorem select_and {α : Type} (o a : BitVec 1) (X N : α) :
    Scalar.select (IntOp.andi o a) X N = Scalar.select a (Scalar.select o X N) N := by
  have ho : o = 0#1 ∨ o = 1#1 := by revert o; decide
  have ha : a = 0#1 ∨ a = 1#1 := by revert a; decide
  rcases ho with rfl | rfl <;> rcases ha with rfl | rfl <;> rfl

/-- The two entries, abstractly: equal occupancy flags, and packed rows that agree where the slot is occupied. -/
theorem core (a oK oR : BitVec 1) (hO : oK = oR) (FK FR G : Fin 128 → EReal) (hF : oR = 1#1 → FK = FR)
    (w1a w1b : Fin 128 → Fin 128 → EReal) (b1 : Fin 128 → EReal) (w2 : Fin 128 → Fin 7 → EReal) (b2 : Fin 7 → EReal) (r : Fin 7) :
    Scalar.select (IntOp.cmpi .sgt ((IntOp.andi oK a).setWidth 32) 0#32) (mlp FK G w1a w1b b1 w2 b2 r) NEG
      = Scalar.select a (Scalar.select oR (mlp FR G w1a w1b b1 w2 b2 r) NEG) NEG := by
  subst hO
  rw [sgt_ext_and, select_and]
  by_cases h : oK = 1#1
  · rw [hF h]
  · rw [eq_zero_of_ne_one h, select_zero, select_zero]

theorem out_eq (m : (ℓ : Loc Cert.KernelIdeal.nD Cert.KernelIdeal.τ Cert.KernelIdeal.sig) → Buf (Elt Ideal) ℓ) (c : Dev Cert.KernelIdeal.nD) (b : Fin 4096) (g : Fin 8) (r : Fin 7) :
    (Cert.KernelIdeal.Gen.dats m 0 c).arrAt 8 Cert.KernelIdeal.cfg0.N (ix2 b (col g r))
      = Cert.ReferenceIdeal.RefRun.refOut (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (ix2 b (col g r)) := by
  rw [Cert.KernelIdeal.KerValue.arr_apply m c b g r, Cert.KernelIdeal.KerRes.V_v53, Cert.KernelIdeal.KerRes.V_v46, Cert.KernelIdeal.KerRes.V_v54, Cert.KernelIdeal.KerRes.V_v55,
    Cert.KernelIdeal.Gen.V_main_arg1, Cert.KernelIdeal.Gen.V_main_arg6, Cert.KernelIdeal.Gen.V_main_arg7, Cert.KernelIdeal.Gen.V_main_arg8]
  rw [Cert.KernelIdeal.KerHost.mask_apply, Cert.KernelIdeal.KerHost.occ_apply]
  unfold Cert.ReferenceIdeal.RefRun.refOut
  rw [Cert.ReferenceIdeal.RefValue.tail_apply, Cert.ReferenceIdeal.RefValue.occ_apply]
  simp only [Cert.KernelIdeal.KerHost.w1a_apply, Cert.KernelIdeal.KerHost.w1b_apply, Cert.ReferenceIdeal.RefValue.feats_apply, Cert.ReferenceIdeal.RefValue.glob_apply]
  dsimp only [Cert.KernelIdeal.KerRes.slotA, Cert.KernelIdeal.KerRes.validA, Cert.ReferenceIdeal.RefRun.slotA, Cert.ReferenceIdeal.RefRun.validA]
  rw [Cert.Chain.idx'_eq, Cert.Chain.idx_eq, Cert.Chain.slot_eq, Cert.Chain.valid_eq, Cert.Chain.v0_eq, Cert.Chain.v4_eq, Cert.Chain.v5_eq,
    Cert.Chain.ridx'_eq]
  generalize Cert.ReferenceIdeal.RefOps.r_idx (F := Ideal) (Cert.ReferenceIdeal.RefOps.r_slot (Cert.ReferenceIdeal.RefOps.r_v0 (m ((c : Thread Cert.KernelIdeal.nD Cert.KernelIdeal.τ).loc Cert.KernelIdeal.main_arg2))) Cert.ReferenceIdeal.RefOps.r_v4 (Cert.ReferenceIdeal.RefOps.r_v5 (m ((c : Thread Cert.KernelIdeal.nD Cert.KernelIdeal.τ).loc Cert.KernelIdeal.main_arg2)) (m ((c : Thread Cert.KernelIdeal.nD Cert.KernelIdeal.τ).loc Cert.KernelIdeal.main_arg4))) (m ((c : Thread Cert.KernelIdeal.nD Cert.KernelIdeal.τ).loc Cert.KernelIdeal.main_arg2)) (m ((c : Thread Cert.KernelIdeal.nD Cert.KernelIdeal.τ).loc Cert.KernelIdeal.main_arg4))) = I
  generalize Cert.ReferenceIdeal.RefOps.r_valid (F := Ideal) (Cert.ReferenceIdeal.RefOps.r_v0 (m ((c : Thread Cert.KernelIdeal.nD Cert.KernelIdeal.τ).loc Cert.KernelIdeal.main_arg2))) Cert.ReferenceIdeal.RefOps.r_v4 (Cert.ReferenceIdeal.RefOps.r_v5 (m ((c : Thread Cert.KernelIdeal.nD Cert.KernelIdeal.τ).loc Cert.KernelIdeal.main_arg2)) (m ((c : Thread Cert.KernelIdeal.nD Cert.KernelIdeal.τ).loc Cert.KernelIdeal.main_arg4))) (m ((c : Thread Cert.KernelIdeal.nD Cert.KernelIdeal.τ).loc Cert.KernelIdeal.main_arg2)) (m ((c : Thread Cert.KernelIdeal.nD Cert.KernelIdeal.τ).loc Cert.KernelIdeal.main_arg4)) = valid
  refine core _ _ _ rfl _ _ _ ?_ _ _ _ _ _ _
  intro hocc
  rcases Cert.Bridge.slot_cases I (slotW b g) Cert.ReferenceIdeal.Gen.scatter_S32769_S262144x1_S262144_n_0_0_1_wf
      Cert.ReferenceIdeal.Gen.scatter_S32769x128_S262144x1_S262144x128_1_0_0_1_wf
      (broadcastInDim Cert.ReferenceIdeal.S32769 ![] Cert.ReferenceIdeal.Gen.bcast_S_S32769 (constantI Cert.ReferenceIdeal.S_ 1 0#1)) rfl valid
      (broadcastInDim Cert.KernelIdeal.S32769 ![] Cert.KernelIdeal.Gen.bcast_S_S32769 (constantI Cert.KernelIdeal.S_ 32 0#32)) (iotaInDim Cert.KernelIdeal.S262144 32 0) (fun _ => rfl)
      (broadcastInDim Cert.ReferenceIdeal.S32769x128 ![] Cert.ReferenceIdeal.Gen.bcast_S_S32769x128 (constant (F := Ideal) Cert.ReferenceIdeal.S_ .f32 0x00000000#32))
      (m ((c : Thread Cert.KernelIdeal.nD Cert.KernelIdeal.τ).loc Cert.KernelIdeal.main_arg0)) with h0 | ⟨e, hde, hfe⟩
  · exact absurd (h0.symm.trans hocc) (by decide)
  · funext d
    have hdest : Cert.KernelIdeal.KerOps.k_dest (F := Ideal) I (ix1 (slot b g)) = BitVec.ofNat 32 e.val := (Cert.KernelIdeal.KerHost.dest_apply I b g).trans hde
    have he := e.isLt
    have hlt : (Cert.KernelIdeal.KerOps.k_dest (F := Ideal) I (ix1 (slot b g))).toNat < 262144 := by
      rw [hdest, BitVec.toNat_ofNat]; omega
    rw [Cert.KernelIdeal.KerHost.take_apply _ _ (slot b g) d hlt]
    refine Eq.trans ?_ (hfe d).symm
    refine congrArg (fun x => (m ((c : Thread Cert.KernelIdeal.nD Cert.KernelIdeal.τ).loc Cert.KernelIdeal.main_arg0)) (ix2 x d)) (Fin.ext ?_)
    generalize Cert.KernelIdeal.KerOps.k_dest (F := Ideal) I (ix1 (slot b g)) = w at hdest hlt ⊢
    subst hdest
    simp only [BitVec.toNat_ofNat]
    omega

/-- The two result arrays are equal as functions. -/
theorem out_fun_eq (m : (ℓ : Loc Cert.KernelIdeal.nD Cert.KernelIdeal.τ Cert.KernelIdeal.sig) → Buf (Elt Ideal) ℓ) (c : Dev Cert.KernelIdeal.nD) :
    (Cert.KernelIdeal.Gen.dats m 0 c).arrAt 8 Cert.KernelIdeal.cfg0.N
      = Cert.ReferenceIdeal.RefRun.refOut (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
  funext i
  obtain ⟨b, j, rfl⟩ : ∃ (b : Fin 4096) (j : Fin 56), i = ix2 b j := ⟨i 0, i 1, eq_ix2 i⟩
  obtain ⟨g, r, rfl⟩ := exists_col j
  exact out_eq m c b g r

end Cert.Final
end
-- ==== Proof.lean ====
/-
  The kernel packs, for each of 4096 graphs, the feature rows of its first eight groups into a table of 32768
  slots, runs a two-layer perceptron on every slot's row joined with the graph's global row, and masks the 7
  scores of a slot by the slot's occupancy and the graph's direction mask. The reference scatters the node rows
  themselves into the table; the kernel scatters the node numbers and gathers the rows they name. Both scatters
  are along the same column of slots and are won, at every occupied slot, by the same (the last) node, so the two
  tables agree on occupied slots, and on the others both results hold the fill value. The perceptron is the same
  arithmetic on both sides once the reference's one contraction over 256 joined coordinates is split into the two
  contractions over 128 the kernel adds: a regrouping of a finite sum, valid on the extended reals as it stands.

  The frames of the two kernel programs are the generated ones. The reference is a straight line of host
  operations; its frame is its run with the result dropped. The idealization ledger is empty.
-/
import proofs.«400074_j43971875176951_3_alg».proof.Defs
import proofs.«400074_j43971875176951_3_alg».proof.Proof.Gen.Kernel
import proofs.«400074_j43971875176951_3_alg».proof.Proof.Gen.Kernel.Skeleton
import proofs.«400074_j43971875176951_3_alg».proof.Proof.Gen.Kernel.Launch
import proofs.«400074_j43971875176951_3_alg».proof.Proof.Gen.Kernel.Points
import proofs.«400074_j43971875176951_3_alg».proof.Proof.Gen.Kernel.Frame
import proofs.«400074_j43971875176951_3_alg».proof.Proof.Gen.KernelIdeal
import proofs.«400074_j43971875176951_3_alg».proof.Proof.Gen.KernelIdeal.Skeleton
import proofs.«400074_j43971875176951_3_alg».proof.Proof.Gen.KernelIdeal.Launch
import proofs.«400074_j43971875176951_3_alg».proof.Proof.Gen.KernelIdeal.Points
import proofs.«400074_j43971875176951_3_alg».proof.Proof.Gen.KernelIdeal.Frame
import proofs.«400074_j43971875176951_3_alg».proof.Proof.Gen.KernelIdeal.Value
import proofs.«400074_j43971875176951_3_alg».proof.Proof.Gen.ReferenceIdeal
import proofs.«400074_j43971875176951_3_alg».proof.Proof.Gen.Pre_finite_inputs
import proofs.«400074_j43971875176951_3_alg».proof.Proof.Final
import Idealize.ShloMosaic.Adequacy
import Idealize.ShloMosaic.Init

noncomputable section

namespace Cert.Proof

open Idealize.ShloMosaic Idealize.SL.Sem Idealize.ShloMosaic.StableHlo

/-- The reference's run: every weakly fair execution ends with the result at `refOut` of the arguments and the
    arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v61)
          = Cert.ReferenceIdeal.RefRun.refOut (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8) :=
  (θ_run (Cert.ReferenceIdeal.defs (F := Ideal)) _ _).mono (fun _ h c =>
    ⟨(h c Cert.ReferenceIdeal.main_v61).trans (Cert.ReferenceIdeal.RefRun.res_v61 (launchContents m c)),
     (h c Cert.ReferenceIdeal.main_arg0).trans (Cert.ReferenceIdeal.RefRun.res_arg0 (launchContents m c)),
     (h c Cert.ReferenceIdeal.main_arg1).trans (Cert.ReferenceIdeal.RefRun.res_arg1 (launchContents m c)),
     (h c Cert.ReferenceIdeal.main_arg2).trans (Cert.ReferenceIdeal.RefRun.res_arg2 (launchContents m c)),
     (h c Cert.ReferenceIdeal.main_arg3).trans (Cert.ReferenceIdeal.RefRun.res_arg3 (launchContents m c)),
     (h c Cert.ReferenceIdeal.main_arg4).trans (Cert.ReferenceIdeal.RefRun.res_arg4 (launchContents m c)),
     (h c Cert.ReferenceIdeal.main_arg5).trans (Cert.ReferenceIdeal.RefRun.res_arg5 (launchContents m c)),
     (h c Cert.ReferenceIdeal.main_arg6).trans (Cert.ReferenceIdeal.RefRun.res_arg6 (launchContents m c)),
     (h c Cert.ReferenceIdeal.main_arg7).trans (Cert.ReferenceIdeal.RefRun.res_arg7 (launchContents m c)),
     (h c Cert.ReferenceIdeal.main_arg8).trans (Cert.ReferenceIdeal.RefRun.res_arg8 (launchContents m c))⟩)
    (Cert.ReferenceIdeal.RefRun.run_main (F := Ideal) m ρ)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run (Cert.ReferenceIdeal.defs (F := Ideal)) _ _).mono (fun _ h c => (h c).2) (ref_run m ρ),
  trivial,
  fun m ρ m' ρ' _ hagree =>
    ⟨fun c => (Cert.KernelIdeal.Gen.dats m 0 c).arrAt 8 Cert.KernelIdeal.cfg0.N,
     Cert.KernelIdeal.Value.run_blocks m ρ,
     (θ_run (Cert.ReferenceIdeal.defs (F := Ideal)) _ _).mono (fun _ h c =>
        ⟨by
          rw [(h c).1, (hagree c).1, (hagree c).2.1, (hagree c).2.2.1, (hagree c).2.2.2.1, (hagree c).2.2.2.2.1, (hagree c).2.2.2.2.2.1,
            (hagree c).2.2.2.2.2.2.1, (hagree c).2.2.2.2.2.2.2.1, (hagree c).2.2.2.2.2.2.2.2]
          exact (Cert.Final.out_fun_eq m c).symm,
         (h c).2⟩)
      (ref_run m' ρ')⟩⟩

end Cert.Proof

end
